-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x2048x4 : Shape := ⟨3, ![8, 2048, 4]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S8x2048x4 : S_.BroadcastsInDim S8x2048x4 (![] : Fin 0 → Fin S8x2048x4.rank)
  reducesTo_S8x2048x4_S_d0_1_2 : S8x2048x4.ReducesTo [0, 1, 2] S_

variable [Facts]

def fn_part1 {F : FTy → Type} [FloatOps F] (main_arg4 : IVec S8x2048x4 32) (main_v13 : IVec S_ 1) (main_v16 : IVec S8x512x2048 1) : IVec S_ 1 :=
  let main_c_5 : IVec S_ 1 := constantI S_ 1 1#1
  let main_v17 : IVec S_ 1 := (fun x v => Host.reduce IntOp.andi x v reducesTo_S8x512x2048_S_d0_1_2 h_S_) main_v16 main_c_5
  let main_v18 : IVec S_ 1 := andi main_v13 main_v17
  let main_c_6 : IVec S_ 32 := constantI S_ 32 0#32
  let main_v19 : IVec S8x2048x4 32 := broadcastInDim S8x2048x4 ![] bcast_S_S8x2048x4 main_c_6
  let main_v20 : IVec S8x2048x4 1 := cmpi .sge main_arg4 main_v19
  let main_c_7 : IVec S_ 32 := constantI S_ 32 512#32
  let main_v21 : IVec S8x2048x4 32 := broadcastInDim S8x2048x4 ![] bcast_S_S8x2048x4 main_c_7
  let main_v22 : IVec S8x2048x4 1 := cmpi .slt main_arg4 main_v21
  let main_v23 : IVec S8x2048x4 1 := andi main_v20 main_v22
  let main_c_8 : IVec S_ 1 := constantI S_ 1 1#1
  let main_v24 : IVec S_ 1 := (fun x v => Host.reduce IntOp.andi x v reducesTo_S8x2048x4_S_d0_1_2 h_S_) main_v23 main_c_8
  let main_v25 : IVec S_ 1 := andi main_v18 main_v24
  main_v25

def fn {F : FTy → Type} [FloatOps F] (main_arg0 : FVec F S8x512x2048 .f32) (main_arg1 : FVec F S8x512x2048 .f32) (main_arg2 : FVec F S8x512x2048 .f32) (main_arg3 : FVec F S8x512x2048 .f32) (main_arg4 : IVec S8x2048x4 32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x512x2048 .f32 := Host.absf main_arg2
  let main_cst_2 : FVec F S_ .f32 := constant S_ .f32 0x7F800000#32
  let main_v10 : FVec F S8x512x2048 .f32 := broadcastInDim S8x512x2048 ![] bcast_S_S8x512x2048 main_cst_2
  let main_v11 : IVec S8x512x2048 1 := cmpf .olt main_v9 main_v10
  let main_c_3 : IVec S_ 1 := constantI S_ 1 1#1
  let main_v12 : IVec S_ 1 := (fun x v => Host.reduce IntOp.andi x v reducesTo_S8x512x2048_S_d0_1_2 h_S_) main_v11 main_c_3
  let main_v13 : IVec S_ 1 := andi main_v8 main_v12
  let main_v14 : FVec F S8x512x2048 .f32 := Host.absf main_arg3
  let main_cst_4 : FVec F S_ .f32 := constant S_ .f32 0x7F800000#32
  let main_v15 : FVec F S8x512x2048 .f32 := broadcastInDim S8x512x2048 ![] bcast_S_S8x512x2048 main_cst_4
  let main_v16 : IVec S8x512x2048 1 := cmpf .olt main_v14 main_v15
  fn_part1 (F := F) main_arg4 main_v13 main_v16
-- ==== Kernel.lean ====
abbrev S8x512x2048 : Shape := ⟨3, ![8, 512, 2048]⟩
abbrev S8x2048x4 : Shape := ⟨3, ![8, 2048, 4]⟩
abbrev S8x2048x1 : Shape := ⟨3, ![8, 2048, 1]⟩
abbrev S8x2048 : Shape := ⟨2, ![8, 2048]⟩
abbrev S2x1x1 : Shape := ⟨3, ![2, 1, 1]⟩
abbrev S8x512x256 : Shape := ⟨3, ![8, 512, 256]⟩
abbrev S8x256 : Shape := ⟨2, ![8, 256]⟩
abbrev S1x1x1 : Shape := ⟨3, ![1, 1, 1]⟩
abbrev S1x1x256 : Shape := ⟨3, ![1, 1, 256]⟩
abbrev S8x1x256 : Shape := ⟨3, ![8, 1, 256]⟩
abbrev S1x256 : Shape := ⟨2, ![1, 256]⟩
abbrev S1x1x1x256 : Shape := ⟨4, ![1, 1, 1, 256]⟩
abbrev S1 : Shape := ⟨1, ![1]⟩
abbrev S1x1x1x1 : Shape := ⟨4, ![1, 1, 1, 1]⟩
abbrev S_ : Shape := ⟨0, ![]⟩

abbrev nBuf : Space → Nat
  | .hbm => 26
  | .vmem => 22
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x2048, .f32⟩
  | .hbm, ⟨3, _⟩ => ⟨S8x512x2048, .f32⟩
  | .hbm, ⟨4, _⟩ => ⟨S8x2048x4, .i32⟩
  | .hbm, ⟨5, _⟩ => ⟨S8x2048x1, .i32⟩
  | .hbm, ⟨6, _⟩ => ⟨S8x2048, .i32⟩
  | .hbm, ⟨7, _⟩ => ⟨S8x2048x1, .i32⟩
  | .hbm, ⟨8, _⟩ => ⟨S8x2048, .i32⟩
  | .hbm, ⟨9, _⟩ => ⟨S8x2048x1, .i32⟩
  | .hbm, ⟨10, _⟩ => ⟨S8x2048, .i32⟩
  | .hbm, ⟨11, _⟩ => ⟨S8x2048x1, .i32⟩
  | .hbm, ⟨12, _⟩ => ⟨S8x2048, .i32⟩
  | .hbm, ⟨13, _⟩ => ⟨S2x1x1, .f32⟩
  | .hbm, ⟨14, _⟩ => ⟨S2x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8x512x256, .f32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x512x256, .f32⟩
  | .local _ .vmem, ⟨5, _⟩ => ⟨S8x512x256, .f32⟩
  | .local _ .vmem, ⟨6, _⟩ => ⟨S8x512x256, .f32⟩
  | .local _ .vmem, ⟨7, _⟩ => ⟨S8x512x256, .f32⟩
  | .local _ .vmem, ⟨8, _⟩ => ⟨S8x256, .i32⟩
  | .local _ .vmem, ⟨9, _⟩ => ⟨S8x256, .i32⟩
  | .local _ .vmem, ⟨10, _⟩ => ⟨S8x256, .i32⟩
  | .local _ .vmem, ⟨11, _⟩ => ⟨S8x256, .i32⟩
  | .local _ .vmem, ⟨12, _⟩ => ⟨S8x256, .i32⟩
  | .local _ .vmem, ⟨13, _⟩ => ⟨S8x256, .i32⟩
  | .local _ .vmem, ⟨14, _⟩ => ⟨S8x256, .i32⟩
  | .local _ .vmem, ⟨15, _⟩ => ⟨S8x256, .i32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x256, .f32⟩
  | .local _ .vmem, ⟨21, _⟩ => ⟨S1x1x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v131 : BitVec 1 := Scalar.cmpi .eq arg1 c3_i32
  let v132 : BitVec 32 := Scalar.extui v131
  let c0_i32_49 : BitVec 32 := 0#32
  let v133 : BitVec 1 := Scalar.cmpi .ne v132 c0_i32_49
  v133

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  slices_S8x2048x4_S8x2048x1_0_0_0 : S8x2048x4.Slices ![0, 0, 0] S8x2048x1
  shapeCasts_S8x2048x1_S8x2048 : S8x2048x1.ShapeCasts S8x2048
  slices_S8x2048x4_S8x2048x1_0_0_1 : S8x2048x4.Slices ![0, 0, 1] S8x2048x1
  slices_S8x2048x4_S8x2048x1_0_0_2 : S8x2048x4.Slices ![0, 0, 2] S8x2048x1
  slices_S8x2048x4_S8x2048x1_0_0_3 : S8x2048x4.Slices ![0, 0, 3] S8x2048x1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x512x256_S8x512x256_0_0_0 : ∀ a, (![0, 0, 0] : Fin 3 → Nat) a + S8x512x256.size a ≤ S8x512x256.size a
  h_S8x512x256 : 0 < S8x512x256.numel
  reduces_S8x512x256_S8x256 : S8x512x256.Reduces [1] S8x256
  shapeCasts_S8x256_S8x1x256 : S8x256.ShapeCasts S8x1x256
  broadcasts_S8x1x256_S8x512x256 : S8x1x256.Broadcasts S8x512x256
  iota_S8x512x256_d1_w32 : S8x512x256.Iotas .tc 32 [1]
  natLt_1_32 : 1 < 32
  reduces_S8x1x256_S1x256 : S8x1x256.Reduces [0] S1x256
  shapeCasts_S1x256_S1x1x256 : S1x256.ShapeCasts S1x1x256
  shapeCasts_S1x1x256_S1x1x1x256 : S1x1x256.ShapeCasts S1x1x1x256
  reduces_S1x1x1x256_S1 : S1x1x1x256.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S8x512x2048.size a
  hwx0_0 : ∀ i : grid0.Coords, EltTy.bits .f32 = 32 ∨ (Rect.block (s := S8x512x2048) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S8x512x2048.size a
  hwx0_1 : ∀ i : grid0.Coords, EltTy.bits .f32 = 32 ∨ (Rect.block (s := S8x512x2048) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x256.size a ≤ S8x512x2048.size a
  hwx0_2 : ∀ i : grid0.Coords, EltTy.bits .f32 = 32 ∨ (Rect.block (s := S8x512x2048) S8x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x256.size a ≤ S8x512x2048.size a
  hwx0_3 : ∀ i : grid0.Coords, EltTy.bits .f32 = 32 ∨ (Rect.block (s := S8x512x2048) S8x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x2048.size a
  hwx0_4 : ∀ i : grid0.Coords, EltTy.bits .i32 = 32 ∨ (Rect.block (s := S8x2048) S8x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x2048.size a
  hwx0_5 : ∀ i : grid0.Coords, EltTy.bits .i32 = 32 ∨ (Rect.block (s := S8x2048) S8x256.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x2048.size a
  hwx0_6 : ∀ i : grid0.Coords, EltTy.bits .i32 = 32 ∨ (Rect.block (s := S8x2048) S8x256.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x2048.size a
  hwx0_7 : ∀ i : grid0.Coords, EltTy.bits .i32 = 32 ∨ (Rect.block (s := S8x2048) S8x256.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)

variable [Facts₀]

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S8x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S8x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8x512x2048 : Shape := ⟨3, ![8, 512, 2048]⟩
abbrev S8x2048x4 : Shape := ⟨3, ![8, 2048, 4]⟩
abbrev S8x2048x1 : Shape := ⟨3, ![8, 2048, 1]⟩
abbrev S8x2048 : Shape := ⟨2, ![8, 2048]⟩
abbrev S_ : Shape := ⟨0, ![]⟩
abbrev S8x1x2048 : Shape := ⟨3, ![8, 1, 2048]⟩
abbrev S8x1x2048x1 : Shape := ⟨4, ![8, 1, 2048, 1]⟩
abbrev S1 : Shape := ⟨1, ![1]⟩
abbrev S1x1x1x1 : Shape := ⟨4, ![1, 1, 1, 1]⟩

abbrev nBuf : Space → Nat
  | .hbm => 209
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x512x2048, .f32⟩
  | 3 => ⟨S8x512x2048, .f32⟩
  | 4 => ⟨S8x2048x4, .i32⟩
  | 5 => ⟨S8x2048x1, .i32⟩
  | 6 => ⟨S8x2048, .i32⟩
  | 7 => ⟨S_, .f32⟩
  | 8 => ⟨S8x2048, .f32⟩
  | 9 => ⟨S_, .f32⟩
  | 10 => ⟨S8x2048, .f32⟩
  | 11 => ⟨S8x2048, .f32⟩
  | 12 => ⟨S8x1x2048, .f32⟩
  | 13 => ⟨S8x512x2048, .f32⟩
  | 14 => ⟨S8x512x2048, .f32⟩
  | 15 => ⟨S8x512x2048, .f32⟩
  | 16 => ⟨S_, .f32⟩
  | 17 => ⟨S8x2048, .f32⟩
  | 18 => ⟨S8x1x2048, .f32⟩
  | 19 => ⟨S8x1x2048, .f32⟩
  | 20 => ⟨S8x512x2048, .f32⟩
  | 21 => ⟨S8x512x2048, .f32⟩
  | 22 => ⟨S8x1x2048, .i32⟩
  | 23 => ⟨S_, .i32⟩
  | 24 => ⟨S8x1x2048, .i32⟩
  | 25 => ⟨S8x1x2048, .i1⟩
  | 26 => ⟨S_, .i32⟩
  | 27 => ⟨S8x1x2048, .i32⟩
  | 28 => ⟨S8x1x2048, .i32⟩
  | 29 => ⟨S8x1x2048, .i32⟩
  | 30 => ⟨S8x1x2048x1, .i32⟩
  | 31 => ⟨S1, .i32⟩
  | 32 => ⟨S_, .i32⟩
  | 33 => ⟨S8x1x2048x1, .i32⟩
  | 34 => ⟨S8x1x2048x1, .i1⟩
  | 35 => ⟨S1x1x1x1, .i32⟩
  | 36 => ⟨S8x1x2048x1, .i32⟩
  | 37 => ⟨S8x1x2048x1, .i1⟩
  | 38 => ⟨S8x1x2048x1, .i1⟩
  | 39 => ⟨S_, .i1⟩
  | 40 => ⟨S8x1x2048, .i1⟩
  | 41 => ⟨S8x1x2048, .f32⟩
  | 42 => ⟨S_, .f32⟩
  | 43 => ⟨S8x1x2048, .f32⟩
  | 44 => ⟨S8x1x2048, .f32⟩
  | 45 => ⟨S8x2048, .f32⟩
  | 46 => ⟨S8x2048, .f32⟩
  | 47 => ⟨S_, .f32⟩
  | 48 => ⟨S_, .f32⟩
  | 49 => ⟨S_, .f32⟩
  | 50 => ⟨S_, .f32⟩
  | 51 => ⟨S8x2048x1, .i32⟩
  | 52 => ⟨S8x2048, .i32⟩
  | 53 => ⟨S8x2048x1, .i32⟩
  | 54 => ⟨S8x2048, .i32⟩
  | 55 => ⟨S_, .f32⟩
  | 56 => ⟨S8x2048, .f32⟩
  | 57 => ⟨S_, .f32⟩
  | 58 => ⟨S8x2048, .f32⟩
  | 59 => ⟨S8x2048, .f32⟩
  | 60 => ⟨S8x1x2048, .f32⟩
  | 61 => ⟨S8x512x2048, .f32⟩
  | 62 => ⟨S8x512x2048, .f32⟩
  | 63 => ⟨S8x512x2048, .f32⟩
  | 64 => ⟨S_, .f32⟩
  | 65 => ⟨S8x2048, .f32⟩
  | 66 => ⟨S8x1x2048, .f32⟩
  | 67 => ⟨S8x1x2048, .f32⟩
  | 68 => ⟨S8x512x2048, .f32⟩
  | 69 => ⟨S8x512x2048, .f32⟩
  | 70 => ⟨S8x1x2048, .i32⟩
  | 71 => ⟨S_, .i32⟩
  | 72 => ⟨S8x1x2048, .i32⟩
  | 73 => ⟨S8x1x2048, .i1⟩
  | 74 => ⟨S_, .i32⟩
  | 75 => ⟨S8x1x2048, .i32⟩
  | 76 => ⟨S8x1x2048, .i32⟩
  | 77 => ⟨S8x1x2048, .i32⟩
  | 78 => ⟨S8x1x2048x1, .i32⟩
  | 79 => ⟨S1, .i32⟩
  | 80 => ⟨S_, .i32⟩
  | 81 => ⟨S8x1x2048x1, .i32⟩
  | 82 => ⟨S8x1x2048x1, .i1⟩
  | 83 => ⟨S1x1x1x1, .i32⟩
  | 84 => ⟨S8x1x2048x1, .i32⟩
  | 85 => ⟨S8x1x2048x1, .i1⟩
  | 86 => ⟨S8x1x2048x1, .i1⟩
  | 87 => ⟨S_, .i1⟩
  | 88 => ⟨S8x1x2048, .i1⟩
  | 89 => ⟨S8x1x2048, .f32⟩
  | 90 => ⟨S_, .f32⟩
  | 91 => ⟨S8x1x2048, .f32⟩
  | 92 => ⟨S8x1x2048, .f32⟩
  | 93 => ⟨S8x2048, .f32⟩
  | 94 => ⟨S8x2048, .f32⟩
  | 95 => ⟨S_, .i32⟩
  | 96 => ⟨S8x2048, .i32⟩
  | 97 => ⟨S8x2048, .i1⟩
  | 98 => ⟨S8x2048, .f32⟩
  | 99 => ⟨S8x2048, .f32⟩
  | 100 => ⟨S_, .f32⟩
  | 101 => ⟨S_, .f32⟩
  | 102 => ⟨S_, .f32⟩
  | 103 => ⟨S_, .f32⟩
  | 104 => ⟨S8x2048x1, .i32⟩
  | 105 => ⟨S8x2048, .i32⟩
  | 106 => ⟨S_, .f32⟩
  | 107 => ⟨S8x2048, .f32⟩
  | 108 => ⟨S_, .f32⟩
  | 109 => ⟨S8x2048, .f32⟩
  | 110 => ⟨S8x2048, .f32⟩
  | 111 => ⟨S8x1x2048, .f32⟩
  | 112 => ⟨S8x512x2048, .f32⟩
  | 113 => ⟨S8x512x2048, .f32⟩
  | 114 => ⟨S8x512x2048, .f32⟩
  | 115 => ⟨S_, .f32⟩
  | 116 => ⟨S8x2048, .f32⟩
  | 117 => ⟨S8x1x2048, .f32⟩
  | 118 => ⟨S8x1x2048, .f32⟩
  | 119 => ⟨S8x512x2048, .f32⟩
  | 120 => ⟨S8x512x2048, .f32⟩
  | 121 => ⟨S8x1x2048, .i32⟩
  | 122 => ⟨S_, .i32⟩
  | 123 => ⟨S8x1x2048, .i32⟩
  | 124 => ⟨S8x1x2048, .i1⟩
  | 125 => ⟨S_, .i32⟩
  | 126 => ⟨S8x1x2048, .i32⟩
  | 127 => ⟨S8x1x2048, .i32⟩
  | _ => ⟨S8x512x2048, .f32⟩

abbrev hbmTy0_1 (i : Nat) : BufTy := match i % 128 with
  | 0 => ⟨S8x1x2048, .i32⟩
  | 1 => ⟨S8x1x2048x1, .i32⟩
  | 2 => ⟨S1, .i32⟩
  | 3 => ⟨S_, .i32⟩
  | 4 => ⟨S8x1x2048x1, .i32⟩
  | 5 => ⟨S8x1x2048x1, .i1⟩
  | 6 => ⟨S1x1x1x1, .i32⟩
  | 7 => ⟨S8x1x2048x1, .i32⟩
  | 8 => ⟨S8x1x2048x1, .i1⟩
  | 9 => ⟨S8x1x2048x1, .i1⟩
  | 10 => ⟨S_, .i1⟩
  | 11 => ⟨S8x1x2048, .i1⟩
  | 12 => ⟨S8x1x2048, .f32⟩
  | 13 => ⟨S_, .f32⟩
  | 14 => ⟨S8x1x2048, .f32⟩
  | 15 => ⟨S8x1x2048, .f32⟩
  | 16 => ⟨S8x2048, .f32⟩
  | 17 => ⟨S8x2048, .f32⟩
  | 18 => ⟨S_, .i32⟩
  | 19 => ⟨S8x2048, .i32⟩
  | 20 => ⟨S8x2048, .i1⟩
  | 21 => ⟨S8x2048, .f32⟩
  | 22 => ⟨S8x2048, .f32⟩
  | 23 => ⟨S_, .f32⟩
  | 24 => ⟨S_, .f32⟩
  | 25 => ⟨S_, .f32⟩
  | 26 => ⟨S8x2048x1, .i32⟩
  | 27 => ⟨S8x2048, .i32⟩
  | 28 => ⟨S_, .f32⟩
  | 29 => ⟨S8x2048, .f32⟩
  | 30 => ⟨S_, .f32⟩
  | 31 => ⟨S8x2048, .f32⟩
  | 32 => ⟨S8x2048, .f32⟩
  | 33 => ⟨S8x1x2048, .f32⟩
  | 34 => ⟨S8x512x2048, .f32⟩
  | 35 => ⟨S8x512x2048, .f32⟩
  | 36 => ⟨S8x512x2048, .f32⟩
  | 37 => ⟨S_, .f32⟩
  | 38 => ⟨S8x2048, .f32⟩
  | 39 => ⟨S8x1x2048, .f32⟩
  | 40 => ⟨S8x1x2048, .f32⟩
  | 41 => ⟨S8x512x2048, .f32⟩
  | 42 => ⟨S8x512x2048, .f32⟩
  | 43 => ⟨S8x1x2048, .i32⟩
  | 44 => ⟨S_, .i32⟩
  | 45 => ⟨S8x1x2048, .i32⟩
  | 46 => ⟨S8x1x2048, .i1⟩
  | 47 => ⟨S_, .i32⟩
  | 48 => ⟨S8x1x2048, .i32⟩
  | 49 => ⟨S8x1x2048, .i32⟩
  | 50 => ⟨S8x1x2048, .i32⟩
  | 51 => ⟨S8x1x2048x1, .i32⟩
  | 52 => ⟨S1, .i32⟩
  | 53 => ⟨S_, .i32⟩
  | 54 => ⟨S8x1x2048x1, .i32⟩
  | 55 => ⟨S8x1x2048x1, .i1⟩
  | 56 => ⟨S1x1x1x1, .i32⟩
  | 57 => ⟨S8x1x2048x1, .i32⟩
  | 58 => ⟨S8x1x2048x1, .i1⟩
  | 59 => ⟨S8x1x2048x1, .i1⟩
  | 60 => ⟨S_, .i1⟩
  | 61 => ⟨S8x1x2048, .i1⟩
  | 62 => ⟨S8x1x2048, .f32⟩
  | 63 => ⟨S_, .f32⟩
  | 64 => ⟨S8x1x2048, .f32⟩
  | 65 => ⟨S8x1x2048, .f32⟩
  | 66 => ⟨S8x2048, .f32⟩
  | 67 => ⟨S8x2048, .f32⟩
  | 68 => ⟨S_, .i32⟩
  | 69 => ⟨S8x2048, .i32⟩
  | 70 => ⟨S8x2048, .i1⟩
  | 71 => ⟨S8x2048, .f32⟩
  | 72 => ⟨S8x2048, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_cst_0 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_call2_cst : Ref sig .tc := ⟨.hbm, 55, rfl⟩
abbrev main_call2_v0 : Ref sig .tc := ⟨.hbm, 56, rfl⟩
abbrev main_call2_cst_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_cst_1 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_v13 : Ref sig .tc := ⟨.hbm, 69, rfl⟩
abbrev main_v14 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_cst : Ref sig .tc := ⟨.hbm, 90, rfl⟩
abbrev main_call3_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_c : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_cst_1 : Ref sig .tc := ⟨.hbm, 100, rfl⟩
abbrev main_v22 : Ref sig .tc := ⟨.hbm, 101, rfl⟩
abbrev main_cst_2 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_call4_cst : Ref sig .tc := ⟨.hbm, 106, rfl⟩
abbrev main_call4_v0 : Ref sig .tc := ⟨.hbm, 107, rfl⟩
abbrev main_call4_cst_0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_cst_1 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_v26 : Ref sig .tc := ⟨.hbm, 120, rfl⟩
abbrev main_v27 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_cst : Ref sig .tc := ⟨.hbm, 141, rfl⟩
abbrev main_call5_v14 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_c_3 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_cst_4 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_call6_cst : Ref sig .tc := ⟨.hbm, 156, rfl⟩
abbrev main_call6_v0 : Ref sig .tc := ⟨.hbm, 157, rfl⟩
abbrev main_call6_cst_0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_call6_v5 : Ref sig .tc := ⟨.hbm, 163, rfl⟩
abbrev main_call6_v6 : Ref sig .tc := ⟨.hbm, 164, rfl⟩
abbrev main_call6_cst_1 : Ref sig .tc := ⟨.hbm, 165, rfl⟩
abbrev main_call6_v7 : Ref sig .tc := ⟨.hbm, 166, rfl⟩
abbrev main_call6_v8 : Ref sig .tc := ⟨.hbm, 167, rfl⟩
abbrev main_call6_v9 : Ref sig .tc := ⟨.hbm, 168, rfl⟩
abbrev main_call6_v10 : Ref sig .tc := ⟨.hbm, 169, rfl⟩
abbrev main_v39 : Ref sig .tc := ⟨.hbm, 170, rfl⟩
abbrev main_v40 : Ref sig .tc := ⟨.hbm, 171, rfl⟩
abbrev main_call7_c : Ref sig .tc := ⟨.hbm, 172, rfl⟩
abbrev main_call7_v0 : Ref sig .tc := ⟨.hbm, 173, rfl⟩
abbrev main_call7_v1 : Ref sig .tc := ⟨.hbm, 174, rfl⟩
abbrev main_call7_c_0 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_call7_v5 : Ref sig .tc := ⟨.hbm, 179, rfl⟩
abbrev main_call7_c_1 : Ref sig .tc := ⟨.hbm, 180, rfl⟩
abbrev main_call7_c_2 : Ref sig .tc := ⟨.hbm, 181, rfl⟩
abbrev main_call7_v6 : Ref sig .tc := ⟨.hbm, 182, rfl⟩
abbrev main_call7_v7 : Ref sig .tc := ⟨.hbm, 183, rfl⟩
abbrev main_call7_v8 : Ref sig .tc := ⟨.hbm, 184, rfl⟩
abbrev main_call7_v9 : Ref sig .tc := ⟨.hbm, 185, rfl⟩
abbrev main_call7_v10 : Ref sig .tc := ⟨.hbm, 186, rfl⟩
abbrev main_call7_v11 : Ref sig .tc := ⟨.hbm, 187, rfl⟩
abbrev main_call7_c_3 : Ref sig .tc := ⟨.hbm, 188, rfl⟩
abbrev main_call7_v12 : Ref sig .tc := ⟨.hbm, 189, rfl⟩
abbrev main_call7_v13 : Ref sig .tc := ⟨.hbm, 190, rfl⟩
abbrev main_call7_cst : Ref sig .tc := ⟨.hbm, 191, rfl⟩
abbrev main_call7_v14 : Ref sig .tc := ⟨.hbm, 192, rfl⟩
abbrev main_v41 : Ref sig .tc := ⟨.hbm, 193, rfl⟩
abbrev main_v42 : Ref sig .tc := ⟨.hbm, 194, rfl⟩
abbrev main_v43 : Ref sig .tc := ⟨.hbm, 195, rfl⟩
abbrev main_c_5 : Ref sig .tc := ⟨.hbm, 196, rfl⟩
abbrev main_v44 : Ref sig .tc := ⟨.hbm, 197, rfl⟩
abbrev main_v45 : Ref sig .tc := ⟨.hbm, 198, rfl⟩
abbrev main_v46 : Ref sig .tc := ⟨.hbm, 199, rfl⟩
abbrev main_v47 : Ref sig .tc := ⟨.hbm, 200, rfl⟩
abbrev main_cst_6 : Ref sig .tc := ⟨.hbm, 201, rfl⟩
abbrev main_v48 : Ref sig .tc := ⟨.hbm, 202, rfl⟩
abbrev main_v49 : Ref sig .tc := ⟨.hbm, 203, rfl⟩
abbrev main_cst_7 : Ref sig .tc := ⟨.hbm, 204, rfl⟩
abbrev main_v50 : Ref sig .tc := ⟨.hbm, 205, rfl⟩
abbrev main_cst_8 : Ref sig .tc := ⟨.hbm, 206, rfl⟩
abbrev main_v51 : Ref sig .tc := ⟨.hbm, 207, rfl⟩
abbrev main_v52 : Ref sig .tc := ⟨.hbm, 208, rfl⟩

abbrev nD : Nat := 1
abbrev τ : Topo := Topo.v7x

variable {F : FTy → Type} [FloatOps F]

class Facts₀ : Prop where
  slices_S8x2048x4_S8x2048x1_0_0_0 : S8x2048x4.Slices ![0, 0, 0] S8x2048x1
  shapeCasts_S8x2048x1_S8x2048 : S8x2048x1.ShapeCasts S8x2048
  reducesTo_S8x512x2048_S8x2048_d1 : S8x512x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x512x2048_0_1_2 : S8x1x2048.BroadcastsInDim S8x512x2048 (![0, 1, 2] : Fin 3 → Fin S8x512x2048.rank)
  bcast_S_S8x1x2048 : S_.BroadcastsInDim S8x1x2048 (![] : Fin 0 → Fin S8x1x2048.rank)
  shapeCasts_S8x1x2048_S8x1x2048x1 : S8x1x2048.ShapeCasts S8x1x2048x1
  bcast_S_S8x1x2048x1 : S_.BroadcastsInDim S8x1x2048x1 (![] : Fin 0 → Fin S8x1x2048x1.rank)
  bcast_S1_S1x1x1x1_3 : S1.BroadcastsInDim S1x1x1x1 (![3] : Fin 1 → Fin S1x1x1x1.rank)
  bcast_S1x1x1x1_S8x1x2048x1_0_1_2_3 : S1x1x1x1.BroadcastsInDim S8x1x2048x1 (![0, 1, 2, 3] : Fin 4 → Fin S8x1x2048x1.rank)
  reducesTo_S8x1x2048x1_S8x1x2048_d3 : S8x1x2048x1.ReducesTo [3] S8x1x2048
  shapeCasts_S8x1x2048_S8x2048 : S8x1x2048.ShapeCasts S8x2048
  reducesTo_S8x2048_S_d0_1 : S8x2048.ReducesTo [0, 1] S_
  slices_S8x2048x4_S8x2048x1_0_0_1 : S8x2048x4.Slices ![0, 0, 1] S8x2048x1
  slices_S8x2048x4_S8x2048x1_0_0_2 : S8x2048x4.Slices ![0, 0, 2] S8x2048x1
  slices_S8x2048x4_S8x2048x1_0_0_3 : S8x2048x4.Slices ![0, 0, 3] S8x2048x1
  gather_S8x512x2048_S8x1x2048x1_S8x1x2048_n_1_02_02_1_3_111_wf : GatherDims.WF S8x512x2048 S8x1x2048x1 S8x1x2048 [] [1] [0, 2] [1] [0, 2] 3 ![1, 1, 1]

variable [Facts₀]

def gather_S8x512x2048_S8x1x2048x1_S8x1x2048_n_1_02_02_1_3_111 : GatherDims S8x512x2048 S8x1x2048x1 S8x1x2048 where
  offsetDims := []
  collapsedSliceDims := [1]
  operandBatchingDims := [0, 2]
  startIndicesBatchingDims := [0, 2]
  startIndexMap := [1]
  indexVectorDim := 3
  sliceSizes := ![1, 1, 1]
  wf := gather_S8x512x2048_S8x1x2048x1_S8x1x2048_n_1_02_02_1_3_111_wf

class Facts : Prop extends Facts₀ where

variable [Facts]
-- ==== Proof.Spec.lean ====
/-
  The mathematics both programs compute, stated once over plain functions (no program is imported here).

  A ROW is the 512 class scores of one (batch, time) position; its cross-entropy against a class label l is
  log-sum-exp(row) - row[l]. The kernel forms it as (M + log S) - sum_c row[c] * [c = l] with M the row's
  maximum and S = sum_c exp(row[c] - M); the reference as -((row[l] - M) - log S). The loss is the mean of the
  first head's cross-entropy over all 8 * 2048 positions plus one eighth of the sum, over the three gated heads,
  of the cross-entropy at the positions whose first-head label equals the head's gate value (0, 1, 2).
  The kernel sums each tile of 256 time positions over the batch, accumulates four tiles per half of the time
  axis lane by lane, and only then sums the 256 lanes; the reference sums over all positions at once.
-/
import Idealize.ShloMosaic.PureOps.Ideal
import Idealize.ShloMosaic.Lib.ValueIdx

noncomputable section

open scoped BigOperators

namespace Cert.Spec

open Idealize.ShloMosaic Idealize.ShloMosaic.ValueIdx

/-- The zero every accumulation starts from, as the programs spell it. -/
def z : EReal := Ideal.ofBits .f32 0x00000000#32

/-- The one-hot weight of class `c` for label `l`: the class index, as a 32-bit word, equals the label. -/
def hot (c : Fin 512) (l : BitVec 32) : EReal := if BitVec.ofNat 32 c.val = l then 1 else 0

/-- The gate of a head: the first head's label equals the head's gate value. -/
def gate (v l : BitVec 32) : EReal := if l = v then 1 else 0

/-- A row's maximum, folded from the bottom element. -/
def rowMax (r : Fin 512 → EReal) : EReal := (Finset.univ : Finset (Fin 512)).fold max ⊥ r

/-- The sum of the exponentials of a row shifted by its maximum. -/
def rowSum (r : Fin 512 → EReal) : EReal := ∑ c : Fin 512, Ideal.exp (r c - rowMax r)

/-- The row's entry at the label (a label read as a natural number; labels are below 512 under the precondition). -/
def pick (r : Fin 512 → EReal) (l : BitVec 32) : EReal := r ⟨l.toNat % 512, Nat.mod_lt _ (by norm_num)⟩

/-- The cross-entropy of a row as the kernel forms it. -/
def nllK (r : Fin 512 → EReal) (l : BitVec 32) : EReal :=
  (rowMax r + Ideal.log (rowSum r)) - ∑ c : Fin 512, r c * hot c l

/-- The cross-entropy of a row as the reference forms it. -/
def nllR (r : Fin 512 → EReal) (l : BitVec 32) : EReal :=
  -((pick r l - rowMax r) - Ideal.log (rowSum r))

/-- Time position `256 * n + lane`: lane `lane` of the `n`-th tile of 256 positions (reduced mod 2048 to stay total). -/
def tpos (n : ℕ) (lane : Fin 256) : Fin 2048 := ⟨(256 * n + lane.val) % 2048, Nat.mod_lt _ (by norm_num)⟩

/-- The sum over the batch of a per-position quantity at lane `lane` of tile `n`. -/
def colsum (A : Fin 8 → Fin 2048 → EReal) (n : ℕ) (lane : Fin 256) : EReal := ∑ b : Fin 8, A b (tpos n lane)

/-- What one grid step adds to the second accumulator: the three gated heads' batch sums, added in order to zero. -/
def step2 (B1 B2 B3 : Fin 8 → Fin 2048 → EReal) (n : ℕ) (lane : Fin 256) : EReal :=
  ((z + colsum B1 n lane) + colsum B2 n lane) + colsum B3 n lane

/-- An accumulator after grid step `n`: reset to zero at the first of every four steps, then the step's value added. -/
def accAt (f : ℕ → Fin 256 → EReal) : ℕ → Fin 256 → EReal
  | 0, lane => z + f 0 lane
  | n + 1, lane => if (n + 1) % 4 = 0 then z + f (n + 1) lane else accAt f n lane + f (n + 1) lane

/-- The two programs' common last lines: mean over 16384 positions, plus the gated sum over 8 times 1. -/
def finish (s1 s2 : EReal) : EReal :=
  Ideal.div s1 (Ideal.ofBits .f32 0x46800000#32)
    + Ideal.div s2 (Ideal.ofBits .f32 0x41000000#32) * Ideal.ofBits .f32 0x3F800000#32

/-- The kernel's total: per half `p` of the time axis the lane sum of the accumulator after its fourth step. -/
def KTotal (A B1 B2 B3 : Fin 8 → Fin 2048 → EReal) : EReal :=
  finish (z + ∑ p : Fin 2, ∑ lane : Fin 256, accAt (colsum A) (4 * p.val + 3) lane)
    (z + ∑ p : Fin 2, ∑ lane : Fin 256, accAt (step2 B1 B2 B3) (4 * p.val + 3) lane)

/-- The reference's total: sums over all positions, the gated heads' sums added in order to zero. -/
def RTotal (A B1 B2 B3 : Fin 8 → Fin 2048 → EReal) : EReal :=
  finish (z + ∑ b : Fin 8, ∑ t : Fin 2048, A b t)
    (((z + (z + ∑ b : Fin 8, ∑ t : Fin 2048, B1 b t)) + (z + ∑ b : Fin 8, ∑ t : Fin 2048, B2 b t))
      + (z + ∑ b : Fin 8, ∑ t : Fin 2048, B3 b t))

/-- A row of a logits array: the 512 class scores at (batch `b`, time `t`). -/
abbrev rowOf (x : (⟨3, ![8, 512, 2048]⟩ : Shape).Idx → EReal) (b : Fin 8) (t : Fin 2048) : Fin 512 → EReal :=
  fun c => x (ix3 b c t)

/-- Head `h`'s label at (batch `b`, time `t`). -/
abbrev labOf (y : (⟨3, ![8, 2048, 4]⟩ : Shape).Idx → BitVec 32) (h : Fin 4) (b : Fin 8) (t : Fin 2048) : BitVec 32 :=
  y (ix3 b t h)

end Cert.Spec

end
-- ==== Proof.KernelPieces.lean ====
import proofs.«425393_j29738353557664_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid step adds to the second accumulator, as the body computes it from the three gated heads' score
    and label tiles and the first head's label tile. -/
abbrev gated (x1 x2 x3 : Vec F S8x512x256 .f32) (x4 x5 x6 x7 : Vec F S8x256 .i32) : FVec F S1x1x256 .f32 :=
  k0_pay12 (k0_pay6 x4) (k0_pay9 (k0_pay6 x4) k0_pay8 x1 x5) x2 (k0_pay10 x2) (k0_pay11 x6) x3 x7

/-! ## A step that is neither the first nor the last of its half: both accumulators updated over what the step before left -/

theorem sB0 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : ¬cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay7 x4 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

theorem sB1 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : ¬cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay1 (gated x1 x2 x3 x4 x5 x6 x7) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

/-! ## The first step of a half: both accumulators reset to zero, then updated -/

theorem sA0 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : cond0_0 i) (hc1 : ¬cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay7 x4 x0 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

theorem sA1 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : cond0_0 i) (hc1 : ¬cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (gated x1 x2 x3 x4 x5 x6 x7) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

/-! ## The last step of a half: both accumulators updated, then each summed over its lanes into its output block -/

theorem sC0 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay7 x4 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

theorem sC1 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay1 (gated x1 x2 x3 x4 x5 x6 x7) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

theorem oC8 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay2 (k0_pay7 x4 x0 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

theorem oC9 (c : Dev nD) (i : grid0.Coords) (arg2 : Memref sig .tc .vmem S8x512x256 .f32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x512x256 .f32) (harg5 : arg5.IsWhole) (arg6 : Memref sig .tc .vmem S8x256 .i32) (harg6 : arg6.IsWhole) (arg7 : Memref sig .tc .vmem S8x256 .i32) (harg7 : arg7.IsWhole) (arg8 : Memref sig .tc .vmem S8x256 .i32) (harg8 : arg8.IsWhole) (arg9 : Memref sig .tc .vmem S8x256 .i32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x256 .f32) (harg12 : arg12.IsWhole) (arg13 : Memref sig .tc .vmem S1x1x256 .f32) (harg13 : arg13.IsWhole) (hc0 : ¬cond0_0 i) (hc1 : cond0_1 i) (x0 : Vec F S8x512x256 .f32) (x1 : Vec F S8x512x256 .f32) (x2 : Vec F S8x512x256 .f32) (x3 : Vec F S8x512x256 .f32) (x4 : Vec F S8x256 .i32) (x5 : Vec F S8x256 .i32) (x6 : Vec F S8x256 .i32) (x7 : Vec F S8x256 .i32) (xs0 xs1 : Vec F S1x1x256 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay3 (k0_pay1 (gated x1 x2 x3 x4 x5 x6 x7) xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, harg13.read_unread, View.ld_unit_zero (S := S8x512x256) hz3, View.ld_unit_zero (S := S8x256) hz2, View.ld_unit_zero (S := S1x1x256) hz3, View.readCov_unit_zero (S := S1x1x256) _ hz3]

end Cert.KernelIdeal.Pieces

end
-- ==== Proof.KernelBlocks.lean ====
/-
  The windows' blocks read off the argument arrays. At grid step t (t = 4 p + s for the point (p, s) of the 2 x 4
  grid) every input window's block index along the time axis is t itself, so a score tile's entry (b, c, lane) is the
  array's entry (b, c, 256 t + lane); head h's label tile is a tile of the [8, 2048] array the host program cuts out
  of the labels before the call (slice [:, :, h] then reshape), so its entry (b, lane) is the label array's entry
  (b, 256 t + lane, h).
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ)

/-- The argument arrays, by their literal types. -/
abbrev ax0 (c : Dev nD) : Vec Ideal S8x512x2048 .f32 := m ((c.tc : Thread nD τ).loc main_arg0)
abbrev ax1 (c : Dev nD) : Vec Ideal S8x512x2048 .f32 := m ((c.tc : Thread nD τ).loc main_arg1)
abbrev ax2 (c : Dev nD) : Vec Ideal S8x512x2048 .f32 := m ((c.tc : Thread nD τ).loc main_arg2)
abbrev ax3 (c : Dev nD) : Vec Ideal S8x512x2048 .f32 := m ((c.tc : Thread nD τ).loc main_arg3)
abbrev ay (c : Dev nD) : IVec S8x2048x4 32 := m ((c.tc : Thread nD τ).loc main_arg4)

/-- The blocks, by their literal types. -/
abbrev bx0 (c : Dev nD) (t : Fin cfg0.N) : Vec Ideal S8x512x256 .f32 := iblk m c 0 t
abbrev bx1 (c : Dev nD) (t : Fin cfg0.N) : Vec Ideal S8x512x256 .f32 := iblk m c 1 t
abbrev bx2 (c : Dev nD) (t : Fin cfg0.N) : Vec Ideal S8x512x256 .f32 := iblk m c 2 t
abbrev bx3 (c : Dev nD) (t : Fin cfg0.N) : Vec Ideal S8x512x256 .f32 := iblk m c 3 t
abbrev by0 (c : Dev nD) (t : Fin cfg0.N) : Vec Ideal S8x256 .i32 := iblk m c 4 t
abbrev by1 (c : Dev nD) (t : Fin cfg0.N) : Vec Ideal S8x256 .i32 := iblk m c 5 t
abbrev by2 (c : Dev nD) (t : Fin cfg0.N) : Vec Ideal S8x256 .i32 := iblk m c 6 t
abbrev by3 (c : Dev nD) (t : Fin cfg0.N) : Vec Ideal S8x256 .i32 := iblk m c 7 t

theorem bx0_apply (c : Dev nD) (t : Fin cfg0.N) (b : Fin 8) (k : Fin 512) (lane : Fin 256) :
    bx0 m c t (ix3 b k lane) = ax0 m c (ix3 b k (tpos t.val lane)) := by
  have hi : win0_0.index t 0 = 0 ∧ win0_0.index t 1 = 0 ∧ win0_0.index t 2 = t.val := by
    rcases fin_N0 t with rfl | rfl | rfl | rfl | rfl | rfl | rfl | rfl <;> decide
  have ht : t.val < 8 := N_0 ▸ t.isLt
  show iblk m c 0 t (ix3 b k lane) = m (c.tc.loc main_arg0) (ix3 b k (tpos t.val lane))
  rw [← V_main_arg0 m c]
  unfold iblk
  rw [View.read_apply]
  show V m c main_arg0 _ = V m c main_arg0 _
  congr 1
  funext a
  apply Fin.ext
  match a with
  | ⟨0, _⟩ => show win0_0.index t 0 * 8 + 1 * b.val = b.val; rw [hi.1]; omega
  | ⟨1, _⟩ => show win0_0.index t 1 * 512 + 1 * k.val = k.val; rw [hi.2.1]; omega
  | ⟨2, _⟩ =>
    show win0_0.index t 2 * 256 + 1 * lane.val = (256 * t.val + lane.val) % 2048
    rw [hi.2.2]
    have hl := lane.isLt
    omega
theorem bx1_apply (c : Dev nD) (t : Fin cfg0.N) (b : Fin 8) (k : Fin 512) (lane : Fin 256) :
    bx1 m c t (ix3 b k lane) = ax1 m c (ix3 b k (tpos t.val lane)) := by
  have hi : win0_1.index t 0 = 0 ∧ win0_1.index t 1 = 0 ∧ win0_1.index t 2 = t.val := by
    rcases fin_N0 t with rfl | rfl | rfl | rfl | rfl | rfl | rfl | rfl <;> decide
  have ht : t.val < 8 := N_0 ▸ t.isLt
  show iblk m c 1 t (ix3 b k lane) = m (c.tc.loc main_arg1) (ix3 b k (tpos t.val lane))
  rw [← V_main_arg1 m c]
  unfold iblk
  rw [View.read_apply]
  show V m c main_arg1 _ = V m c main_arg1 _
  congr 1
  funext a
  apply Fin.ext
  match a with
  | ⟨0, _⟩ => show win0_1.index t 0 * 8 + 1 * b.val = b.val; rw [hi.1]; omega
  | ⟨1, _⟩ => show win0_1.index t 1 * 512 + 1 * k.val = k.val; rw [hi.2.1]; omega
  | ⟨2, _⟩ =>
    show win0_1.index t 2 * 256 + 1 * lane.val = (256 * t.val + lane.val) % 2048
    rw [hi.2.2]
    have hl := lane.isLt
    omega
theorem bx2_apply (c : Dev nD) (t : Fin cfg0.N) (b : Fin 8) (k : Fin 512) (lane : Fin 256) :
    bx2 m c t (ix3 b k lane) = ax2 m c (ix3 b k (tpos t.val lane)) := by
  have hi : win0_2.index t 0 = 0 ∧ win0_2.index t 1 = 0 ∧ win0_2.index t 2 = t.val := by
    rcases fin_N0 t with rfl | rfl | rfl | rfl | rfl | rfl | rfl | rfl <;> decide
  have ht : t.val < 8 := N_0 ▸ t.isLt
  show iblk m c 2 t (ix3 b k lane) = m (c.tc.loc main_arg2) (ix3 b k (tpos t.val lane))
  rw [← V_main_arg2 m c]
  unfold iblk
  rw [View.read_apply]
  show V m c main_arg2 _ = V m c main_arg2 _
  congr 1
  funext a
  apply Fin.ext
  match a with
  | ⟨0, _⟩ => show win0_2.index t 0 * 8 + 1 * b.val = b.val; rw [hi.1]; omega
  | ⟨1, _⟩ => show win0_2.index t 1 * 512 + 1 * k.val = k.val; rw [hi.2.1]; omega
  | ⟨2, _⟩ =>
    show win0_2.index t 2 * 256 + 1 * lane.val = (256 * t.val + lane.val) % 2048
    rw [hi.2.2]
    have hl := lane.isLt
    omega
theorem bx3_apply (c : Dev nD) (t : Fin cfg0.N) (b : Fin 8) (k : Fin 512) (lane : Fin 256) :
    bx3 m c t (ix3 b k lane) = ax3 m c (ix3 b k (tpos t.val lane)) := by
  have hi : win0_3.index t 0 = 0 ∧ win0_3.index t 1 = 0 ∧ win0_3.index t 2 = t.val := by
    rcases fin_N0 t with rfl | rfl | rfl | rfl | rfl | rfl | rfl | rfl <;> decide
  have ht : t.val < 8 := N_0 ▸ t.isLt
  show iblk m c 3 t (ix3 b k lane) = m (c.tc.loc main_arg3) (ix3 b k (tpos t.val lane))
  rw [← V_main_arg3 m c]
  unfold iblk
  rw [View.read_apply]
  show V m c main_arg3 _ = V m c main_arg3 _
  congr 1
  funext a
  apply Fin.ext
  match a with
  | ⟨0, _⟩ => show win0_3.index t 0 * 8 + 1 * b.val = b.val; rw [hi.1]; omega
  | ⟨1, _⟩ => show win0_3.index t 1 * 512 + 1 * k.val = k.val; rw [hi.2.1]; omega
  | ⟨2, _⟩ =>
    show win0_3.index t 2 * 256 + 1 * lane.val = (256 * t.val + lane.val) % 2048
    rw [hi.2.2]
    have hl := lane.isLt
    omega
theorem by0_apply (c : Dev nD) (t : Fin cfg0.N) (b : Fin 8) (lane : Fin 256) :
    by0 m c t (ix2 b lane) = ay m c (ix3 b (tpos t.val lane) 0) := by
  have hi : win0_4.index t 0 = 0 ∧ win0_4.index t 1 = t.val := by
    rcases fin_N0 t with rfl | rfl | rfl | rfl | rfl | rfl | rfl | rfl <;> decide
  have ht : t.val < 8 := N_0 ▸ t.isLt
  have hl := lane.isLt
  -- the label array of this head, as the host program wrote it before the call: a slice of the labels, reshaped
  have e : (V m c main_v1 : S8x2048.Idx → BitVec 32)
      = shapeCast S8x2048 (extractStridedSlice S8x2048x1 ![0, 0, 0] (ay m c) slices_S8x2048x4_S8x2048x1_0_0_0)
          shapeCasts_S8x2048x1_S8x2048 := by
    dsimp only [Gen.V, Gen.V0]
    simp only [Gen.hostOps0, List.flatten_cons, List.flatten_nil, List.append_nil, List.cons_append, List.nil_append]
    after_results
    rfl
  -- the block read off that array
  have h1 : by0 m c t (ix2 b lane) = (V m c main_v1 : S8x2048.Idx → BitVec 32) (ix2 b (tpos t.val lane)) := by
    show iblk m c 4 t (ix2 b lane) = _
    unfold iblk
    rw [View.read_apply]
    show V m c main_v1 _ = V m c main_v1 _
    congr 1
    funext a
    apply Fin.ext
    match a with
    | ⟨0, _⟩ => show win0_4.index t 0 * 8 + 1 * b.val = b.val; rw [hi.1]; omega
    | ⟨1, _⟩ =>
      show win0_4.index t 1 * 256 + 1 * lane.val = (256 * t.val + lane.val) % 2048
      rw [hi.2]
      omega
  rw [h1, e]
  -- the reshape keeps the row-major position; the slice shifts the last coordinate by the head's number
  refine (shapeCast_apply _ shapeCasts_S8x2048x1_S8x2048 (ix2 b (tpos t.val lane))
    (ix3 b (tpos t.val lane) (0 : Fin 1)) ?_).trans ?_
  · rewrite [Shape.rowMajor_val_three, Shape.rowMajor_val_two]
    show (b.val * 2048 + (tpos t.val lane).val) * 1 + 0 = b.val * 2048 + (tpos t.val lane).val
    omega
  · exact extractStridedSlice_apply ![0, 0, 0] (ay m c) slices_S8x2048x4_S8x2048x1_0_0_0
      (ix3 b (tpos t.val lane) (0 : Fin 1)) (ix3 b (tpos t.val lane) (0 : Fin 4)) (fun a => match a with
      | ⟨0, _⟩ => by show b.val = 0 + b.val; omega
      | ⟨1, _⟩ => by show (tpos t.val lane).val = 0 + (tpos t.val lane).val; omega
      | ⟨2, _⟩ => by show ((0 : Fin 4) : ℕ) = 0 + ((0 : Fin 1) : ℕ); rfl)
theorem by1_apply (c : Dev nD) (t : Fin cfg0.N) (b : Fin 8) (lane : Fin 256) :
    by1 m c t (ix2 b lane) = ay m c (ix3 b (tpos t.val lane) 1) := by
  have hi : win0_5.index t 0 = 0 ∧ win0_5.index t 1 = t.val := by
    rcases fin_N0 t with rfl | rfl | rfl | rfl | rfl | rfl | rfl | rfl <;> decide
  have ht : t.val < 8 := N_0 ▸ t.isLt
  have hl := lane.isLt
  -- the label array of this head, as the host program wrote it before the call: a slice of the labels, reshaped
  have e : (V m c main_v3 : S8x2048.Idx → BitVec 32)
      = shapeCast S8x2048 (extractStridedSlice S8x2048x1 ![0, 0, 1] (ay m c) slices_S8x2048x4_S8x2048x1_0_0_1)
          shapeCasts_S8x2048x1_S8x2048 := by
    dsimp only [Gen.V, Gen.V0]
    simp only [Gen.hostOps0, List.flatten_cons, List.flatten_nil, List.append_nil, List.cons_append, List.nil_append]
    after_results
    rfl
  -- the block read off that array
  have h1 : by1 m c t (ix2 b lane) = (V m c main_v3 : S8x2048.Idx → BitVec 32) (ix2 b (tpos t.val lane)) := by
    show iblk m c 5 t (ix2 b lane) = _
    unfold iblk
    rw [View.read_apply]
    show V m c main_v3 _ = V m c main_v3 _
    congr 1
    funext a
    apply Fin.ext
    match a with
    | ⟨0, _⟩ => show win0_5.index t 0 * 8 + 1 * b.val = b.val; rw [hi.1]; omega
    | ⟨1, _⟩ =>
      show win0_5.index t 1 * 256 + 1 * lane.val = (256 * t.val + lane.val) % 2048
      rw [hi.2]
      omega
  rw [h1, e]
  -- the reshape keeps the row-major position; the slice shifts the last coordinate by the head's number
  refine (shapeCast_apply _ shapeCasts_S8x2048x1_S8x2048 (ix2 b (tpos t.val lane))
    (ix3 b (tpos t.val lane) (0 : Fin 1)) ?_).trans ?_
  · rewrite [Shape.rowMajor_val_three, Shape.rowMajor_val_two]
    show (b.val * 2048 + (tpos t.val lane).val) * 1 + 0 = b.val * 2048 + (tpos t.val lane).val
    omega
  · exact extractStridedSlice_apply ![0, 0, 1] (ay m c) slices_S8x2048x4_S8x2048x1_0_0_1
      (ix3 b (tpos t.val lane) (0 : Fin 1)) (ix3 b (tpos t.val lane) (1 : Fin 4)) (fun a => match a with
      | ⟨0, _⟩ => by show b.val = 0 + b.val; omega
      | ⟨1, _⟩ => by show (tpos t.val lane).val = 0 + (tpos t.val lane).val; omega
      | ⟨2, _⟩ => by show ((1 : Fin 4) : ℕ) = 1 + ((0 : Fin 1) : ℕ); rfl)
theorem by2_apply (c : Dev nD) (t : Fin cfg0.N) (b : Fin 8) (lane : Fin 256) :
    by2 m c t (ix2 b lane) = ay m c (ix3 b (tpos t.val lane) 2) := by
  have hi : win0_6.index t 0 = 0 ∧ win0_6.index t 1 = t.val := by
    rcases fin_N0 t with rfl | rfl | rfl | rfl | rfl | rfl | rfl | rfl <;> decide
  have ht : t.val < 8 := N_0 ▸ t.isLt
  have hl := lane.isLt
  -- the label array of this head, as the host program wrote it before the call: a slice of the labels, reshaped
  have e : (V m c main_v5 : S8x2048.Idx → BitVec 32)
      = shapeCast S8x2048 (extractStridedSlice S8x2048x1 ![0, 0, 2] (ay m c) slices_S8x2048x4_S8x2048x1_0_0_2)
          shapeCasts_S8x2048x1_S8x2048 := by
    dsimp only [Gen.V, Gen.V0]
    simp only [Gen.hostOps0, List.flatten_cons, List.flatten_nil, List.append_nil, List.cons_append, List.nil_append]
    after_results
    rfl
  -- the block read off that array
  have h1 : by2 m c t (ix2 b lane) = (V m c main_v5 : S8x2048.Idx → BitVec 32) (ix2 b (tpos t.val lane)) := by
    show iblk m c 6 t (ix2 b lane) = _
    unfold iblk
    rw [View.read_apply]
    show V m c main_v5 _ = V m c main_v5 _
    congr 1
    funext a
    apply Fin.ext
    match a with
    | ⟨0, _⟩ => show win0_6.index t 0 * 8 + 1 * b.val = b.val; rw [hi.1]; omega
    | ⟨1, _⟩ =>
      show win0_6.index t 1 * 256 + 1 * lane.val = (256 * t.val + lane.val) % 2048
      rw [hi.2]
      omega
  rw [h1, e]
  -- the reshape keeps the row-major position; the slice shifts the last coordinate by the head's number
  refine (shapeCast_apply _ shapeCasts_S8x2048x1_S8x2048 (ix2 b (tpos t.val lane))
    (ix3 b (tpos t.val lane) (0 : Fin 1)) ?_).trans ?_
  · rewrite [Shape.rowMajor_val_three, Shape.rowMajor_val_two]
    show (b.val * 2048 + (tpos t.val lane).val) * 1 + 0 = b.val * 2048 + (tpos t.val lane).val
    omega
  · exact extractStridedSlice_apply ![0, 0, 2] (ay m c) slices_S8x2048x4_S8x2048x1_0_0_2
      (ix3 b (tpos t.val lane) (0 : Fin 1)) (ix3 b (tpos t.val lane) (2 : Fin 4)) (fun a => match a with
      | ⟨0, _⟩ => by show b.val = 0 + b.val; omega
      | ⟨1, _⟩ => by show (tpos t.val lane).val = 0 + (tpos t.val lane).val; omega
      | ⟨2, _⟩ => by show ((2 : Fin 4) : ℕ) = 2 + ((0 : Fin 1) : ℕ); rfl)
theorem by3_apply (c : Dev nD) (t : Fin cfg0.N) (b : Fin 8) (lane : Fin 256) :
    by3 m c t (ix2 b lane) = ay m c (ix3 b (tpos t.val lane) 3) := by
  have hi : win0_7.index t 0 = 0 ∧ win0_7.index t 1 = t.val := by
    rcases fin_N0 t with rfl | rfl | rfl | rfl | rfl | rfl | rfl | rfl <;> decide
  have ht : t.val < 8 := N_0 ▸ t.isLt
  have hl := lane.isLt
  -- the label array of this head, as the host program wrote it before the call: a slice of the labels, reshaped
  have e : (V m c main_v7 : S8x2048.Idx → BitVec 32)
      = shapeCast S8x2048 (extractStridedSlice S8x2048x1 ![0, 0, 3] (ay m c) slices_S8x2048x4_S8x2048x1_0_0_3)
          shapeCasts_S8x2048x1_S8x2048 := by
    dsimp only [Gen.V, Gen.V0]
    simp only [Gen.hostOps0, List.flatten_cons, List.flatten_nil, List.append_nil, List.cons_append, List.nil_append]
    after_results
    rfl
  -- the block read off that array
  have h1 : by3 m c t (ix2 b lane) = (V m c main_v7 : S8x2048.Idx → BitVec 32) (ix2 b (tpos t.val lane)) := by
    show iblk m c 7 t (ix2 b lane) = _
    unfold iblk
    rw [View.read_apply]
    show V m c main_v7 _ = V m c main_v7 _
    congr 1
    funext a
    apply Fin.ext
    match a with
    | ⟨0, _⟩ => show win0_7.index t 0 * 8 + 1 * b.val = b.val; rw [hi.1]; omega
    | ⟨1, _⟩ =>
      show win0_7.index t 1 * 256 + 1 * lane.val = (256 * t.val + lane.val) % 2048
      rw [hi.2]
      omega
  rw [h1, e]
  -- the reshape keeps the row-major position; the slice shifts the last coordinate by the head's number
  refine (shapeCast_apply _ shapeCasts_S8x2048x1_S8x2048 (ix2 b (tpos t.val lane))
    (ix3 b (tpos t.val lane) (0 : Fin 1)) ?_).trans ?_
  · rewrite [Shape.rowMajor_val_three, Shape.rowMajor_val_two]
    show (b.val * 2048 + (tpos t.val lane).val) * 1 + 0 = b.val * 2048 + (tpos t.val lane).val
    omega
  · exact extractStridedSlice_apply ![0, 0, 3] (ay m c) slices_S8x2048x4_S8x2048x1_0_0_3
      (ix3 b (tpos t.val lane) (0 : Fin 1)) (ix3 b (tpos t.val lane) (3 : Fin 4)) (fun a => match a with
      | ⟨0, _⟩ => by show b.val = 0 + b.val; omega
      | ⟨1, _⟩ => by show (tpos t.val lane).val = 0 + (tpos t.val lane).val; omega
      | ⟨2, _⟩ => by show ((3 : Fin 4) : ℕ) = 3 + ((0 : Fin 1) : ℕ); rfl)

end Cert.KernelIdeal.Blocks

end
-- ==== Proof.KernelSteps.lean ====
/-
  What the two accumulators and the two output blocks hold after each grid step, case by case: the generated frame
  run found each case's stores; read back, the first step of a half leaves the step's values over zero, every later
  step the step's values over what the step before left, and the last step of a half also leaves each accumulator's
  lane sum in its output block.
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic
import proofs.«425393_j29738353557664_2_alg».proof.Proof.KernelPieces
import proofs.«425393_j29738353557664_2_alg».proof.Proof.KernelBlocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Steps

open Cert.KernelIdeal Cert.KernelIdeal.Gen Cert.Spec Cert.KernelIdeal.Blocks Cert.KernelIdeal.Pieces

variable (m : (ℓ : Loc nD τ sig) → Buf (Elt Ideal) ℓ)

/-- What the step before `t` left (for a step that is not the first of the grid). -/
abbrev prev (c : Dev nD) (t : Fin cfg0.N) : Vec Ideal S1x1x1 .f32 × Vec Ideal S1x1x1 .f32 × Vec Ideal S1x1x256 .f32 × Vec Ideal S1x1x256 .f32 :=
  outsAt0 m c (t.val - 1) (Nat.lt_of_le_of_lt (Nat.sub_le _ _) t.isLt)

/-- The first step of a half. -/
theorem stepA (c : Dev nD) (t : Fin cfg0.N) (h0 : t.val % 4 = 0) (h1 : ¬t.val % 4 = 3) :
    (outsAt0 m c t.val t.isLt).2.2.1 = k0_pay7 (by0 m c t) (bx0 m c t) (k0_pay4 (F := Ideal))
    ∧ (outsAt0 m c t.val t.isLt).2.2.2 = k0_pay1 (gated (bx1 m c t) (bx2 m c t) (bx3 m c t) (by0 m c t) (by1 m c t) (by2 m c t) (by3 m c t)) (k0_pay5 (F := Ideal)) := by
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t),
    sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)⟩

/-- A middle step of a half. -/
theorem stepB (c : Dev nD) (t : Fin cfg0.N) (h0 : ¬t.val % 4 = 0) (h1 : ¬t.val % 4 = 3) :
    (outsAt0 m c t.val t.isLt).2.2.1 = k0_pay7 (by0 m c t) (bx0 m c t) (prev m c t).2.2.1
    ∧ (outsAt0 m c t.val t.isLt).2.2.2 = k0_pay1 (gated (bx1 m c t) (bx2 m c t) (bx3 m c t) (by0 m c t) (by1 m c t) (by2 m c t) (by3 m c t)) (prev m c t).2.2.2 := by
  rw [outsAt0_B m c t h0 h1]
  dsimp only
  exact ⟨sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2,
    sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last step of a half. -/
theorem stepC (c : Dev nD) (t : Fin cfg0.N) (h0 : ¬t.val % 4 = 0) (h1 : t.val % 4 = 3) :
    (outsAt0 m c t.val t.isLt).2.2.1 = k0_pay7 (by0 m c t) (bx0 m c t) (prev m c t).2.2.1
    ∧ (outsAt0 m c t.val t.isLt).2.2.2 = k0_pay1 (gated (bx1 m c t) (bx2 m c t) (bx3 m c t) (by0 m c t) (by1 m c t) (by2 m c t) (by3 m c t)) (prev m c t).2.2.2
    ∧ (outsAt0 m c t.val t.isLt).1 = k0_pay2 (k0_pay7 (by0 m c t) (bx0 m c t) (prev m c t).2.2.1)
    ∧ (outsAt0 m c t.val t.isLt).2.1 = k0_pay3 (k0_pay1 (gated (bx1 m c t) (bx2 m c t) (bx3 m c t) (by0 m c t) (by1 m c t) (by2 m c t) (by3 m c t)) (prev m c t).2.2.2) := by
  rw [outsAt0_C m c t h0 h1]
  dsimp only
  exact ⟨sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2,
    sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2,
    oC8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2,
    oC9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Steps

end
-- ==== Proof.PayRead.lean ====
/-
  The kernel body's arithmetic read at one lane. The body's stored values are pure functions of the loaded blocks
  (a [8, 512, 256] tile of scores per head, a [8, 256] tile of labels per head, and the two [1, 1, 256] accumulators):
  at lane `lane` the first accumulator gains the sum over the batch of the first head's cross-entropy of the row
  (b, ·, lane); the second gains, added in order to zero, the three gated heads' batch sums of the cross-entropy times
  the gate of the first head's label; the finalizing step sums an accumulator's 256 lanes.
-/
import proofs.«425393_j29738353557664_2_alg».proof.Proof.Gen.KernelIdeal.Skeleton
import proofs.«425393_j29738353557664_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayRead

open Idealize.ShloMosaic Idealize.ShloMosaic.ValueIdx Cert.KernelIdeal Cert.KernelIdeal.Gen Cert.Spec

/-- The row of a score tile at (batch `b`, lane `lane`). -/
abbrev rowB (x : Vec Ideal S8x512x256 .f32) (b : Fin 8) (lane : Fin 256) : Fin 512 → EReal := fun c => x (ix3 b c lane)

/-! ## Layout operations at explicit coordinates -/

section Layout
variable {α : Type}

/-- A [8, 256] vector viewed as [8, 1, 256] reads, at (b, u, lane), the vector at (b, lane). -/
theorem sc_8x256_8x1x256 (x : S8x256.Idx → α) (h : S8x256.ShapeCasts S8x1x256) (b : Fin 8) (u : Fin 1) (lane : Fin 256) :
    shapeCast S8x1x256 x h (ix3 b u lane) = x (ix2 b lane) :=
  shapeCast_apply x h _ _ (by
    have hu : u.val = 0 := by omega
    rw [Shape.rowMajor_val_three, Shape.rowMajor_val_two]
    show b.val * 256 + lane.val = (b.val * 1 + u.val) * 256 + lane.val
    rw [hu, Nat.mul_one, Nat.add_zero])

/-- A [1, 256] vector viewed as [1, 1, 256] reads, at (u, u', lane), the vector at (u, lane). -/
theorem sc_1x256_1x1x256 (x : S1x256.Idx → α) (h : S1x256.ShapeCasts S1x1x256) (u u' : Fin 1) (lane : Fin 256) :
    shapeCast S1x1x256 x h (ix3 u u' lane) = x (ix2 u lane) :=
  shapeCast_apply x h _ _ (by
    have hu : u.val = 0 := by omega
    have hu' : u'.val = 0 := by omega
    rw [Shape.rowMajor_val_three, Shape.rowMajor_val_two]
    show u.val * 256 + lane.val = (u.val * 1 + u'.val) * 256 + lane.val
    rw [hu, hu'])

/-- A [1, 1, 256] vector viewed as [1, 1, 1, 256] reads, at (0, 0, 0, lane), the vector at (0, 0, lane). -/
theorem sc_1x1x256_1x1x1x256 (x : S1x1x256.Idx → α) (h : S1x1x256.ShapeCasts S1x1x1x256) (lane : Fin 256) :
    shapeCast S1x1x1x256 x h (ix4 0 0 0 lane) = x (ix3 0 0 lane) :=
  shapeCast_apply x h _ _ (by
    rw [Shape.rowMajor_val_four, Shape.rowMajor_val_three]
    rfl)

/-- A [8, 1, 256] vector broadcast to [8, 512, 256] reads, at (b, c, lane), the vector at (b, 0, lane). -/
theorem bc_8x1x256_8x512x256 (x : S8x1x256.Idx → α) (h : S8x1x256.Broadcasts S8x512x256) (b : Fin 8) (c : Fin 512) (lane : Fin 256) :
    broadcastTo S8x512x256 x h (ix3 b c lane) = x (ix3 b 0 lane) :=
  broadcastTo_apply x h _ _ fun a => by
    match a with
    | ⟨0, _⟩ => rfl
    | ⟨1, _⟩ => rfl
    | ⟨2, _⟩ => rfl

/-- The index over (b, lane) with class coordinate c inserted on axis 1 is (b, c, lane). -/
theorem lift_cls (h : S8x512x256.Reduces [1] S8x256) (b : Fin 8) (lane : Fin 256) (c : Fin 512) :
    h.lift (ix2 b lane) c = ix3 b c lane := by
  funext a
  match a with
  | ⟨0, _⟩ => rfl
  | ⟨1, _⟩ => rfl
  | ⟨2, _⟩ => rfl

/-- The index over (u, lane) with batch coordinate b inserted on axis 0 is (b, u, lane). -/
theorem lift_bat (h : S8x1x256.Reduces [0] S1x256) (u : Fin 1) (lane : Fin 256) (b : Fin 8) :
    h.lift (ix2 u lane) b = ix3 b u lane := by
  funext a
  match a with
  | ⟨0, _⟩ => rfl
  | ⟨1, _⟩ => rfl
  | ⟨2, _⟩ => rfl

end Layout

/-! ## Words: the bottom pattern, and a one-bit equality widened and converted -/

/-- The accumulator pattern of a maximum is the bottom element. -/
theorem ofBits_neg_inf : FloatOps.ofBits (F := Ideal) .f32 0xFF800000#32 = (⊥ : EReal) := by
  show Ideal.ofBits .f32 0xFF800000#32 = ⊥
  simp [Ideal.ofBits, Ideal.ieee]

/-- An equality test of two words, widened to 32 bits and converted, is 1 where they are equal and 0 elsewhere. -/
theorem sitofp_eq_bit (w1 w2 : BitVec 32) :
    FloatOps.sitofp (F := Ideal) .f32 ((IntOp.cmpi .eq w1 w2).setWidth 32) = if w1 = w2 then (1 : EReal) else 0 := by
  show (((((IntOp.cmpi .eq w1 w2).setWidth 32).toInt : ℤ) : ℝ) : EReal) = _
  by_cases h : w1 = w2
  · rw [if_pos h]
    have e : (IntOp.cmpi .eq w1 w2).setWidth 32 = 1#32 := by
      show BitVec.setWidth 32 (BitVec.ofBool (w1 == w2)) = 1#32
      rw [beq_iff_eq.mpr h]; rfl
    rw [e]
    have : (1#32 : BitVec 32).toInt = 1 := by decide
    rw [this]; simp
  · rw [if_neg h]
    have e : (IntOp.cmpi .eq w1 w2).setWidth 32 = 0#32 := by
      show BitVec.setWidth 32 (BitVec.ofBool (w1 == w2)) = 0#32
      rw [beq_eq_false_iff_ne.mpr h]; rfl
    rw [e]
    have : (0#32 : BitVec 32).toInt = 0 := by decide
    rw [this]; simp

/-! ## The cross-entropy chain of one tile, piece by piece

The pieces are the kernel's own terms over a tile of scores and a tile of labels; each is then read at one index. -/

section TileDefs
variable {F : FTy → Type} [FloatOps F]

/-- The row maxima of a tile, as a [8, 1, 256] vector. -/
def maxT (x : Vec F S8x512x256 .f32) : FVec F S8x1x256 .f32 :=
  shapeCast S8x1x256 (multiReduction .maximumf [1] S8x256 x 0xFF800000#32 reduces_S8x512x256_S8x256 (.inl rfl) rfl)
    shapeCasts_S8x256_S8x1x256

/-- The log-sum-exp of every row of a tile: the row maximum plus the logarithm of the sum of the shifted exponentials. -/
def lseT (x : Vec F S8x512x256 .f32) : FVec F S8x1x256 .f32 :=
  addf (maxT x)
    (log (shapeCast S8x1x256
      (multiReduction .add [1] S8x256 (exp (subf x (broadcastTo S8x512x256 (maxT x) broadcasts_S8x1x256_S8x512x256)))
        0x00000000#32 reduces_S8x512x256_S8x256 (.inl rfl) rfl)
      shapeCasts_S8x256_S8x1x256))

/-- The one-hot words of a tile of labels: 1 where the class index equals the label. -/
def hotW (lab : IVec S8x256 32) : IVec S8x512x256 32 :=
  extui 32 (cmpi .eq (iota .tc S8x512x256 32 [1] iota_S8x512x256_d1_w32)
    (broadcastTo S8x512x256 (shapeCast S8x1x256 lab shapeCasts_S8x256_S8x1x256) broadcasts_S8x1x256_S8x512x256)) natLt_1_32

/-- The score at the label of every row: the sum over the classes of the score times the one-hot weight. -/
def pickT (x : Vec F S8x512x256 .f32) (w : IVec S8x512x256 32) : FVec F S8x1x256 .f32 :=
  shapeCast S8x1x256
    (multiReduction .add [1] S8x256 (mulf x (sitofp .f32 w)) 0x00000000#32 reduces_S8x512x256_S8x256 (.inl rfl) rfl)
    shapeCasts_S8x256_S8x1x256

/-- The cross-entropy of every row of a tile. -/
def nllT (x : Vec F S8x512x256 .f32) (lab : IVec S8x256 32) : FVec F S8x1x256 .f32 :=
  subf (lseT x) (pickT x (hotW lab))

/-- The gate of a head over a tile of first-head labels, as a [8, 1, 256] vector. -/
def gateT (v : BitVec 32) (lab0 : IVec S8x256 32) : FVec F S8x1x256 .f32 :=
  shapeCast S8x1x256 (sitofp .f32 (extui 32 (cmpi .eq lab0 (broadcast S8x256 v)) natLt_1_32)) shapeCasts_S8x256_S8x1x256

/-- The sum over the batch of a [8, 1, 256] vector, as a [1, 1, 256] vector. -/
def colT (y : FVec F S8x1x256 .f32) : FVec F S1x1x256 .f32 :=
  shapeCast S1x1x256 (multiReduction .add [0] S1x256 y 0x00000000#32 reduces_S8x1x256_S1x256 (.inl rfl) rfl)
    shapeCasts_S1x256_S1x1x256

end TileDefs

/-! ## Elementwise operations at an index, at the exact values -/

section Elementwise
variable {s : Shape}

/-- An exponential at an index is the exponential of the element. -/
theorem exp_apply (a : FVec Ideal s .f32) (i : s.Idx) : exp (F := Ideal) a i = Ideal.exp (a i) := rfl
/-- A logarithm at an index is the logarithm of the element. -/
theorem log_apply (a : FVec Ideal s .f32) (i : s.Idx) : log (F := Ideal) a i = Ideal.log (a i) := rfl

end Elementwise

section TileRead
variable (x : Vec Ideal S8x512x256 .f32) (lab : IVec S8x256 32)

/-- The row maximum read at (b, u, lane). -/
theorem maxT_apply (b : Fin 8) (u : Fin 1) (lane : Fin 256) :
    maxT (F := Ideal) x (ix3 b u lane) = rowMax (rowB x b lane) := by
  refine (sc_8x256_8x1x256 _ _ b u lane).trans ?_
  refine (Ideal.multiReduction_maximumf_single (φ := .f32) x 0xFF800000#32 reduces_S8x512x256_S8x256 (.inl rfl) rfl (ix2 b lane)).trans ?_
  have hf : (x ∘ reduces_S8x512x256_S8x256.lift (ix2 b lane)) = rowB x b lane :=
    funext fun c => congrArg x (lift_cls _ b lane c)
  rw [ofBits_neg_inf, hf]
  show (Finset.univ : Finset (Fin 512)).fold max ⊥ (rowB x b lane) = rowMax (rowB x b lane)
  rfl

/-- The log-sum-exp read at (b, u, lane). -/
theorem lseT_apply (b : Fin 8) (u : Fin 1) (lane : Fin 256) :
    lseT (F := Ideal) x (ix3 b u lane) = rowMax (rowB x b lane) + Ideal.log (rowSum (rowB x b lane)) := by
  refine (addf_apply (φ := .f32) (maxT (F := Ideal) x) _ (ix3 b u lane)).trans ?_
  rw [maxT_apply]
  refine congrArg (fun s => rowMax (rowB x b lane) + s) ?_
  refine (log_apply _ (ix3 b u lane)).trans ?_
  refine congrArg Ideal.log ?_
  refine (sc_8x256_8x1x256 _ _ b u lane).trans ?_
  refine (Ideal.multiReduction_add_single (φ := .f32) _ 0x00000000#32 reduces_S8x512x256_S8x256 (.inl rfl) rfl (ix2 b lane)).trans ?_
  unfold rowSum
  refine Finset.sum_congr rfl fun (c : Fin 512) _ => ?_
  rw [lift_cls _ b lane c]
  refine (exp_apply _ (ix3 b c lane)).trans ?_
  refine congrArg Ideal.exp ?_
  refine (subf_apply (φ := .f32) x _ (ix3 b c lane)).trans ?_
  rw [bc_8x1x256_8x512x256, maxT_apply]

/-- The one-hot weight read at (b, c, lane). -/
theorem hotW_apply (b : Fin 8) (c : Fin 512) (lane : Fin 256) :
    sitofp (F := Ideal) .f32 (hotW lab) (ix3 b c lane) = hot c (lab (ix2 b lane)) := by
  show FloatOps.sitofp (F := Ideal) .f32 ((IntOp.cmpi .eq (iota .tc S8x512x256 32 [1] iota_S8x512x256_d1_w32 (ix3 b c lane))
      (broadcastTo S8x512x256 (shapeCast S8x1x256 lab shapeCasts_S8x256_S8x1x256) broadcasts_S8x1x256_S8x512x256 (ix3 b c lane))).setWidth 32) = _
  rw [iota_single_apply, bc_8x1x256_8x512x256, sc_8x256_8x1x256, sitofp_eq_bit]
  rfl

/-- The score at the label read at (b, u, lane), for one-hot words w that read the weight of a tile of labels. -/
theorem pickT_apply (w : IVec S8x512x256 32)
    (hw : ∀ (b : Fin 8) (c : Fin 512) (lane : Fin 256), sitofp (F := Ideal) .f32 w (ix3 b c lane) = hot c (lab (ix2 b lane)))
    (b : Fin 8) (u : Fin 1) (lane : Fin 256) :
    pickT (F := Ideal) x w (ix3 b u lane) = ∑ c : Fin 512, rowB x b lane c * hot c (lab (ix2 b lane)) := by
  refine (sc_8x256_8x1x256 _ _ b u lane).trans ?_
  refine (Ideal.multiReduction_add_single (φ := .f32) _ 0x00000000#32 reduces_S8x512x256_S8x256 (.inl rfl) rfl (ix2 b lane)).trans ?_
  refine Finset.sum_congr rfl fun (c : Fin 512) _ => ?_
  rw [lift_cls _ b lane c]
  refine (mulf_apply (φ := .f32) x _ (ix3 b c lane)).trans ?_
  rw [hw b c lane]

/-- The kernel's cross-entropy of a row from its two halves. -/
theorem nllK_eq (r : Fin 512 → EReal) (l : BitVec 32) :
    nllK r l = (rowMax r + Ideal.log (rowSum r)) - ∑ c : Fin 512, r c * hot c l := rfl

/-- The cross-entropy read at (b, u, lane): the row's, against the label at (b, lane). -/
theorem nllT_apply (b : Fin 8) (u : Fin 1) (lane : Fin 256) :
    nllT (F := Ideal) x lab (ix3 b u lane) = nllK (rowB x b lane) (lab (ix2 b lane)) := by
  refine (subf_apply (φ := .f32) (lseT (F := Ideal) x) (pickT (F := Ideal) x (hotW lab)) (ix3 b u lane)).trans ?_
  rw [lseT_apply, pickT_apply x lab (hotW lab) (hotW_apply lab) b u lane, nllK_eq]

/-- The gate read at (b, u, lane). -/
theorem gateT_apply (v : BitVec 32) (lab0 : IVec S8x256 32) (b : Fin 8) (u : Fin 1) (lane : Fin 256) :
    gateT (F := Ideal) v lab0 (ix3 b u lane) = gate v (lab0 (ix2 b lane)) := by
  refine (sc_8x256_8x1x256 _ _ b u lane).trans ?_
  show FloatOps.sitofp (F := Ideal) .f32 ((IntOp.cmpi .eq (lab0 (ix2 b lane)) v).setWidth 32) = _
  rw [sitofp_eq_bit]
  rfl

/-- The batch sum read at (u, u', lane). -/
theorem colT_apply (y : FVec Ideal S8x1x256 .f32) (u u' : Fin 1) (lane : Fin 256) :
    colT (F := Ideal) y (ix3 u u' lane) = ∑ b : Fin 8, y (ix3 b u lane) := by
  refine (sc_1x256_1x1x256 _ _ u u' lane).trans ?_
  refine (Ideal.multiReduction_add_single (φ := .f32) y 0x00000000#32 reduces_S8x1x256_S1x256 (.inl rfl) rfl (ix2 u lane)).trans ?_
  refine Finset.sum_congr rfl fun (b : Fin 8) _ => ?_
  rw [lift_bat _ u lane b]

end TileRead

/-! ## The stored values -/

/-- The zero tiles the reset stores and the second accumulator's partial sum starts from. -/
theorem pay4_apply (i : S1x1x256.Idx) : k0_pay4 (F := Ideal) i = z := rfl

theorem pay5_apply (i : S1x1x256.Idx) : k0_pay5 (F := Ideal) i = z := rfl

/-- The zero tile the second accumulator's partial sum starts from. -/
theorem pay8_apply (i : S1x1x256.Idx) : k0_pay8 (F := Ideal) i = z := rfl

/-- A tile of labels cast to its own shape is itself. -/
theorem pay6_eq (v3 : Vec Ideal S8x256 .i32) : k0_pay6 (F := Ideal) v3 = v3 := shapeCast_self _ _

/-- The first accumulator's stored value is the accumulator plus the batch sum of the first head's cross-entropy tile. -/
theorem pay7_eq (v3 : Vec Ideal S8x256 .i32) (v5 : Vec Ideal S8x512x256 .f32) (v25 : Vec Ideal S1x1x256 .f32) :
    k0_pay7 (F := Ideal) v3 v5 v25
      = shapeCast S1x1x256 (addf v25 (colT (F := Ideal) (nllT (F := Ideal) v5 (k0_pay6 (F := Ideal) v3)))) shapeCasts_S1x1x256_S1x1x256 := rfl

/-- The first accumulator's update at a lane. -/
theorem pay7_apply (v3 : Vec Ideal S8x256 .i32) (v5 : Vec Ideal S8x512x256 .f32) (v25 : Vec Ideal S1x1x256 .f32) (lane : Fin 256) :
    k0_pay7 (F := Ideal) v3 v5 v25 (ix3 0 0 lane)
      = v25 (ix3 0 0 lane) + ∑ b : Fin 8, nllK (rowB v5 b lane) (v3 (ix2 b lane)) := by
  rw [pay7_eq, shapeCast_self, pay6_eq]
  refine (addf_apply (φ := .f32) v25 _ (ix3 0 0 lane)).trans ?_
  refine congrArg (fun s => v25 (ix3 0 0 lane) + s) ?_
  refine (colT_apply _ 0 0 lane).trans ?_
  exact Finset.sum_congr rfl fun b _ => nllT_apply v5 v3 b 0 lane

/-! ## The three gated heads -/

/-- The batch sum of a product of two [8, 1, 256] vectors at a lane, from the factors' readings there. -/
theorem gated_apply (n g : FVec Ideal S8x1x256 .f32) (lane : Fin 256) (N G : Fin 8 → EReal)
    (hn : ∀ b : Fin 8, n (ix3 b 0 lane) = N b) (hg : ∀ b : Fin 8, g (ix3 b 0 lane) = G b) :
    colT (F := Ideal) (mulf n g) (ix3 0 0 lane) = ∑ b : Fin 8, N b * G b := by
  refine (colT_apply _ 0 0 lane).trans ?_
  refine Finset.sum_congr rfl fun b _ => ?_
  refine (mulf_apply (φ := .f32) n g (ix3 b 0 lane)).trans ?_
  rw [hn b, hg b]

/-- The second head's partial sum: the zero tile plus the batch sum of the gated cross-entropy tile. -/
theorem pay9_eq (v4 : IVec S8x256 32) (v32 : FVec Ideal S1x1x256 .f32) (v33 : Vec Ideal S8x512x256 .f32) (v34 : Vec Ideal S8x256 .i32) :
    k0_pay9 (F := Ideal) v4 v32 v33 v34
      = addf v32 (colT (F := Ideal) (mulf (nllT (F := Ideal) v33 (shapeCast S8x256 v34 shapeCasts_S8x256_S8x256))
          (gateT (F := Ideal) 0#32 v4))) := rfl

/-- The third head's log-sum-exp tile. -/
theorem pay10_eq (v64 : Vec Ideal S8x512x256 .f32) : k0_pay10 (F := Ideal) v64 = lseT (F := Ideal) v64 := rfl

/-- The third head's one-hot words. -/
theorem pay11_eq (v65 : Vec Ideal S8x256 .i32) :
    k0_pay11 (F := Ideal) v65 = hotW (shapeCast S8x256 v65 shapeCasts_S8x256_S8x256) := rfl

/-- The third head's one-hot words read the weight of its labels. -/
theorem pay11_apply (v65 : Vec Ideal S8x256 .i32) (b : Fin 8) (c : Fin 512) (lane : Fin 256) :
    sitofp (F := Ideal) .f32 (k0_pay11 (F := Ideal) v65) (ix3 b c lane) = hot c (v65 (ix2 b lane)) := by
  rw [pay11_eq, shapeCast_self]
  exact hotW_apply v65 b c lane

/-- The partial sum after the fourth head: the third and fourth heads' gated batch sums added in order. -/
theorem pay12_eq (v4 : IVec S8x256 32) (v63 : FVec Ideal S1x1x256 .f32) (v64 : Vec Ideal S8x512x256 .f32)
    (v75 : FVec Ideal S8x1x256 .f32) (v80 : IVec S8x512x256 32) (v95 : Vec Ideal S8x512x256 .f32) (v96 : Vec Ideal S8x256 .i32) :
    k0_pay12 (F := Ideal) v4 v63 v64 v75 v80 v95 v96
      = addf (addf v63 (colT (F := Ideal) (mulf (subf v75 (pickT (F := Ideal) v64 v80)) (gateT (F := Ideal) 1#32 v4))))
          (colT (F := Ideal) (mulf (nllT (F := Ideal) v95 (shapeCast S8x256 v96 shapeCasts_S8x256_S8x256))
            (gateT (F := Ideal) 2#32 v4))) := rfl

/-- The second accumulator's stored value: the accumulator plus the partial sum. -/
theorem pay1_eq (v125 : FVec Ideal S1x1x256 .f32) (v126 : Vec Ideal S1x1x256 .f32) :
    k0_pay1 (F := Ideal) v125 v126 = shapeCast S1x1x256 (addf v126 v125) shapeCasts_S1x1x256_S1x1x256 := rfl

/-- The second accumulator's update at a lane: the three gated heads, added in order to zero, then to the accumulator. -/
theorem pay1_apply (v3 : Vec Ideal S8x256 .i32) (v33 : Vec Ideal S8x512x256 .f32) (v34 : Vec Ideal S8x256 .i32)
    (v64 : Vec Ideal S8x512x256 .f32) (v65 : Vec Ideal S8x256 .i32) (v95 : Vec Ideal S8x512x256 .f32) (v96 : Vec Ideal S8x256 .i32)
    (v126 : Vec Ideal S1x1x256 .f32) (lane : Fin 256) :
    k0_pay1 (F := Ideal)
        (k0_pay12 (F := Ideal) (k0_pay6 (F := Ideal) v3) (k0_pay9 (F := Ideal) (k0_pay6 (F := Ideal) v3) (k0_pay8 (F := Ideal)) v33 v34)
          v64 (k0_pay10 (F := Ideal) v64) (k0_pay11 (F := Ideal) v65) v95 v96)
        v126 (ix3 0 0 lane)
      = v126 (ix3 0 0 lane)
          + (((z + ∑ b : Fin 8, nllK (rowB v33 b lane) (v34 (ix2 b lane)) * gate 0#32 (v3 (ix2 b lane)))
              + ∑ b : Fin 8, nllK (rowB v64 b lane) (v65 (ix2 b lane)) * gate 1#32 (v3 (ix2 b lane)))
              + ∑ b : Fin 8, nllK (rowB v95 b lane) (v96 (ix2 b lane)) * gate 2#32 (v3 (ix2 b lane))) := by
  have h1 : k0_pay9 (F := Ideal) (k0_pay6 (F := Ideal) v3) (k0_pay8 (F := Ideal)) v33 v34 (ix3 0 0 lane)
      = z + ∑ b : Fin 8, nllK (rowB v33 b lane) (v34 (ix2 b lane)) * gate 0#32 (v3 (ix2 b lane)) := by
    rw [pay9_eq, pay6_eq, shapeCast_self]
    refine (addf_apply (φ := .f32) _ _ (ix3 0 0 lane)).trans ?_
    rw [pay8_apply]
    refine congrArg (fun s => z + s) ?_
    exact gated_apply _ _ lane _ _ (fun b => nllT_apply v33 v34 b 0 lane) (fun b => gateT_apply 0#32 v3 b 0 lane)
  have h2 : colT (F := Ideal) (mulf (subf (k0_pay10 (F := Ideal) v64) (pickT (F := Ideal) v64 (k0_pay11 (F := Ideal) v65)))
        (gateT (F := Ideal) 1#32 (k0_pay6 (F := Ideal) v3))) (ix3 0 0 lane)
      = ∑ b : Fin 8, nllK (rowB v64 b lane) (v65 (ix2 b lane)) * gate 1#32 (v3 (ix2 b lane)) := by
    rw [pay6_eq]
    refine gated_apply _ _ lane _ _ (fun b => ?_) (fun b => gateT_apply 1#32 v3 b 0 lane)
    refine (subf_apply (φ := .f32) _ _ (ix3 b 0 lane)).trans ?_
    rw [pay10_eq, lseT_apply, pickT_apply v64 v65 (k0_pay11 (F := Ideal) v65) (pay11_apply v65) b 0 lane, nllK_eq]
  have h3 : colT (F := Ideal) (mulf (nllT (F := Ideal) v95 (shapeCast S8x256 v96 shapeCasts_S8x256_S8x256))
        (gateT (F := Ideal) 2#32 (k0_pay6 (F := Ideal) v3))) (ix3 0 0 lane)
      = ∑ b : Fin 8, nllK (rowB v95 b lane) (v96 (ix2 b lane)) * gate 2#32 (v3 (ix2 b lane)) := by
    rw [pay6_eq, shapeCast_self]
    exact gated_apply _ _ lane _ _ (fun b => nllT_apply v95 v96 b 0 lane) (fun b => gateT_apply 2#32 v3 b 0 lane)
  rw [pay1_eq, shapeCast_self, pay12_eq]
  refine (addf_apply (φ := .f32) v126 _ (ix3 0 0 lane)).trans ?_
  refine congrArg (fun s => v126 (ix3 0 0 lane) + s) ?_
  refine (addf_apply (φ := .f32) _ _ (ix3 0 0 lane)).trans ?_
  rw [h3]
  refine congrArg (fun s => s + ∑ b : Fin 8, nllK (rowB v95 b lane) (v96 (ix2 b lane)) * gate 2#32 (v3 (ix2 b lane))) ?_
  refine (addf_apply (φ := .f32) _ _ (ix3 0 0 lane)).trans ?_
  rw [h1, h2]

/-! ## The finalizing step -/

/-- The 256 lanes as the indices of a [1, 1, 1, 256] vector. -/
def laneEquiv : Fin 256 ≃ S1x1x1x256.Idx where
  toFun lane := ix4 0 0 0 lane
  invFun i := i 3
  left_inv _ := rfl
  right_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
    | ⟨3, _⟩ => rfl

/-- The sum of all elements of a [1, 1, 256] vector viewed as [1, 1, 1, 256] is the sum of its 256 lanes. -/
theorem sum_lanes (v : Vec Ideal S1x1x256 .f32) (j : S1.Idx) :
    multiReduction (F := Ideal) .add [1, 2, 3] S1 (shapeCast S1x1x1x256 v shapeCasts_S1x1x256_S1x1x1x256) 0x00000000#32
        reduces_S1x1x1x256_S1 (.inl rfl) rfl j
      = ∑ lane : Fin 256, v (ix3 0 0 lane) := by
  refine (Ideal.multiReduction_add_total (φ := .f32) _ 0x00000000#32 reduces_S1x1x1x256_S1
    (fun b => by match b with | ⟨0, _⟩ => rfl) (.inl rfl) rfl j).trans ?_
  refine (Equiv.sum_comp laneEquiv _).symm.trans ?_
  exact Finset.sum_congr rfl fun lane _ => sc_1x1x256_1x1x1x256 v _ lane

/-- The finalizing step: the sum of an accumulator's 256 lanes (for either output). -/
theorem pay2_apply (v : Vec Ideal S1x1x256 .f32) (i : S1x1x1.Idx) :
    k0_pay2 (F := Ideal) v i = ∑ lane : Fin 256, v (ix3 0 0 lane) := by
  exact sum_lanes v _

theorem pay3_apply (v : Vec Ideal S1x1x256 .f32) (i : S1x1x1.Idx) :
    k0_pay3 (F := Ideal) v i = ∑ lane : Fin 256, v (ix3 0 0 lane) := by
  exact sum_lanes v _

end Cert.KernelIdeal.PayRead

end
-- ==== Proof.KernelAcc.lean ====
/-
  The accumulators after every grid step, in the specification's terms. A step's contribution at a lane is the batch
  sum of the cross-entropy over the tile's rows, and a tile's row (b, ·, lane) at step n is the array's row at time
  256 n + lane; so the first accumulator after step n is the specification's running sum of the first head's tile
  sums, reset at the first step of each half, and the second accumulator likewise for the three gated heads.
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic
import proofs.«425393_j29738353557664_2_alg».proof.Proof.KernelSteps
import proofs.«425393_j29738353557664_2_alg».proof.Proof.PayRead

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec Cert.KernelIdeal.Blocks Cert.KernelIdeal.Pieces
open Cert.KernelIdeal.Steps Cert.KernelIdeal.PayRead

variable (m : (ℓ : Loc nD τ sig) → Buf (Elt Ideal) ℓ)

/-- The first head's cross-entropy at every position, and the three gated heads' gated cross-entropies. -/
def A0 (c : Dev nD) : Fin 8 → Fin 2048 → EReal := fun b t => nllK (rowOf (ax0 m c) b t) (labOf (ay m c) 0 b t)
def B1 (c : Dev nD) : Fin 8 → Fin 2048 → EReal := fun b t =>
  nllK (rowOf (ax1 m c) b t) (labOf (ay m c) 1 b t) * gate 0#32 (labOf (ay m c) 0 b t)
def B2 (c : Dev nD) : Fin 8 → Fin 2048 → EReal := fun b t =>
  nllK (rowOf (ax2 m c) b t) (labOf (ay m c) 2 b t) * gate 1#32 (labOf (ay m c) 0 b t)
def B3 (c : Dev nD) : Fin 8 → Fin 2048 → EReal := fun b t =>
  nllK (rowOf (ax3 m c) b t) (labOf (ay m c) 3 b t) * gate 2#32 (labOf (ay m c) 0 b t)

theorem row0 (c : Dev nD) (t : Fin cfg0.N) (b : Fin 8) (lane : Fin 256) :
    rowB (bx0 m c t) b lane = rowOf (ax0 m c) b (tpos t.val lane) := funext fun k => bx0_apply m c t b k lane
theorem row1 (c : Dev nD) (t : Fin cfg0.N) (b : Fin 8) (lane : Fin 256) :
    rowB (bx1 m c t) b lane = rowOf (ax1 m c) b (tpos t.val lane) := funext fun k => bx1_apply m c t b k lane
theorem row2 (c : Dev nD) (t : Fin cfg0.N) (b : Fin 8) (lane : Fin 256) :
    rowB (bx2 m c t) b lane = rowOf (ax2 m c) b (tpos t.val lane) := funext fun k => bx2_apply m c t b k lane
theorem row3 (c : Dev nD) (t : Fin cfg0.N) (b : Fin 8) (lane : Fin 256) :
    rowB (bx3 m c t) b lane = rowOf (ax3 m c) b (tpos t.val lane) := funext fun k => bx3_apply m c t b k lane

/-- The first head's tile sum at a lane is the specification's batch sum at that tile and lane. -/
theorem tile1 (c : Dev nD) (t : Fin cfg0.N) (lane : Fin 256) :
    (∑ b : Fin 8, nllK (rowB (bx0 m c t) b lane) (by0 m c t (ix2 b lane))) = colsum (A0 m c) t.val lane := by
  unfold colsum A0
  refine Finset.sum_congr rfl fun b _ => ?_
  rw [row0, by0_apply]

/-- A gated head's tile sum at a lane is the specification's batch sum of its gated cross-entropy. -/
theorem gsum1 (c : Dev nD) (t : Fin cfg0.N) (lane : Fin 256) :
    (∑ b : Fin 8, nllK (rowB (bx1 m c t) b lane) (by1 m c t (ix2 b lane)) * gate 0#32 (by0 m c t (ix2 b lane)))
      = colsum (B1 m c) t.val lane := by
  unfold colsum B1
  exact Finset.sum_congr rfl fun b _ => by rw [row1, by1_apply, by0_apply]
theorem gsum2 (c : Dev nD) (t : Fin cfg0.N) (lane : Fin 256) :
    (∑ b : Fin 8, nllK (rowB (bx2 m c t) b lane) (by2 m c t (ix2 b lane)) * gate 1#32 (by0 m c t (ix2 b lane)))
      = colsum (B2 m c) t.val lane := by
  unfold colsum B2
  exact Finset.sum_congr rfl fun b _ => by rw [row2, by2_apply, by0_apply]
theorem gsum3 (c : Dev nD) (t : Fin cfg0.N) (lane : Fin 256) :
    (∑ b : Fin 8, nllK (rowB (bx3 m c t) b lane) (by3 m c t (ix2 b lane)) * gate 2#32 (by0 m c t (ix2 b lane)))
      = colsum (B3 m c) t.val lane := by
  unfold colsum B3
  exact Finset.sum_congr rfl fun b _ => by rw [row3, by3_apply, by0_apply]

/-- The gated heads' tile sums at a lane, added in order to zero, are the specification's step value. -/
theorem tile2 (c : Dev nD) (t : Fin cfg0.N) (lane : Fin 256) :
    (((z + ∑ b : Fin 8, nllK (rowB (bx1 m c t) b lane) (by1 m c t (ix2 b lane)) * gate 0#32 (by0 m c t (ix2 b lane)))
        + ∑ b : Fin 8, nllK (rowB (bx2 m c t) b lane) (by2 m c t (ix2 b lane)) * gate 1#32 (by0 m c t (ix2 b lane)))
        + ∑ b : Fin 8, nllK (rowB (bx3 m c t) b lane) (by3 m c t (ix2 b lane)) * gate 2#32 (by0 m c t (ix2 b lane)))
      = step2 (B1 m c) (B2 m c) (B3 m c) t.val lane := by
  rw [gsum1, gsum2, gsum3]
  rfl

/-- The running sums: after grid step `n` the two accumulators hold, lane by lane, the specification's. -/
theorem acc_inv (c : Dev nD) : ∀ (n : ℕ) (h : n < cfg0.N) (lane : Fin 256),
    (outsAt0 m c n h).2.2.1 (ix3 0 0 lane) = accAt (colsum (A0 m c)) n lane
    ∧ (outsAt0 m c n h).2.2.2 (ix3 0 0 lane) = accAt (step2 (B1 m c) (B2 m c) (B3 m c)) n lane
  | 0, h, lane => by
    obtain ⟨e1, e2⟩ := stepA m c ⟨0, h⟩ rfl (show ¬(0 : ℕ) % 4 = 3 by decide)
    constructor
    · refine (congrFun e1 (ix3 0 0 lane)).trans ?_
      rw [pay7_apply (by0 m c ⟨0, h⟩) (bx0 m c ⟨0, h⟩) (k0_pay4 (F := Ideal)) lane, pay4_apply, tile1]
      rfl
    · refine (congrFun e2 (ix3 0 0 lane)).trans ?_
      rw [pay1_apply (by0 m c ⟨0, h⟩) (bx1 m c ⟨0, h⟩) (by1 m c ⟨0, h⟩) (bx2 m c ⟨0, h⟩) (by2 m c ⟨0, h⟩) (bx3 m c ⟨0, h⟩) (by3 m c ⟨0, h⟩)
        (k0_pay5 (F := Ideal)) lane, pay5_apply, tile2]
      rfl
  | n + 1, h, lane => by
    have ih := acc_inv c n (Nat.lt_of_succ_lt h) lane
    by_cases h0 : (n + 1) % 4 = 0
    · have h1 : ¬(n + 1) % 4 = 3 := by omega
      obtain ⟨e1, e2⟩ := stepA m c ⟨n + 1, h⟩ h0 h1
      constructor
      · refine (congrFun e1 (ix3 0 0 lane)).trans ?_
        rw [pay7_apply (by0 m c ⟨n + 1, h⟩) (bx0 m c ⟨n + 1, h⟩) (k0_pay4 (F := Ideal)) lane, pay4_apply, tile1]
        show _ = if (n + 1) % 4 = 0 then _ else _
        rw [if_pos h0]
      · refine (congrFun e2 (ix3 0 0 lane)).trans ?_
        rw [pay1_apply (by0 m c ⟨n + 1, h⟩) (bx1 m c ⟨n + 1, h⟩) (by1 m c ⟨n + 1, h⟩) (bx2 m c ⟨n + 1, h⟩) (by2 m c ⟨n + 1, h⟩) (bx3 m c ⟨n + 1, h⟩) (by3 m c ⟨n + 1, h⟩)
          (k0_pay5 (F := Ideal)) lane, pay5_apply, tile2]
        show _ = if (n + 1) % 4 = 0 then _ else _
        rw [if_pos h0]
    · have e12 : (outsAt0 m c (n + 1) h).2.2.1 = k0_pay7 (by0 m c ⟨n + 1, h⟩) (bx0 m c ⟨n + 1, h⟩) (outsAt0 m c n (Nat.lt_of_succ_lt h)).2.2.1
          ∧ (outsAt0 m c (n + 1) h).2.2.2 = k0_pay1 (gated (bx1 m c ⟨n + 1, h⟩) (bx2 m c ⟨n + 1, h⟩) (bx3 m c ⟨n + 1, h⟩) (by0 m c ⟨n + 1, h⟩) (by1 m c ⟨n + 1, h⟩) (by2 m c ⟨n + 1, h⟩) (by3 m c ⟨n + 1, h⟩)) (outsAt0 m c n (Nat.lt_of_succ_lt h)).2.2.2 := by
        by_cases h1 : (n + 1) % 4 = 3
        · exact ⟨(stepC m c ⟨n + 1, h⟩ h0 h1).1, (stepC m c ⟨n + 1, h⟩ h0 h1).2.1⟩
        · exact stepB m c ⟨n + 1, h⟩ h0 h1
      obtain ⟨e1, e2⟩ := e12
      constructor
      · refine (congrFun e1 (ix3 0 0 lane)).trans ?_
        rw [pay7_apply (by0 m c ⟨n + 1, h⟩) (bx0 m c ⟨n + 1, h⟩) _ lane, ih.1, tile1]
        show _ = if (n + 1) % 4 = 0 then _ else _
        rw [if_neg h0]
      · refine (congrFun e2 (ix3 0 0 lane)).trans ?_
        rw [pay1_apply (by0 m c ⟨n + 1, h⟩) (bx1 m c ⟨n + 1, h⟩) (by1 m c ⟨n + 1, h⟩) (bx2 m c ⟨n + 1, h⟩) (by2 m c ⟨n + 1, h⟩) (bx3 m c ⟨n + 1, h⟩) (by3 m c ⟨n + 1, h⟩)
          _ lane, ih.2, tile2]
        show _ = if (n + 1) % 4 = 0 then _ else _
        rw [if_neg h0]

end Cert.KernelIdeal.Acc

end
-- ==== Proof.KernelOut.lean ====
/-
  The two result arrays of the call. Each has one entry per half p of the time axis, written back once, at the last
  step 4 p + 3 of the half, with the lane sum of its accumulator after that step; the two write-backs cover the array.
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic
import proofs.«425393_j29738353557664_2_alg».proof.Proof.KernelAcc

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.Spec Cert.KernelIdeal.Blocks Cert.KernelIdeal.Pieces
open Cert.KernelIdeal.Steps Cert.KernelIdeal.PayRead Cert.KernelIdeal.Acc

variable (m : (ℓ : Loc nD τ sig) → Buf (Elt Ideal) ℓ)

/-- What the two result arrays end holding. -/
def G8 (c : Dev nD) : Vec Ideal S2x1x1 .f32 := fun i =>
  ∑ lane : Fin 256, accAt (colsum (A0 m c)) (4 * (i 0).val + 3) lane
def G9 (c : Dev nD) : Vec Ideal S2x1x1 .f32 := fun i =>
  ∑ lane : Fin 256, accAt (step2 (B1 m c) (B2 m c) (B3 m c)) (4 * (i 0).val + 3) lane

/-- At the last step of a half the first output block holds the first accumulator's lane sum. -/
theorem out8_last (c : Dev nD) (t : Fin cfg0.N) (h1 : t.val % 4 = 3) (i : S1x1x1.Idx) :
    (outsAt0 m c t.val t.isLt).1 i = ∑ lane : Fin 256, accAt (colsum (A0 m c)) t.val lane := by
  have h0 : ¬t.val % 4 = 0 := by omega
  obtain ⟨e1, e2, e3, e4⟩ := stepC m c t h0 h1
  rw [e3, ← e1, pay2_apply]
  exact Finset.sum_congr rfl fun lane _ => (acc_inv m c t.val t.isLt lane).1

/-- … and the second output block the second accumulator's. -/
theorem out9_last (c : Dev nD) (t : Fin cfg0.N) (h1 : t.val % 4 = 3) (i : S1x1x1.Idx) :
    (outsAt0 m c t.val t.isLt).2.1 i = ∑ lane : Fin 256, accAt (step2 (B1 m c) (B2 m c) (B3 m c)) t.val lane := by
  have h0 : ¬t.val % 4 = 0 := by omega
  obtain ⟨e1, e2, e3, e4⟩ := stepC m c t h0 h1
  rw [e4, ← e2, pay3_apply]
  exact Finset.sum_congr rfl fun lane _ => (acc_inv m c t.val t.isLt lane).2

/-- The output windows' block index at step t is (t / 4, 0, 0). -/
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
/-- The output windows' blocks are never clipped: their extent along the first axis is 1 at every step. -/
theorem xs8 : ∀ t : Fin cfg0.N, win0_8.xsize (grid0.coords t) (0 : Fin 3) = 1 := (by decide +kernel : ∀ t : Fin grid0.N, _)
theorem xs9 : ∀ t : Fin cfg0.N, win0_9.xsize (grid0.coords t) (0 : Fin 3) = 1 := (by decide +kernel : ∀ t : Fin grid0.N, _)
theorem idx9 : ∀ t : Fin cfg0.N, win0_9.index t (0 : Fin 3) = t.val / 4 ∧ win0_9.index t (1 : Fin 3) = 0 ∧ win0_9.index t (2 : Fin 3) = 0 :=
  (by decide +kernel : ∀ t : Fin grid0.N, _)

/-- What a flushing step writes back to the first result array is its block of `G8`. -/
theorem flushed8 (c : Dev nD) (t : Fin cfg0.N) (hf : (cfg0.win 8).flush t = true) :
    (dats m 0 c).flushed 8 t = ((cfg0.win 8).blk t).view.read (Elt Ideal) (G8 m c) := by
  have h3 : t.val % 4 = 3 := (flush0_8 t).mp hf
  obtain ⟨i0, i1, i2⟩ := idx8 t
  show (cfg0.win 8).cut (grid0.coords t) ((dats m 0 c).after 8 t) = _
  rw [after0_8]
  funext y
  rw [View.read_apply]
  show (outsAt0 m c t.val t.isLt).1 y = G8 m c (((cfg0.win 8).blk t).view.emb y)
  rw [out8_last m c t h3]
  unfold G8
  have hy : (y 0).val = 0 := by
    have hlt : (y 0).val < win0_8.xsize (grid0.coords t) (0 : Fin 3) := (y 0).isLt
    rw [xs8 t] at hlt; omega
  have he : ((((cfg0.win 8).blk t).view.emb y) 0).val = t.val / 4 := by
    show win0_8.index t (0 : Fin 3) * 1 + 1 * (y 0).val = t.val / 4
    rw [i0, hy]; omega
  rw [he, show 4 * (t.val / 4) + 3 = t.val from by omega]

theorem flushed9 (c : Dev nD) (t : Fin cfg0.N) (hf : (cfg0.win 9).flush t = true) :
    (dats m 0 c).flushed 9 t = ((cfg0.win 9).blk t).view.read (Elt Ideal) (G9 m c) := by
  have h3 : t.val % 4 = 3 := (flush0_9 t).mp hf
  obtain ⟨i0, i1, i2⟩ := idx9 t
  show (cfg0.win 9).cut (grid0.coords t) ((dats m 0 c).after 9 t) = _
  rw [after0_9]
  funext y
  rw [View.read_apply]
  show (outsAt0 m c t.val t.isLt).2.1 y = G9 m c (((cfg0.win 9).blk t).view.emb y)
  rw [out9_last m c t h3]
  unfold G9
  have hy : (y 0).val = 0 := by
    have hlt : (y 0).val < win0_9.xsize (grid0.coords t) (0 : Fin 3) := (y 0).isLt
    rw [xs9 t] at hlt; omega
  have he : ((((cfg0.win 9).blk t).view.emb y) 0).val = t.val / 4 := by
    show win0_9.index t (0 : Fin 3) * 1 + 1 * (y 0).val = t.val / 4
    rw [i0, hy]; omega
  rw [he, show 4 * (t.val / 4) + 3 = t.val from by omega]

/-- The last step of half p. -/
def lastOf (p : Fin 2) : Fin cfg0.N := ⟨4 * p.val + 3, by rw [show cfg0.N = 8 from N_0]; omega⟩

/-- Every entry of the first result array is in the block of its half's last step, which flushes. -/
theorem cover8 (i : S2x1x1.Idx) : ∃ t : Fin cfg0.N, (cfg0.win 8).flush t = true ∧ i ∈ ((cfg0.win 8).blk t).view.set := by
  have h0 : (i 0).val < 2 := (i 0).isLt
  have h1 : (i 1).val < 1 := (i 1).isLt
  have h2 : (i 2).val < 1 := (i 2).isLt
  refine ⟨lastOf ⟨(i 0).val, h0⟩, (flush0_8 _).mpr (by show (4 * (i 0).val + 3) % 4 = 3; omega), ?_⟩
  obtain ⟨i0, i1, i2⟩ := idx8 (lastOf ⟨(i 0).val, h0⟩)
  have hv : (lastOf ⟨(i 0).val, h0⟩).val / 4 = (i 0).val := by show (4 * (i 0).val + 3) / 4 = (i 0).val; omega
  show i ∈ ((View.whole main_v8_0).slice (win0_8.rect (lastOf ⟨(i 0).val, h0⟩))).set
  rw [View.set_slice_whole, Rect.mem_set_unit]
  intro a
  match a with
  | ⟨0, _⟩ => show win0_8.index (lastOf ⟨(i 0).val, h0⟩) (0 : Fin 3) * 1 ≤ (i 0).val ∧ (i 0).val < win0_8.index (lastOf ⟨(i 0).val, h0⟩) (0 : Fin 3) * 1 + 1
              rw [i0, hv]; omega
  | ⟨1, _⟩ => show win0_8.index (lastOf ⟨(i 0).val, h0⟩) (1 : Fin 3) * 1 ≤ (i 1).val ∧ (i 1).val < win0_8.index (lastOf ⟨(i 0).val, h0⟩) (1 : Fin 3) * 1 + 1
              rw [i1]; omega
  | ⟨2, _⟩ => show win0_8.index (lastOf ⟨(i 0).val, h0⟩) (2 : Fin 3) * 1 ≤ (i 2).val ∧ (i 2).val < win0_8.index (lastOf ⟨(i 0).val, h0⟩) (2 : Fin 3) * 1 + 1
              rw [i2]; omega

theorem cover9 (i : S2x1x1.Idx) : ∃ t : Fin cfg0.N, (cfg0.win 9).flush t = true ∧ i ∈ ((cfg0.win 9).blk t).view.set := by
  have h0 : (i 0).val < 2 := (i 0).isLt
  have h1 : (i 1).val < 1 := (i 1).isLt
  have h2 : (i 2).val < 1 := (i 2).isLt
  refine ⟨lastOf ⟨(i 0).val, h0⟩, (flush0_9 _).mpr (by show (4 * (i 0).val + 3) % 4 = 3; omega), ?_⟩
  obtain ⟨i0, i1, i2⟩ := idx9 (lastOf ⟨(i 0).val, h0⟩)
  have hv : (lastOf ⟨(i 0).val, h0⟩).val / 4 = (i 0).val := by show (4 * (i 0).val + 3) / 4 = (i 0).val; omega
  show i ∈ ((View.whole main_v8_1).slice (win0_9.rect (lastOf ⟨(i 0).val, h0⟩))).set
  rw [View.set_slice_whole, Rect.mem_set_unit]
  intro a
  match a with
  | ⟨0, _⟩ => show win0_9.index (lastOf ⟨(i 0).val, h0⟩) (0 : Fin 3) * 1 ≤ (i 0).val ∧ (i 0).val < win0_9.index (lastOf ⟨(i 0).val, h0⟩) (0 : Fin 3) * 1 + 1
              rw [i0, hv]; omega
  | ⟨1, _⟩ => show win0_9.index (lastOf ⟨(i 0).val, h0⟩) (1 : Fin 3) * 1 ≤ (i 1).val ∧ (i 1).val < win0_9.index (lastOf ⟨(i 0).val, h0⟩) (1 : Fin 3) * 1 + 1
              rw [i1]; omega
  | ⟨2, _⟩ => show win0_9.index (lastOf ⟨(i 0).val, h0⟩) (2 : Fin 3) * 1 ≤ (i 2).val ∧ (i 2).val < win0_9.index (lastOf ⟨(i 0).val, h0⟩) (2 : Fin 3) * 1 + 1
              rw [i2]; omega

/-- So the result arrays end holding `G8` and `G9`. -/
theorem final8 (c : Dev nD) : (dats m 0 c).arrAt 8 cfg0.N = G8 m c :=
  (dats m 0 c).arrAt_eq_of_cover 8 (G8 m c) (flushed8 m c) cover8
theorem final9 (c : Dev nD) : (dats m 0 c).arrAt 9 cfg0.N = G9 m c :=
  (dats m 0 c).arrAt_eq_of_cover 9 (G9 m c) (flushed9 m c) cover9

end Cert.KernelIdeal.Out

end
-- ==== Proof.KernelTail.lean ====
/-
  The host operations after the call: each of the two [2, 1, 1] result arrays is summed from zero; the first sum is
  divided by 16384, the second by 8 and multiplied by 1, and the two are added. Read at the extended reals this is the
  specification's last line applied to the two arrays' sums.
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Spec

variable (m : (ℓ : Loc nD τ sig) → Buf (Elt Ideal) ℓ)

/-- The program's result from the two result arrays the call leaves. -/
theorem tail_v14 (c : Dev nD) (G8 G9 : Vec Ideal S2x1x1 .f32)
    (h8 : (dats m 0 c).arrAt 8 cfg0.N = G8) (h9 : (dats m 0 c).arrAt 9 cfg0.N = G9) :
    Pipeline.afterTail₀ cfgs (dats m) 0 (V0 m) [hostOps1] c main_v14
      = fun _ => finish (z + ∑ i : S2x1x1.Idx, G8 i) (z + ∑ i : S2x1x1.Idx, G9 i) := by
  -- a sum over all axes from the zero word is zero plus the total
  have red : ∀ (G : Vec Ideal S2x1x1 .f32) (i : S_.Idx),
      Host.reduceAdd (F := Ideal) G (constant S_ .f32 0x00000000#32) reducesTo_S2x1x1_S_d0_1_2 h_S_ i
        = z + ∑ j : S2x1x1.Idx, G j := by
    intro G i
    simp only [Host.reduceAdd, Ideal.hostReduceAdd_def]
    exact Ideal.hostReduceAdd_total reducesTo_S2x1x1_S_d0_1_2 (fun b => b.elim0) G _ i
  -- the two result arrays as the call leaves them
  have e8 : Pipeline.withArrays (cfgs 0).spec c (V0 m c) (fun w => (dats m 0 c).arrAt w (cfgs 0).N)
      (Proc.devRef .tc main_v8_0) = G8 :=
    (Pipeline.withArrays_arr spec0 launch0.win.arr_inj c _ _ 8).trans h8
  have e9 : Pipeline.withArrays (cfgs 0).spec c (V0 m c) (fun w => (dats m 0 c).arrAt w (cfgs 0).N)
      (Proc.devRef .tc main_v8_1) = G9 :=
    (Pipeline.withArrays_arr spec0 launch0.win.arr_inj c _ _ 9).trans h9
  unfold Pipeline.afterTail₀
  simp only [List.flatten_cons, List.flatten_nil, List.append_nil]
  simp only [Gen.hostOps1]
  after_results
  rw [e8, e9]
  funext i
  show Ideal.div (Host.reduceAdd (F := Ideal) G8 (constant S_ .f32 0x00000000#32) reducesTo_S2x1x1_S_d0_1_2 h_S_ i)
        (Ideal.ofBits .f32 0x46800000#32)
      + Ideal.div (Host.reduceAdd (F := Ideal) G9 (constant S_ .f32 0x00000000#32) reducesTo_S2x1x1_S_d0_1_2 h_S_ i)
          (Ideal.ofBits .f32 0x41000000#32) * Ideal.ofBits .f32 0x3F800000#32
      = finish (z + ∑ j : S2x1x1.Idx, G8 j) (z + ∑ j : S2x1x1.Idx, G9 j)
  rw [red G8 i, red G9 i]
  rfl

end Cert.KernelIdeal.Tail

end
-- ==== Proof.KernelValue.lean ====
/-
  The idealized kernel's run, read: its result is the specification's kernel total of the first head's cross-entropy
  and the three gated heads' gated cross-entropies at every position. The frame run leaves every array of the call at
  what its write-backs make of it; the two result arrays are the per-half lane sums; the host operations after the
  call sum them and apply the last line.
-/
import proofs.«425393_j29738353557664_2_alg».proof.Proof.Gen.KernelIdeal.Frame
import proofs.«425393_j29738353557664_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic
import proofs.«425393_j29738353557664_2_alg».proof.Proof.KernelOut
import proofs.«425393_j29738353557664_2_alg».proof.Proof.KernelTail

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ValueK

open Cert.KernelIdeal Cert.KernelIdeal.Gen Cert.Spec Cert.KernelIdeal.Blocks Cert.KernelIdeal.Acc Cert.KernelIdeal.Out

variable (m : (ℓ : Loc nD τ sig) → Buf (Elt Ideal) ℓ) (ρ : Dev nD → PrngReg)

/-- A [2, 1, 1] array's entries are numbered by the half p. -/
def idxOfHalf : Fin 2 ≃ S2x1x1.Idx where
  toFun p := ix3 p 0 0
  invFun i := ⟨(i 0).val, (i 0).isLt⟩
  left_inv p := rfl
  right_inv i := by
    funext a
    apply Fin.ext
    match a with
    | ⟨0, _⟩ => rfl
    | ⟨1, _⟩ => show (0 : ℕ) = (i 1).val; have h1 : (i 1).val < 1 := (i 1).isLt; omega
    | ⟨2, _⟩ => show (0 : ℕ) = (i 2).val; have h2 : (i 2).val < 1 := (i 2).isLt; omega

theorem sum_G8 (c : Dev nD) :
    ∑ i : S2x1x1.Idx, G8 m c i = ∑ p : Fin 2, ∑ lane : Fin 256, accAt (colsum (A0 m c)) (4 * p.val + 3) lane :=
  (Fintype.sum_equiv idxOfHalf _ _ fun p => rfl).symm

theorem sum_G9 (c : Dev nD) :
    ∑ i : S2x1x1.Idx, G9 m c i
      = ∑ p : Fin 2, ∑ lane : Fin 256, accAt (step2 (B1 m c) (B2 m c) (B3 m c)) (4 * p.val + 3) lane :=
  (Fintype.sum_equiv idxOfHalf _ _ fun p => rfl).symm

/-- The kernel's result, as one function of the argument arrays. -/
def result (c : Dev nD) : Buf (Elt Ideal) ((c.tc : Thread nD τ).loc main_v14) :=
  fun _ => KTotal (A0 m c) (B1 m c) (B2 m c) (B3 m c)

/-- The run, read: the result at the specification's kernel total, the arguments unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans
        ((Tail.tail_v14 m c (G8 m c) (G9 m c) (final8 m c) (final9 m c)).trans (by
          unfold result KTotal
          rw [sum_G8, sum_G9])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.ValueK

end
-- ==== Proof.Algebra.lean ====
/-
  The two algebraic facts that join the kernel's arrangement of the loss to the reference's.
  (1) One row: for finite scores and a label below 512 the kernel's (M + log S) - sum_c row[c] * [c = l] is the
      reference's -((row[l] - M) - log S): all terms are real numbers there, and sum_c row[c] * [c = l] = row[l].
  (2) The totals: summing per tile over the batch, accumulating four tiles lane by lane and then summing the lanes
      visits every (batch, time) position exactly once, so over the commutative monoid of the extended reals under
      addition it is the sum over all positions; sums of sums distribute.
-/
import proofs.«425393_j29738353557664_2_alg».proof.Proof.Spec
import Idealize.ShloMosaic.PureOps.Ideal.Laws
import Mathlib.Data.Finset.Fold
import Mathlib.Algebra.BigOperators.Fin
import Mathlib.Logic.Equiv.Fin.Basic
import Mathlib.Analysis.SpecialFunctions.Log.Basic

noncomputable section

open scoped BigOperators

namespace Cert.Spec

open Idealize.ShloMosaic

/-! ### One row -/

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The maximum of a row of real numbers is neither infinity: it is above the first entry, and below +infinity
    because the bottom it is folded from and every entry are. -/
theorem rowMax_ne (r : Fin 512 → EReal) (hr : ∀ c, r c ≠ ⊥ ∧ r c ≠ ⊤) : rowMax r ≠ ⊥ ∧ rowMax r ≠ ⊤ := by
  constructor
  · apply ne_of_gt
    show ⊥ < Finset.fold max ⊥ r Finset.univ
    rw [Finset.lt_fold_max]
    exact Or.inr ⟨0, Finset.mem_univ _, bot_lt_iff_ne_bot.mpr (hr 0).1⟩
  · apply ne_of_lt
    show Finset.fold max ⊥ r Finset.univ < ⊤
    rw [Finset.fold_max_lt]
    exact ⟨bot_lt_top, fun c _ => lt_top_iff_ne_top.mpr (hr c).2⟩

/-- The one-hot weighted sum of a row is its entry at the label: the class index as a 32-bit word equals the label
    exactly at the class whose number is the label's. -/
theorem hot_sum (r : Fin 512 → EReal) (l : BitVec 32) (hl : l.toNat < 512) :
    ∑ c : Fin 512, r c * hot c l = r ⟨l.toNat, hl⟩ := by
  rw [Finset.sum_eq_single (⟨l.toNat, hl⟩ : Fin 512)]
  · have h : BitVec.ofNat 32 l.toNat = l := by
      apply BitVec.eq_of_toNat_eq
      rw [BitVec.toNat_ofNat]
      exact Nat.mod_eq_of_lt l.isLt
    simp [hot, h]
  · intro c _ hc
    have h : BitVec.ofNat 32 c.val ≠ l := by
      intro h
      apply hc
      apply Fin.ext
      have h' := congrArg BitVec.toNat h
      rw [BitVec.toNat_ofNat] at h'
      have := c.isLt
      show c.val = l.toNat
      omega
    simp [hot, h]
  · intro h
    exact absurd (Finset.mem_univ _) h

/-- The entry picked at the label is the entry numbered by the label. -/
theorem pick_eq (r : Fin 512 → EReal) (l : BitVec 32) (hl : l.toNat < 512) : pick r l = r ⟨l.toNat, hl⟩ :=
  congrArg r (Fin.ext (Nat.mod_eq_of_lt hl))

/-- One row: the kernel's cross-entropy is the reference's, for finite scores and an in-range label. -/
theorem nllK_eq_nllR (r : Fin 512 → EReal) (l : BitVec 32) (hr : ∀ c, r c ≠ ⊥ ∧ r c ≠ ⊤) (hl : l.toNat < 512) :
    nllK r l = nllR r l := by
  -- the maximum is a real number M
  obtain ⟨hMb, hMt⟩ := rowMax_ne r hr
  obtain ⟨M, hM⟩ : ∃ M : ℝ, rowMax r = (M : EReal) := ⟨(rowMax r).toReal, (EReal.coe_toReal hMt hMb).symm⟩
  -- every entry is a real number
  have hex : ∀ c, ∃ x : ℝ, r c = (x : EReal) := fun c => ⟨(r c).toReal, (EReal.coe_toReal (hr c).2 (hr c).1).symm⟩
  choose ρ hρ using hex
  -- the sum of the shifted exponentials is a positive real number S
  have hS : rowSum r = ((∑ c : Fin 512, Real.exp (ρ c - M) : ℝ) : EReal) := by
    unfold rowSum
    rw [coe_sum]
    refine Finset.sum_congr rfl fun c _ => ?_
    rw [hM, hρ c, ← EReal.coe_sub, Ideal.exp_coe]
  have hSpos : 0 < ∑ c : Fin 512, Real.exp (ρ c - M) :=
    Finset.sum_pos (fun c _ => Real.exp_pos _) ⟨0, Finset.mem_univ _⟩
  -- so its logarithm is a real number
  have hL : Ideal.log (rowSum r) = ((Real.log (∑ c : Fin 512, Real.exp (ρ c - M)) : ℝ) : EReal) := by
    rw [hS, Ideal.log_coe, if_neg (not_le.mpr hSpos)]
  unfold nllK nllR
  rw [hot_sum r l hl, pick_eq r l hl, hL, hM, hρ ⟨l.toNat, hl⟩]
  rw [← EReal.coe_add, ← EReal.coe_sub, ← EReal.coe_sub, ← EReal.coe_sub, ← EReal.coe_neg]
  congr 1
  ring

/-! ### The totals -/

/-- Tile by tile, lane by lane, the eight tiles of 256 positions list every time position once:
    `(n, lane) ↦ 256 * n + lane` is a bijection of `Fin 8 × Fin 256` with `Fin 2048`. -/
theorem sum_tiles (g : Fin 2048 → EReal) :
    ∑ n : Fin 8, ∑ lane : Fin 256, g (tpos n.val lane) = ∑ t : Fin 2048, g t := by
  rw [← Fintype.sum_prod_type' (f := fun (n : Fin 8) (lane : Fin 256) => g (tpos n.val lane))]
  refine Fintype.sum_equiv (finProdFinEquiv (m := 8) (n := 256)) _ _ ?_
  rintro ⟨n, lane⟩
  refine congrArg g (Fin.ext ?_)
  have hn := n.isLt
  have hlane := lane.isLt
  show (256 * n.val + lane.val) % 2048 = lane.val + 256 * n.val
  omega

/-- The batch sums of all eight tiles, summed over the lanes, are the sum over every position. -/
theorem colsum_total (A : Fin 8 → Fin 2048 → EReal) :
    ∑ n : Fin 8, ∑ lane : Fin 256, colsum A n.val lane = ∑ b : Fin 8, ∑ t : Fin 2048, A b t := by
  simp only [colsum]
  calc ∑ n : Fin 8, ∑ lane : Fin 256, ∑ b : Fin 8, A b (tpos n.val lane)
      = ∑ n : Fin 8, ∑ b : Fin 8, ∑ lane : Fin 256, A b (tpos n.val lane) :=
        Finset.sum_congr rfl fun n _ => Finset.sum_comm
    _ = ∑ b : Fin 8, ∑ n : Fin 8, ∑ lane : Fin 256, A b (tpos n.val lane) := Finset.sum_comm
    _ = ∑ b : Fin 8, ∑ t : Fin 2048, A b t := Finset.sum_congr rfl fun b _ => sum_tiles (A b)

theorem z_eq : z = 0 := Ideal.ofBits_zero_f32

/-- The accumulator after the fourth step of the first half holds the first four steps' values added to zero. -/
theorem accAt_three (f : ℕ → Fin 256 → EReal) (lane : Fin 256) :
    accAt f 3 lane = f 0 lane + f 1 lane + f 2 lane + f 3 lane := by
  simp [accAt, z_eq]

/-- The accumulator after the fourth step of the second half was reset at that half's first step. -/
theorem accAt_seven (f : ℕ → Fin 256 → EReal) (lane : Fin 256) :
    accAt f 7 lane = f 4 lane + f 5 lane + f 6 lane + f 7 lane := by
  simp [accAt, z_eq]

/-- Summing the two halves' final accumulators over the lanes sums all eight steps' values over the lanes. -/
theorem acc_total (f : ℕ → Fin 256 → EReal) :
    ∑ p : Fin 2, ∑ lane : Fin 256, accAt f (4 * p.val + 3) lane = ∑ n : Fin 8, ∑ lane : Fin 256, f n.val lane := by
  rw [Fin.sum_univ_two, Fin.sum_univ_eight]
  have e0 : ∀ lane, accAt f (4 * ((0 : Fin 2) : ℕ) + 3) lane = f 0 lane + f 1 lane + f 2 lane + f 3 lane :=
    fun lane => accAt_three f lane
  have e1 : ∀ lane, accAt f (4 * ((1 : Fin 2) : ℕ) + 3) lane = f 4 lane + f 5 lane + f 6 lane + f 7 lane :=
    fun lane => accAt_seven f lane
  simp only [e0, e1, Finset.sum_add_distrib, add_assoc]
  rfl

/-- The kernel's tiled, lane-accumulated total is the reference's total over all positions. -/
theorem KTotal_eq_RTotal (A B1 B2 B3 : Fin 8 → Fin 2048 → EReal) : KTotal A B1 B2 B3 = RTotal A B1 B2 B3 := by
  unfold KTotal RTotal
  rw [acc_total, acc_total, colsum_total]
  congr 1
  simp only [step2, z_eq, zero_add, Finset.sum_add_distrib, colsum_total]

end Cert.Spec

end
-- ==== Proof.PreRead.lean ====
/-
  The precondition read back: when the printed predicate is all ones, every score of the four logits arrays is a
  real number (its absolute value is below +infinity) and every label is, as a natural number, below 512
  (it is at least 0 and below 512 as a signed integer).
-/
import proofs.«425393_j29738353557664_2_alg».proof.Pre_finite_inputs
import proofs.«425393_j29738353557664_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx Cert.Pre_finite_inputs

/-- The rank-0 shape has one index. -/
instance : Subsingleton S_.Idx := ⟨fun a b => funext fun d => d.elim0⟩

/-- The word the scores' absolute values are compared with is +infinity. -/
theorem inf_word : Ideal.ofBits .f32 0x7F800000#32 = (⊤ : EReal) := by
  simp [Ideal.ofBits, Ideal.ieee]

/-- An extended real whose absolute value `max x (-x)` is below +infinity is neither infinity:
    `x < ⊤` excludes `⊤`, and `-x < ⊤` excludes `⊥`. -/
theorem finite_of_abs_lt (x : EReal)
    (h : Ideal.cmp .olt (max x (-x)) (Ideal.ofBits .f32 0x7F800000#32) = 1#1) : x ≠ ⊥ ∧ x ≠ ⊤ := by
  rw [inf_word] at h
  have h' : max x (-x) < ⊤ := by
    simpa [Ideal.cmp, StableHlo.Predicate.ofBool_eq_one_iff] using h
  rw [max_lt_iff] at h'
  constructor
  · rintro rfl
    exact absurd h'.2 (by simp)
  · rintro rfl
    exact absurd h'.1 (by simp)

/-- A 32-bit word that is at least 0 and below 512 as a signed integer is below 512 as a natural number:
    a non-negative signed reading is the unsigned one. -/
theorem label_lt (w : BitVec 32) (h1 : IntOp.cmpi .sge w 0#32 = 1#1) (h2 : IntOp.cmpi .slt w 512#32 = 1#1) :
    w.toNat < 512 := by
  unfold IntOp.cmpi at h1 h2
  simp only [StableHlo.Predicate.ofBool_eq_one_iff, BitVec.sle, BitVec.slt, decide_eq_true_eq] at h1 h2
  have e0 : (0#32).toInt = 0 := by decide
  have e512 : (512#32).toInt = 512 := by decide
  have hi := BitVec.toInt_eq_toNat_cond w
  have hw := w.isLt
  rw [e0] at h1
  rw [e512] at h2
  split_ifs at hi <;> omega

/-- Finite scores and in-range labels, from the precondition. -/
theorem of_pre (x0 x1 x2 x3 : FVec Ideal S8x512x2048 .f32) (y : IVec S8x2048x4 32)
    (h : Cert.Pre_finite_inputs.fn (F := Ideal) x0 x1 x2 x3 y = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤)
      ∧ (∀ i, x3 i ≠ ⊥ ∧ x3 i ≠ ⊤) ∧ (∀ i, (y i).toNat < 512) := by
  -- the predicate at its one index is a conjunction of five all-reductions, each of which is 1
  have h0 := congrFun h ValueIdx.ix0
  dsimp only [Cert.Pre_finite_inputs.fn, Cert.Pre_finite_inputs.fn_part1] at h0
  obtain ⟨h0123, hy⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  -- an all-reduction by `and` that is 1 had a 1 at every element; read each element's comparison
  refine ⟨fun i => ?_, fun i => ?_, fun i => ?_, fun i => ?_, fun i => ?_⟩
  · exact finite_of_abs_lt (x0 i) (Host.reduce_andi_all _ _ _ _ _ h0' i)
  · exact finite_of_abs_lt (x1 i) (Host.reduce_andi_all _ _ _ _ _ h1 i)
  · exact finite_of_abs_lt (x2 i) (Host.reduce_andi_all _ _ _ _ _ h2 i)
  · exact finite_of_abs_lt (x3 i) (Host.reduce_andi_all _ _ _ _ _ h3 i)
  · obtain ⟨ha, hb⟩ := IntOp.andi_eq_one.1 (Host.reduce_andi_all _ _ _ _ _ hy i)
    exact label_lt (y i) ha hb

end Cert.PreRead

end
-- ==== Proof.RefRunH.lean ====
/-
  The reference program's run, evaluated stretch by stretch. Its 204 host operations are cut into five stretches
  (head 0; heads 1, 2, 3, each adding its gated sum to the running total; the last five lines); from ANY buffer
  contents W each stretch leaves its result at the stage function of the contents it reads, and leaves the arguments
  and the results of earlier stretches alone. Composed, the program's result is the last stage of the arguments.
-/
import proofs.«425393_j29738353557664_2_alg».proof.Proof.RefOps
import proofs.«425393_j29738353557664_2_alg».proof.Proof.RefRead

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first stretch: head 0, to the mean of its cross-entropy. -/
abbrev opsA : List (HloOp τ sig (Elt F)) :=
  [ unary main_arg4 main_v0 ((extractStridedSlice S8x2048x1 ![0, 0, 0] · slices_S8x2048x4_S8x2048x1_0_0_0) : (⟨S8x2048x4, .i32⟩ : BufTy).Contents (Elt F) → (⟨S8x2048x1, .i32⟩ : BufTy).Contents (Elt F)),
    reshape main_v0 main_v1 rfl shapeCasts_S8x2048x1_S8x2048,
    TRef.nullary (TRef.of (T := ⟨S_, .f32⟩) main_call0_cst) (constant S_ .f32 0xFF800000#32),
    TRef.binary (TRef.of (T := ⟨S8x512x2048, .f32⟩) main_arg0) (TRef.of (T := ⟨S_, .f32⟩) main_call0_cst) (TRef.of (T := ⟨S8x2048, .f32⟩) main_call0_v0) (fun x v => Host.reduce FloatOps.maximumf x v reducesTo_S8x512x2048_S8x2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x2048, .f32⟩) main_call0_v1) (broadcastInDim S8x2048 ![] bcast_S_S8x2048),
    TRef.binary (TRef.of (T := ⟨S8x2048, .f32⟩) main_call0_v1) (TRef.of (T := ⟨S8x2048, .f32⟩) main_call0_v0) (TRef.of (T := ⟨S8x2048, .f32⟩) main_call0_v2) maximumf,
    TRef.unary (TRef.of (T := ⟨S8x2048, .f32⟩) main_call0_v2) (TRef.of (T := ⟨S8x1x2048, .f32⟩) main_call0_v3) (broadcastInDim S8x1x2048 ![0, 2] bcast_S8x2048_S8x1x2048_0_2),
    TRef.unary (TRef.of (T := ⟨S8x1x2048, .f32⟩) main_call0_v3) (TRef.of (T := ⟨S8x512x2048, .f32⟩) main_call0_v4) (broadcastInDim S8x512x2048 ![0, 1, 2] bcast_S8x1x2048_S8x512x2048_0_1_2),
    TRef.binary (TRef.of (T := ⟨S8x512x2048, .f32⟩) main_arg0) (TRef.of (T := ⟨S8x512x2048, .f32⟩) main_call0_v4) (TRef.of (T := ⟨S8x512x2048, .f32⟩) main_call0_v5) subf,
    TRef.unary (TRef.of (T := ⟨S8x512x2048, .f32⟩) main_call0_v5) (TRef.of (T := ⟨S8x512x2048, .f32⟩) main_call0_v6) Host.exp,
    TRef.nullary (TRef.of (T := ⟨S_, .f32⟩) main_call0_cst_1) (constant S_ .f32 0x00000000#32),
    TRef.binary (TRef.of (T := ⟨S8x512x2048, .f32⟩) main_call0_v6) (TRef.of (T := ⟨S_, .f32⟩) main_call0_cst_1) (TRef.of (T := ⟨S8x2048, .f32⟩) main_call0_v7) (fun x v => Host.reduceAdd x v reducesTo_S8x512x2048_S8x2048_d1 h_S_),
    TRef.unary (TRef.of (T := ⟨S8x2048, .f32⟩) main_call0_v7) (TRef.of (T := ⟨S8x1x2048, .f32⟩) main_call0_v8) (broadcastInDim S8x1x2048 ![0, 2] bcast_S8x2048_S8x1x2048_0_2),
    TRef.unary (TRef.of (T := ⟨S8x1x2048, .f32⟩) main_call0_v8) (TRef.of (T := ⟨S8x1x2048, .f32⟩) main_call0_v9) Host.log,
    TRef.unary (TRef.of (T := ⟨S8x1x2048, .f32⟩) main_call0_v9) (TRef.of (T := ⟨S8x512x2048, .f32⟩) main_call0_v10) (broadcastInDim S8x512x2048 ![0, 1, 2] bcast_S8x1x2048_S8x512x2048_0_1_2),
    TRef.binary (TRef.of (T := ⟨S8x512x2048, .f32⟩) main_call0_v5) (TRef.of (T := ⟨S8x512x2048, .f32⟩) main_call0_v10) (TRef.of (T := ⟨S8x512x2048, .f32⟩) main_v2) subf,
    unary main_v1 main_v3 (broadcastInDim S8x1x2048 ![0, 2] bcast_S8x2048_S8x1x2048_0_2 : (⟨S8x2048, .i32⟩ : BufTy).Contents (Elt F) → (⟨S8x1x2048, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1x2048, .i32⟩) main_call1_v0) (broadcastInDim S8x1x2048 ![] bcast_S_S8x1x2048),
    TRef.binary (TRef.of (T := ⟨S8x1x2048, .i32⟩) main_v3) (TRef.of (T := ⟨S8x1x2048, .i32⟩) main_call1_v0) (TRef.of (T := ⟨S8x1x2048, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S8x1x2048, .i32⟩) main_call1_v2) (broadcastInDim S8x1x2048 ![] bcast_S_S8x1x2048),
    TRef.binary (TRef.of (T := ⟨S8x1x2048, .i32⟩) main_v3) (TRef.of (T := ⟨S8x1x2048, .i32⟩) main_call1_v2) (TRef.of (T := ⟨S8x1x2048, .i32⟩) main_call1_v3) addi,
    TRef.ternary (TRef.of (T := ⟨S8x1x2048, .i1⟩) main_call1_v1) (TRef.of (T := ⟨S8x1x2048, .i32⟩) main_call1_v3) (TRef.of (T := ⟨S8x1x2048, .i32⟩) main_v3) (TRef.of (T := ⟨S8x1x2048, .i32⟩) main_call1_v4) select,
    TRef.reshape (TRef.of (T := ⟨S8x1x2048, .i32⟩) main_call1_v4) (TRef.of (T := ⟨S8x1x2048x1, .i32⟩) main_call1_v5) rfl shapeCasts_S8x1x2048_S8x1x2048x1,
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S8x1x2048x1, .i32⟩) main_call1_v6) (broadcastInDim S8x1x2048x1 ![] bcast_S_S8x1x2048x1),
    TRef.binary (TRef.of (T := ⟨S8x1x2048x1, .i32⟩) main_call1_v5) (TRef.of (T := ⟨S8x1x2048x1, .i32⟩) main_call1_v6) (TRef.of (T := ⟨S8x1x2048x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x1x2048x1, .i32⟩) main_call1_v9) (broadcastInDim S8x1x2048x1 ![0, 1, 2, 3] bcast_S1x1x1x1_S8x1x2048x1_0_1_2_3),
    TRef.binary (TRef.of (T := ⟨S8x1x2048x1, .i32⟩) main_call1_v5) (TRef.of (T := ⟨S8x1x2048x1, .i32⟩) main_call1_v9) (TRef.of (T := ⟨S8x1x2048x1, .i1⟩) main_call1_v10) (cmpi .sle),
    TRef.binary (TRef.of (T := ⟨S8x1x2048x1, .i1⟩) main_call1_v7) (TRef.of (T := ⟨S8x1x2048x1, .i1⟩) main_call1_v10) (TRef.of (T := ⟨S8x1x2048x1, .i1⟩) main_call1_v11) andi,
    TRef.nullary (TRef.of (T := ⟨S_, .i1⟩) main_call1_c_3) (constantI S_ 1 1#1),
    TRef.binary (TRef.of (T := ⟨S8x1x2048x1, .i1⟩) main_call1_v11) (TRef.of (T := ⟨S_, .i1⟩) main_call1_c_3) (TRef.of (T := ⟨S8x1x2048, .i1⟩) main_call1_v12) (fun x v => Host.reduce IntOp.andi x v reducesTo_S8x1x2048x1_S8x1x2048_d3 h_S_),
    TRef.binary (TRef.of (T := ⟨S8x512x2048, .f32⟩) main_v2) (TRef.of (T := ⟨S8x1x2048x1, .i32⟩) main_call1_v5) (TRef.of (T := ⟨S8x1x2048, .f32⟩) main_call1_v13) (fun x i => Host.gather gather_S8x512x2048_S8x1x2048x1_S8x1x2048_n_1_02_02_1_3_111 x i),
    TRef.nullary (TRef.of (T := ⟨S_, .f32⟩) main_call1_cst) (constant S_ .f32 0x7FC00000#32),
    TRef.unary (TRef.of (T := ⟨S_, .f32⟩) main_call1_cst) (TRef.of (T := ⟨S8x1x2048, .f32⟩) main_call1_v14) (broadcastInDim S8x1x2048 ![] bcast_S_S8x1x2048),
    TRef.ternary (TRef.of (T := ⟨S8x1x2048, .i1⟩) main_call1_v12) (TRef.of (T := ⟨S8x1x2048, .f32⟩) main_call1_v13) (TRef.of (T := ⟨S8x1x2048, .f32⟩) main_call1_v14) (TRef.of (T := ⟨S8x1x2048, .f32⟩) main_v4) select,
    reshape main_v4 main_v5 rfl shapeCasts_S8x1x2048_S8x2048,
    unary main_v5 main_v6 (Host.negf : (⟨S8x2048, .f32⟩ : BufTy).Contents (Elt F) → (⟨S8x2048, .f32⟩ : BufTy).Contents (Elt F)),
    nullary main_cst (constant S_ .f32 0x00000000#32),
    binary main_v6 main_cst main_v7 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    nullary main_cst_0 (constant S_ .f32 0x46800000#32),
    binary main_v7 main_cst_0 main_v8 (Host.divf : (⟨S_, .f32⟩ : BufTy).Contents (Elt F) → (⟨S_, .f32⟩ : BufTy).Contents (Elt F) → (⟨S_, .f32⟩ : BufTy).Contents (Elt F)) ]

/-- The second stretch: head 1's gated sum, added to zero. -/
abbrev opsB : List (HloOp τ sig (Elt F)) :=
  [ unary main_arg4 main_v9 ((extractStridedSlice S8x2048x1 ![0, 0, 0] · slices_S8x2048x4_S8x2048x1_0_0_0) : (⟨S8x2048x4, .i32⟩ : BufTy).Contents (Elt F) → (⟨S8x2048x1, .i32⟩ : BufTy).Contents (Elt F)),
    reshape main_v9 main_v10 rfl shapeCasts_S8x2048x1_S8x2048,
    unary main_arg4 main_v11 ((extractStridedSlice S8x2048x1 ![0, 0, 1] · slices_S8x2048x4_S8x2048x1_0_0_1) : (⟨S8x2048x4, .i32⟩ : BufTy).Contents (Elt F) → (⟨S8x2048x1, .i32⟩ : BufTy).Contents (Elt F)),
    reshape main_v11 main_v12 rfl shapeCasts_S8x2048x1_S8x2048,
    TRef.nullary (TRef.of (T := ⟨S_, .f32⟩) main_call2_cst) (constant S_ .f32 0xFF800000#32),
    TRef.binary (TRef.of (T := ⟨S8x512x2048, .f32⟩) main_arg1) (TRef.of (T := ⟨S_, .f32⟩) main_call2_cst) (TRef.of (T := ⟨S8x2048, .f32⟩) main_call2_v0) (fun x v => Host.reduce FloatOps.maximumf x v reducesTo_S8x512x2048_S8x2048_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8x2048, .f32⟩) main_call2_v1) (broadcastInDim S8x2048 ![] bcast_S_S8x2048),
    TRef.binary (TRef.of (T := ⟨S8x2048, .f32⟩) main_call2_v1) (TRef.of (T := ⟨S8x2048, .f32⟩) main_call2_v0) (TRef.of (T := ⟨S8x2048, .f32⟩) main_call2_v2) maximumf,
    TRef.unary (TRef.of (T := ⟨S8x2048, .f32⟩) main_call2_v2) (TRef.of (T := ⟨S8x1x2048, .f32⟩) main_call2_v3) (broadcastInDim S8x1x2048 ![0, 2] bcast_S8x2048_S8x1x2048_0_2),
    TRef.unary (TRef.of (T := ⟨S8x1x2048, .f32⟩) main_call2_v3) (TRef.of (T := ⟨S8x512x2048, .f32⟩) main_call2_v4) (broadcastInDim S8x512x2048 ![0, 1, 2] bcast_S8x1x2048_S8x512x2048_0_1_2),
    TRef.binary (TRef.of (T := ⟨S8x512x2048, .f32⟩) main_arg1) (TRef.of (T := ⟨S8x512x2048, .f32⟩) main_call2_v4) (TRef.of (T := ⟨S8x512x2048, .f32⟩) main_call2_v5) subf,
    TRef.unary (TRef.of (T := ⟨S8x512x2048, .f32⟩) main_call2_v5) (TRef.of (T := ⟨S8x512x2048, .f32⟩) main_call2_v6) Host.exp,
    TRef.nullary (TRef.of (T := ⟨S_, .f32⟩) main_call2_cst_1) (constant S_ .f32 0x00000000#32),
    TRef.binary (TRef.of (T := ⟨S8x512x2048, .f32⟩) main_call2_v6) (TRef.of (T := ⟨S_, .f32⟩) main_call2_cst_1) (TRef.of (T := ⟨S8x2048, .f32⟩) main_call2_v7) (fun x v => Host.reduceAdd x v reducesTo_S8x512x2048_S8x2048_d1 h_S_),
    TRef.unary (TRef.of (T := ⟨S8x2048, .f32⟩) main_call2_v7) (TRef.of (T := ⟨S8x1x2048, .f32⟩) main_call2_v8) (broadcastInDim S8x1x2048 ![0, 2] bcast_S8x2048_S8x1x2048_0_2),
    TRef.unary (TRef.of (T := ⟨S8x1x2048, .f32⟩) main_call2_v8) (TRef.of (T := ⟨S8x1x2048, .f32⟩) main_call2_v9) Host.log,
    TRef.unary (TRef.of (T := ⟨S8x1x2048, .f32⟩) main_call2_v9) (TRef.of (T := ⟨S8x512x2048, .f32⟩) main_call2_v10) (broadcastInDim S8x512x2048 ![0, 1, 2] bcast_S8x1x2048_S8x512x2048_0_1_2),
    TRef.binary (TRef.of (T := ⟨S8x512x2048, .f32⟩) main_call2_v5) (TRef.of (T := ⟨S8x512x2048, .f32⟩) main_call2_v10) (TRef.of (T := ⟨S8x512x2048, .f32⟩) main_v13) subf,
    unary main_v12 main_v14 (broadcastInDim S8x1x2048 ![0, 2] bcast_S8x2048_S8x1x2048_0_2 : (⟨S8x2048, .i32⟩ : BufTy).Contents (Elt F) → (⟨S8x1x2048, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x1x2048, .i32⟩) main_call3_v0) (broadcastInDim S8x1x2048 ![] bcast_S_S8x1x2048),
    TRef.binary (TRef.of (T := ⟨S8x1x2048, .i32⟩) main_v14) (TRef.of (T := ⟨S8x1x2048, .i32⟩) main_call3_v0) (TRef.of (T := ⟨S8x1x2048, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S8x1x2048, .i32⟩) main_call3_v2) (broadcastInDim S8x1x2048 ![] bcast_S_S8x1x2048),
    TRef.binary (TRef.of (T := ⟨S8x1x2048, .i32⟩) main_v14) (TRef.of (T := ⟨S8x1x2048, .i32⟩) main_call3_v2) (TRef.of (T := ⟨S8x1x2048, .i32⟩) main_call3_v3) addi,
    TRef.ternary (TRef.of (T := ⟨S8x1x2048, .i1⟩) main_call3_v1) (TRef.of (T := ⟨S8x1x2048, .i32⟩) main_call3_v3) (TRef.of (T := ⟨S8x1x2048, .i32⟩) main_v14) (TRef.of (T := ⟨S8x1x2048, .i32⟩) main_call3_v4) select,
    TRef.reshape (TRef.of (T := ⟨S8x1x2048, .i32⟩) main_call3_v4) (TRef.of (T := ⟨S8x1x2048x1, .i32⟩) main_call3_v5) rfl shapeCasts_S8x1x2048_S8x1x2048x1,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S8x1x2048x1, .i32⟩) main_call3_v6) (broadcastInDim S8x1x2048x1 ![] bcast_S_S8x1x2048x1),
    TRef.binary (TRef.of (T := ⟨S8x1x2048x1, .i32⟩) main_call3_v5) (TRef.of (T := ⟨S8x1x2048x1, .i32⟩) main_call3_v6) (TRef.of (T := ⟨S8x1x2048x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S8x1x2048x1, .i32⟩) main_call3_v9) (broadcastInDim S8x1x2048x1 ![0, 1, 2, 3] bcast_S1x1x1x1_S8x1x2048x1_0_1_2_3),
    TRef.binary (TRef.of (T := ⟨S8x1x2048x1, .i32⟩) main_call3_v5) (TRef.of (T := ⟨S8x1x2048x1, .i32⟩) main_call3_v9) (TRef.of (T := ⟨S8x1x2048x1, .i1⟩) main_call3_v10) (cmpi .sle),
    TRef.binary (TRef.of (T := ⟨S8x1x2048x1, .i1⟩) main_call3_v7) (TRef.of (T := ⟨S8x1x2048x1, .i1⟩) main_call3_v10) (TRef.of (T := ⟨S8x1x2048x1, .i1⟩) main_call3_v11) andi,
    TRef.nullary (TRef.of (T := ⟨S_, .i1⟩) main_call3_c_3) (constantI S_ 1 1#1),
    TRef.binary (TRef.of (T := ⟨S8x1x2048x1, .i1⟩) main_call3_v11) (TRef.of (T := ⟨S_, .i1⟩) main_call3_c_3) (TRef.of (T := ⟨S8x1x2048, .i1⟩) main_call3_v12) (fun x v => Host.reduce IntOp.andi x v reducesTo_S8x1x2048x1_S8x1x2048_d3 h_S_),
    TRef.binary (TRef.of (T := ⟨S8x512x2048, .f32⟩) main_v13) (TRef.of (T := ⟨S8x1x2048x1, .i32⟩) main_call3_v5) (TRef.of (T := ⟨S8x1x2048, .f32⟩) main_call3_v13) (fun x i => Host.gather gather_S8x512x2048_S8x1x2048x1_S8x1x2048_n_1_02_02_1_3_111 x i),
    TRef.nullary (TRef.of (T := ⟨S_, .f32⟩) main_call3_cst) (constant S_ .f32 0x7FC00000#32),
    TRef.unary (TRef.of (T := ⟨S_, .f32⟩) main_call3_cst) (TRef.of (T := ⟨S8x1x2048, .f32⟩) main_call3_v14) (broadcastInDim S8x1x2048 ![] bcast_S_S8x1x2048),
    TRef.ternary (TRef.of (T := ⟨S8x1x2048, .i1⟩) main_call3_v12) (TRef.of (T := ⟨S8x1x2048, .f32⟩) main_call3_v13) (TRef.of (T := ⟨S8x1x2048, .f32⟩) main_call3_v14) (TRef.of (T := ⟨S8x1x2048, .f32⟩) main_v15) select,
    reshape main_v15 main_v16 rfl shapeCasts_S8x1x2048_S8x2048,
    unary main_v16 main_v17 (Host.negf : (⟨S8x2048, .f32⟩ : BufTy).Contents (Elt F) → (⟨S8x2048, .f32⟩ : BufTy).Contents (Elt F)),
    nullary main_c (constantI S_ 32 0#32),
    unary main_c main_v18 (broadcastInDim S8x2048 ![] bcast_S_S8x2048 : (⟨S_, .i32⟩ : BufTy).Contents (Elt F) → (⟨S8x2048, .i32⟩ : BufTy).Contents (Elt F)),
    binary main_v10 main_v18 main_v19 (cmpi .eq : (⟨S8x2048, .i32⟩ : BufTy).Contents (Elt F) → (⟨S8x2048, .i32⟩ : BufTy).Contents (Elt F) → (⟨S8x2048, .i1⟩ : BufTy).Contents (Elt F)),
    unary main_v19 main_v20 (uitofp .f32 : (⟨S8x2048, .i1⟩ : BufTy).Contents (Elt F) → (⟨S8x2048, .f32⟩ : BufTy).Contents (Elt F)),
    binary main_v17 main_v20 main_v21 (mulf : (⟨S8x2048, .f32⟩ : BufTy).Contents (Elt F) → (⟨S8x2048, .f32⟩ : BufTy).Contents (Elt F) → (⟨S8x2048, .f32⟩ : BufTy).Contents (Elt F)),
    nullary main_cst_1 (constant S_ .f32 0x00000000#32),
    binary main_v21 main_cst_1 main_v22 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    nullary main_cst_2 (constant S_ .f32 0x00000000#32),
    binary main_cst_2 main_v22 main_v23 (addf : (⟨S_, .f32⟩ : BufTy).Contents (Elt F) → (⟨S_, .f32⟩ : BufTy).Contents (Elt F) → (⟨S_, .f32⟩ : BufTy).Contents (Elt F)) ]

/-- The third stretch: head 2's gated sum, added to the running total. -/
abbrev opsC : List (HloOp τ sig (Elt F)) :=
  [ unary main_arg4 main_v24 ((extractStridedSlice S8x2048x1 ![0, 0, 2] · slices_S8x2048x4_S8x2048x1_0_0_2) : (⟨S8x2048x4, .i32⟩ : BufTy).Contents (Elt F) → (⟨S8x2048x1, .i32⟩ : BufTy).Contents (Elt F)),
    reshape main_v24 main_v25 rfl shapeCasts_S8x2048x1_S8x2048,
    TRef.nullary (TRef.of (T := ⟨S_, .f32⟩) main_call4_cst) (constant S_ .f32 0xFF800000#32),
    TRef.binary (TRef.of (T := ⟨S8x512x2048, .f32⟩) main_arg2) (TRef.of (T := ⟨S_, .f32⟩) main_call4_cst) (TRef.of (T := ⟨S8x2048, .f32⟩) main_call4_v0) (fun x v => Host.reduce FloatOps.maximumf x v reducesTo_S8x512x2048_S8x2048_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S8x2048, .f32⟩) main_call4_v1) (broadcastInDim S8x2048 ![] bcast_S_S8x2048),
    TRef.binary (TRef.of (T := ⟨S8x2048, .f32⟩) main_call4_v1) (TRef.of (T := ⟨S8x2048, .f32⟩) main_call4_v0) (TRef.of (T := ⟨S8x2048, .f32⟩) main_call4_v2) maximumf,
    TRef.unary (TRef.of (T := ⟨S8x2048, .f32⟩) main_call4_v2) (TRef.of (T := ⟨S8x1x2048, .f32⟩) main_call4_v3) (broadcastInDim S8x1x2048 ![0, 2] bcast_S8x2048_S8x1x2048_0_2),
    TRef.unary (TRef.of (T := ⟨S8x1x2048, .f32⟩) main_call4_v3) (TRef.of (T := ⟨S8x512x2048, .f32⟩) main_call4_v4) (broadcastInDim S8x512x2048 ![0, 1, 2] bcast_S8x1x2048_S8x512x2048_0_1_2),
    TRef.binary (TRef.of (T := ⟨S8x512x2048, .f32⟩) main_arg2) (TRef.of (T := ⟨S8x512x2048, .f32⟩) main_call4_v4) (TRef.of (T := ⟨S8x512x2048, .f32⟩) main_call4_v5) subf,
    TRef.unary (TRef.of (T := ⟨S8x512x2048, .f32⟩) main_call4_v5) (TRef.of (T := ⟨S8x512x2048, .f32⟩) main_call4_v6) Host.exp,
    TRef.nullary (TRef.of (T := ⟨S_, .f32⟩) main_call4_cst_1) (constant S_ .f32 0x00000000#32),
    TRef.binary (TRef.of (T := ⟨S8x512x2048, .f32⟩) main_call4_v6) (TRef.of (T := ⟨S_, .f32⟩) main_call4_cst_1) (TRef.of (T := ⟨S8x2048, .f32⟩) main_call4_v7) (fun x v => Host.reduceAdd x v reducesTo_S8x512x2048_S8x2048_d1 h_S_),
    TRef.unary (TRef.of (T := ⟨S8x2048, .f32⟩) main_call4_v7) (TRef.of (T := ⟨S8x1x2048, .f32⟩) main_call4_v8) (broadcastInDim S8x1x2048 ![0, 2] bcast_S8x2048_S8x1x2048_0_2),
    TRef.unary (TRef.of (T := ⟨S8x1x2048, .f32⟩) main_call4_v8) (TRef.of (T := ⟨S8x1x2048, .f32⟩) main_call4_v9) Host.log,
    TRef.unary (TRef.of (T := ⟨S8x1x2048, .f32⟩) main_call4_v9) (TRef.of (T := ⟨S8x512x2048, .f32⟩) main_call4_v10) (broadcastInDim S8x512x2048 ![0, 1, 2] bcast_S8x1x2048_S8x512x2048_0_1_2),
    TRef.binary (TRef.of (T := ⟨S8x512x2048, .f32⟩) main_call4_v5) (TRef.of (T := ⟨S8x512x2048, .f32⟩) main_call4_v10) (TRef.of (T := ⟨S8x512x2048, .f32⟩) main_v26) subf,
    unary main_v25 main_v27 (broadcastInDim S8x1x2048 ![0, 2] bcast_S8x2048_S8x1x2048_0_2 : (⟨S8x2048, .i32⟩ : BufTy).Contents (Elt F) → (⟨S8x1x2048, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S8x1x2048, .i32⟩) main_call5_v0) (broadcastInDim S8x1x2048 ![] bcast_S_S8x1x2048),
    TRef.binary (TRef.of (T := ⟨S8x1x2048, .i32⟩) main_v27) (TRef.of (T := ⟨S8x1x2048, .i32⟩) main_call5_v0) (TRef.of (T := ⟨S8x1x2048, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S8x1x2048, .i32⟩) main_call5_v2) (broadcastInDim S8x1x2048 ![] bcast_S_S8x1x2048),
    TRef.binary (TRef.of (T := ⟨S8x1x2048, .i32⟩) main_v27) (TRef.of (T := ⟨S8x1x2048, .i32⟩) main_call5_v2) (TRef.of (T := ⟨S8x1x2048, .i32⟩) main_call5_v3) addi,
    TRef.ternary (TRef.of (T := ⟨S8x1x2048, .i1⟩) main_call5_v1) (TRef.of (T := ⟨S8x1x2048, .i32⟩) main_call5_v3) (TRef.of (T := ⟨S8x1x2048, .i32⟩) main_v27) (TRef.of (T := ⟨S8x1x2048, .i32⟩) main_call5_v4) select,
    TRef.reshape (TRef.of (T := ⟨S8x1x2048, .i32⟩) main_call5_v4) (TRef.of (T := ⟨S8x1x2048x1, .i32⟩) main_call5_v5) rfl shapeCasts_S8x1x2048_S8x1x2048x1,
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S8x1x2048x1, .i32⟩) main_call5_v6) (broadcastInDim S8x1x2048x1 ![] bcast_S_S8x1x2048x1),
    TRef.binary (TRef.of (T := ⟨S8x1x2048x1, .i32⟩) main_call5_v5) (TRef.of (T := ⟨S8x1x2048x1, .i32⟩) main_call5_v6) (TRef.of (T := ⟨S8x1x2048x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S8x1x2048x1, .i32⟩) main_call5_v9) (broadcastInDim S8x1x2048x1 ![0, 1, 2, 3] bcast_S1x1x1x1_S8x1x2048x1_0_1_2_3),
    TRef.binary (TRef.of (T := ⟨S8x1x2048x1, .i32⟩) main_call5_v5) (TRef.of (T := ⟨S8x1x2048x1, .i32⟩) main_call5_v9) (TRef.of (T := ⟨S8x1x2048x1, .i1⟩) main_call5_v10) (cmpi .sle),
    TRef.binary (TRef.of (T := ⟨S8x1x2048x1, .i1⟩) main_call5_v7) (TRef.of (T := ⟨S8x1x2048x1, .i1⟩) main_call5_v10) (TRef.of (T := ⟨S8x1x2048x1, .i1⟩) main_call5_v11) andi,
    TRef.nullary (TRef.of (T := ⟨S_, .i1⟩) main_call5_c_3) (constantI S_ 1 1#1),
    TRef.binary (TRef.of (T := ⟨S8x1x2048x1, .i1⟩) main_call5_v11) (TRef.of (T := ⟨S_, .i1⟩) main_call5_c_3) (TRef.of (T := ⟨S8x1x2048, .i1⟩) main_call5_v12) (fun x v => Host.reduce IntOp.andi x v reducesTo_S8x1x2048x1_S8x1x2048_d3 h_S_),
    TRef.binary (TRef.of (T := ⟨S8x512x2048, .f32⟩) main_v26) (TRef.of (T := ⟨S8x1x2048x1, .i32⟩) main_call5_v5) (TRef.of (T := ⟨S8x1x2048, .f32⟩) main_call5_v13) (fun x i => Host.gather gather_S8x512x2048_S8x1x2048x1_S8x1x2048_n_1_02_02_1_3_111 x i),
    TRef.nullary (TRef.of (T := ⟨S_, .f32⟩) main_call5_cst) (constant S_ .f32 0x7FC00000#32),
    TRef.unary (TRef.of (T := ⟨S_, .f32⟩) main_call5_cst) (TRef.of (T := ⟨S8x1x2048, .f32⟩) main_call5_v14) (broadcastInDim S8x1x2048 ![] bcast_S_S8x1x2048),
    TRef.ternary (TRef.of (T := ⟨S8x1x2048, .i1⟩) main_call5_v12) (TRef.of (T := ⟨S8x1x2048, .f32⟩) main_call5_v13) (TRef.of (T := ⟨S8x1x2048, .f32⟩) main_call5_v14) (TRef.of (T := ⟨S8x1x2048, .f32⟩) main_v28) select,
    reshape main_v28 main_v29 rfl shapeCasts_S8x1x2048_S8x2048,
    unary main_v29 main_v30 (Host.negf : (⟨S8x2048, .f32⟩ : BufTy).Contents (Elt F) → (⟨S8x2048, .f32⟩ : BufTy).Contents (Elt F)),
    nullary main_c_3 (constantI S_ 32 1#32),
    unary main_c_3 main_v31 (broadcastInDim S8x2048 ![] bcast_S_S8x2048 : (⟨S_, .i32⟩ : BufTy).Contents (Elt F) → (⟨S8x2048, .i32⟩ : BufTy).Contents (Elt F)),
    binary main_v10 main_v31 main_v32 (cmpi .eq : (⟨S8x2048, .i32⟩ : BufTy).Contents (Elt F) → (⟨S8x2048, .i32⟩ : BufTy).Contents (Elt F) → (⟨S8x2048, .i1⟩ : BufTy).Contents (Elt F)),
    unary main_v32 main_v33 (uitofp .f32 : (⟨S8x2048, .i1⟩ : BufTy).Contents (Elt F) → (⟨S8x2048, .f32⟩ : BufTy).Contents (Elt F)),
    binary main_v30 main_v33 main_v34 (mulf : (⟨S8x2048, .f32⟩ : BufTy).Contents (Elt F) → (⟨S8x2048, .f32⟩ : BufTy).Contents (Elt F) → (⟨S8x2048, .f32⟩ : BufTy).Contents (Elt F)),
    nullary main_cst_4 (constant S_ .f32 0x00000000#32),
    binary main_v34 main_cst_4 main_v35 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    binary main_v23 main_v35 main_v36 (addf : (⟨S_, .f32⟩ : BufTy).Contents (Elt F) → (⟨S_, .f32⟩ : BufTy).Contents (Elt F) → (⟨S_, .f32⟩ : BufTy).Contents (Elt F)) ]

/-- The fourth stretch: head 3's. -/
abbrev opsD : List (HloOp τ sig (Elt F)) :=
  [ unary main_arg4 main_v37 ((extractStridedSlice S8x2048x1 ![0, 0, 3] · slices_S8x2048x4_S8x2048x1_0_0_3) : (⟨S8x2048x4, .i32⟩ : BufTy).Contents (Elt F) → (⟨S8x2048x1, .i32⟩ : BufTy).Contents (Elt F)),
    reshape main_v37 main_v38 rfl shapeCasts_S8x2048x1_S8x2048,
    TRef.nullary (TRef.of (T := ⟨S_, .f32⟩) main_call6_cst) (constant S_ .f32 0xFF800000#32),
    TRef.binary (TRef.of (T := ⟨S8x512x2048, .f32⟩) main_arg3) (TRef.of (T := ⟨S_, .f32⟩) main_call6_cst) (TRef.of (T := ⟨S8x2048, .f32⟩) main_call6_v0) (fun x v => Host.reduce FloatOps.maximumf x v reducesTo_S8x512x2048_S8x2048_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S8x2048, .f32⟩) main_call6_v1) (broadcastInDim S8x2048 ![] bcast_S_S8x2048),
    TRef.binary (TRef.of (T := ⟨S8x2048, .f32⟩) main_call6_v1) (TRef.of (T := ⟨S8x2048, .f32⟩) main_call6_v0) (TRef.of (T := ⟨S8x2048, .f32⟩) main_call6_v2) maximumf,
    TRef.unary (TRef.of (T := ⟨S8x2048, .f32⟩) main_call6_v2) (TRef.of (T := ⟨S8x1x2048, .f32⟩) main_call6_v3) (broadcastInDim S8x1x2048 ![0, 2] bcast_S8x2048_S8x1x2048_0_2),
    TRef.unary (TRef.of (T := ⟨S8x1x2048, .f32⟩) main_call6_v3) (TRef.of (T := ⟨S8x512x2048, .f32⟩) main_call6_v4) (broadcastInDim S8x512x2048 ![0, 1, 2] bcast_S8x1x2048_S8x512x2048_0_1_2),
    TRef.binary (TRef.of (T := ⟨S8x512x2048, .f32⟩) main_arg3) (TRef.of (T := ⟨S8x512x2048, .f32⟩) main_call6_v4) (TRef.of (T := ⟨S8x512x2048, .f32⟩) main_call6_v5) subf,
    TRef.unary (TRef.of (T := ⟨S8x512x2048, .f32⟩) main_call6_v5) (TRef.of (T := ⟨S8x512x2048, .f32⟩) main_call6_v6) Host.exp,
    TRef.nullary (TRef.of (T := ⟨S_, .f32⟩) main_call6_cst_1) (constant S_ .f32 0x00000000#32),
    TRef.binary (TRef.of (T := ⟨S8x512x2048, .f32⟩) main_call6_v6) (TRef.of (T := ⟨S_, .f32⟩) main_call6_cst_1) (TRef.of (T := ⟨S8x2048, .f32⟩) main_call6_v7) (fun x v => Host.reduceAdd x v reducesTo_S8x512x2048_S8x2048_d1 h_S_),
    TRef.unary (TRef.of (T := ⟨S8x2048, .f32⟩) main_call6_v7) (TRef.of (T := ⟨S8x1x2048, .f32⟩) main_call6_v8) (broadcastInDim S8x1x2048 ![0, 2] bcast_S8x2048_S8x1x2048_0_2),
    TRef.unary (TRef.of (T := ⟨S8x1x2048, .f32⟩) main_call6_v8) (TRef.of (T := ⟨S8x1x2048, .f32⟩) main_call6_v9) Host.log,
    TRef.unary (TRef.of (T := ⟨S8x1x2048, .f32⟩) main_call6_v9) (TRef.of (T := ⟨S8x512x2048, .f32⟩) main_call6_v10) (broadcastInDim S8x512x2048 ![0, 1, 2] bcast_S8x1x2048_S8x512x2048_0_1_2),
    TRef.binary (TRef.of (T := ⟨S8x512x2048, .f32⟩) main_call6_v5) (TRef.of (T := ⟨S8x512x2048, .f32⟩) main_call6_v10) (TRef.of (T := ⟨S8x512x2048, .f32⟩) main_v39) subf,
    unary main_v38 main_v40 (broadcastInDim S8x1x2048 ![0, 2] bcast_S8x2048_S8x1x2048_0_2 : (⟨S8x2048, .i32⟩ : BufTy).Contents (Elt F) → (⟨S8x1x2048, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S8x1x2048, .i32⟩) main_call7_v0) (broadcastInDim S8x1x2048 ![] bcast_S_S8x1x2048),
    TRef.binary (TRef.of (T := ⟨S8x1x2048, .i32⟩) main_v40) (TRef.of (T := ⟨S8x1x2048, .i32⟩) main_call7_v0) (TRef.of (T := ⟨S8x1x2048, .i1⟩) main_call7_v1) (cmpi .slt),
    TRef.nullary (TRef.of (T := ⟨S_, .i32⟩) main_call7_c_0) (constantI S_ 32 512#32),
    TRef.unary (TRef.of (T := ⟨S_, .i32⟩) main_call7_c_0) (TRef.of (T := ⟨S8x1x2048, .i32⟩) main_call7_v2) (broadcastInDim S8x1x2048 ![] bcast_S_S8x1x2048),
    TRef.binary (TRef.of (T := ⟨S8x1x2048, .i32⟩) main_v40) (TRef.of (T := ⟨S8x1x2048, .i32⟩) main_call7_v2) (TRef.of (T := ⟨S8x1x2048, .i32⟩) main_call7_v3) addi,
    TRef.ternary (TRef.of (T := ⟨S8x1x2048, .i1⟩) main_call7_v1) (TRef.of (T := ⟨S8x1x2048, .i32⟩) main_call7_v3) (TRef.of (T := ⟨S8x1x2048, .i32⟩) main_v40) (TRef.of (T := ⟨S8x1x2048, .i32⟩) main_call7_v4) select,
    TRef.reshape (TRef.of (T := ⟨S8x1x2048, .i32⟩) main_call7_v4) (TRef.of (T := ⟨S8x1x2048x1, .i32⟩) main_call7_v5) rfl shapeCasts_S8x1x2048_S8x1x2048x1,
    TRef.nullary (TRef.of (T := ⟨S1, .i32⟩) main_call7_c_1) (constantI S1 32 511#32),
    TRef.nullary (TRef.of (T := ⟨S_, .i32⟩) main_call7_c_2) (constantI S_ 32 0#32),
    TRef.unary (TRef.of (T := ⟨S_, .i32⟩) main_call7_c_2) (TRef.of (T := ⟨S8x1x2048x1, .i32⟩) main_call7_v6) (broadcastInDim S8x1x2048x1 ![] bcast_S_S8x1x2048x1),
    TRef.binary (TRef.of (T := ⟨S8x1x2048x1, .i32⟩) main_call7_v5) (TRef.of (T := ⟨S8x1x2048x1, .i32⟩) main_call7_v6) (TRef.of (T := ⟨S8x1x2048x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S8x1x2048x1, .i32⟩) main_call7_v9) (broadcastInDim S8x1x2048x1 ![0, 1, 2, 3] bcast_S1x1x1x1_S8x1x2048x1_0_1_2_3),
    TRef.binary (TRef.of (T := ⟨S8x1x2048x1, .i32⟩) main_call7_v5) (TRef.of (T := ⟨S8x1x2048x1, .i32⟩) main_call7_v9) (TRef.of (T := ⟨S8x1x2048x1, .i1⟩) main_call7_v10) (cmpi .sle),
    TRef.binary (TRef.of (T := ⟨S8x1x2048x1, .i1⟩) main_call7_v7) (TRef.of (T := ⟨S8x1x2048x1, .i1⟩) main_call7_v10) (TRef.of (T := ⟨S8x1x2048x1, .i1⟩) main_call7_v11) andi,
    TRef.nullary (TRef.of (T := ⟨S_, .i1⟩) main_call7_c_3) (constantI S_ 1 1#1),
    TRef.binary (TRef.of (T := ⟨S8x1x2048x1, .i1⟩) main_call7_v11) (TRef.of (T := ⟨S_, .i1⟩) main_call7_c_3) (TRef.of (T := ⟨S8x1x2048, .i1⟩) main_call7_v12) (fun x v => Host.reduce IntOp.andi x v reducesTo_S8x1x2048x1_S8x1x2048_d3 h_S_),
    TRef.binary (TRef.of (T := ⟨S8x512x2048, .f32⟩) main_v39) (TRef.of (T := ⟨S8x1x2048x1, .i32⟩) main_call7_v5) (TRef.of (T := ⟨S8x1x2048, .f32⟩) main_call7_v13) (fun x i => Host.gather gather_S8x512x2048_S8x1x2048x1_S8x1x2048_n_1_02_02_1_3_111 x i),
    TRef.nullary (TRef.of (T := ⟨S_, .f32⟩) main_call7_cst) (constant S_ .f32 0x7FC00000#32),
    TRef.unary (TRef.of (T := ⟨S_, .f32⟩) main_call7_cst) (TRef.of (T := ⟨S8x1x2048, .f32⟩) main_call7_v14) (broadcastInDim S8x1x2048 ![] bcast_S_S8x1x2048),
    TRef.ternary (TRef.of (T := ⟨S8x1x2048, .i1⟩) main_call7_v12) (TRef.of (T := ⟨S8x1x2048, .f32⟩) main_call7_v13) (TRef.of (T := ⟨S8x1x2048, .f32⟩) main_call7_v14) (TRef.of (T := ⟨S8x1x2048, .f32⟩) main_v41) select,
    reshape main_v41 main_v42 rfl shapeCasts_S8x1x2048_S8x2048,
    unary main_v42 main_v43 (Host.negf : (⟨S8x2048, .f32⟩ : BufTy).Contents (Elt F) → (⟨S8x2048, .f32⟩ : BufTy).Contents (Elt F)),
    nullary main_c_5 (constantI S_ 32 2#32),
    unary main_c_5 main_v44 (broadcastInDim S8x2048 ![] bcast_S_S8x2048 : (⟨S_, .i32⟩ : BufTy).Contents (Elt F) → (⟨S8x2048, .i32⟩ : BufTy).Contents (Elt F)),
    binary main_v10 main_v44 main_v45 (cmpi .eq : (⟨S8x2048, .i32⟩ : BufTy).Contents (Elt F) → (⟨S8x2048, .i32⟩ : BufTy).Contents (Elt F) → (⟨S8x2048, .i1⟩ : BufTy).Contents (Elt F)),
    unary main_v45 main_v46 (uitofp .f32 : (⟨S8x2048, .i1⟩ : BufTy).Contents (Elt F) → (⟨S8x2048, .f32⟩ : BufTy).Contents (Elt F)),
    binary main_v43 main_v46 main_v47 (mulf : (⟨S8x2048, .f32⟩ : BufTy).Contents (Elt F) → (⟨S8x2048, .f32⟩ : BufTy).Contents (Elt F) → (⟨S8x2048, .f32⟩ : BufTy).Contents (Elt F)),
    nullary main_cst_6 (constant S_ .f32 0x00000000#32),
    binary main_v47 main_cst_6 main_v48 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    binary main_v36 main_v48 main_v49 (addf : (⟨S_, .f32⟩ : BufTy).Contents (Elt F) → (⟨S_, .f32⟩ : BufTy).Contents (Elt F) → (⟨S_, .f32⟩ : BufTy).Contents (Elt F)) ]

/-- The last lines: divide by 8, multiply by 1, add the mean. -/
abbrev opsE : List (HloOp τ sig (Elt F)) :=
  [ nullary main_cst_7 (constant S_ .f32 0x41000000#32),
    binary main_v49 main_cst_7 main_v50 (Host.divf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_v50 main_cst_8 main_v51 (mulf : (⟨S_, .f32⟩ : BufTy).Contents (Elt F) → (⟨S_, .f32⟩ : BufTy).Contents (Elt F) → (⟨S_, .f32⟩ : BufTy).Contents (Elt F)),
    binary main_v8 main_v51 main_v52 (addf : (⟨S_, .f32⟩ : BufTy).Contents (Elt F) → (⟨S_, .f32⟩ : BufTy).Contents (Elt F) → (⟨S_, .f32⟩ : BufTy).Contents (Elt F)) ]

theorem ops_split : (ops (F := F)) = opsA ++ (opsB ++ (opsC ++ (opsD ++ opsE))) := rfl

/-- The contents after two stretches in a row are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A typed reference's two transports along its type cancel. -/
theorem ofBuf_toBuf {T : BufTy} (x : TRef sig T) (v : T.Contents (Elt F)) : x.ofBuf (x.toBuf v) = v := by
  obtain ⟨r, h, hd, hs⟩ := x
  subst h
  rfl

/-! At a literal reference each transport is the identity. -/
theorem ofBuf_main_arg0 (X : (⟨S8x512x2048, .f32⟩ : BufTy).Contents (Elt F)) : (TRef.of (T := ⟨S8x512x2048, .f32⟩) main_arg0).ofBuf X = X := rfl
theorem ofBuf_main_v3 (X : (⟨S8x1x2048, .i32⟩ : BufTy).Contents (Elt F)) : (TRef.of (T := ⟨S8x1x2048, .i32⟩) main_v3).ofBuf X = X := rfl
theorem ofBuf_main_call1_v5 (X : (⟨S8x1x2048x1, .i32⟩ : BufTy).Contents (Elt F)) : (TRef.of (T := ⟨S8x1x2048x1, .i32⟩) main_call1_v5).ofBuf X = X := rfl
theorem ofBuf_main_arg1 (X : (⟨S8x512x2048, .f32⟩ : BufTy).Contents (Elt F)) : (TRef.of (T := ⟨S8x512x2048, .f32⟩) main_arg1).ofBuf X = X := rfl
theorem ofBuf_main_v14 (X : (⟨S8x1x2048, .i32⟩ : BufTy).Contents (Elt F)) : (TRef.of (T := ⟨S8x1x2048, .i32⟩) main_v14).ofBuf X = X := rfl
theorem ofBuf_main_call3_v5 (X : (⟨S8x1x2048x1, .i32⟩ : BufTy).Contents (Elt F)) : (TRef.of (T := ⟨S8x1x2048x1, .i32⟩) main_call3_v5).ofBuf X = X := rfl
theorem ofBuf_main_arg2 (X : (⟨S8x512x2048, .f32⟩ : BufTy).Contents (Elt F)) : (TRef.of (T := ⟨S8x512x2048, .f32⟩) main_arg2).ofBuf X = X := rfl
theorem ofBuf_main_v27 (X : (⟨S8x1x2048, .i32⟩ : BufTy).Contents (Elt F)) : (TRef.of (T := ⟨S8x1x2048, .i32⟩) main_v27).ofBuf X = X := rfl
theorem ofBuf_main_call5_v5 (X : (⟨S8x1x2048x1, .i32⟩ : BufTy).Contents (Elt F)) : (TRef.of (T := ⟨S8x1x2048x1, .i32⟩) main_call5_v5).ofBuf X = X := rfl
theorem ofBuf_main_arg3 (X : (⟨S8x512x2048, .f32⟩ : BufTy).Contents (Elt F)) : (TRef.of (T := ⟨S8x512x2048, .f32⟩) main_arg3).ofBuf X = X := rfl
theorem ofBuf_main_v40 (X : (⟨S8x1x2048, .i32⟩ : BufTy).Contents (Elt F)) : (TRef.of (T := ⟨S8x1x2048, .i32⟩) main_v40).ofBuf X = X := rfl
theorem ofBuf_main_call7_v5 (X : (⟨S8x1x2048x1, .i32⟩ : BufTy).Contents (Elt F)) : (TRef.of (T := ⟨S8x1x2048x1, .i32⟩) main_call7_v5).ofBuf X = X := rfl
theorem toBuf_main_call1_v4 (X : (⟨S8x1x2048, .i32⟩ : BufTy).Contents (Elt F)) : (TRef.of (T := ⟨S8x1x2048, .i32⟩) main_call1_v4).toBuf X = X := rfl
theorem toBuf_main_v4 (X : (⟨S8x1x2048, .f32⟩ : BufTy).Contents (Elt F)) : (TRef.of (T := ⟨S8x1x2048, .f32⟩) main_v4).toBuf X = X := rfl
theorem toBuf_main_call3_v4 (X : (⟨S8x1x2048, .i32⟩ : BufTy).Contents (Elt F)) : (TRef.of (T := ⟨S8x1x2048, .i32⟩) main_call3_v4).toBuf X = X := rfl
theorem toBuf_main_v15 (X : (⟨S8x1x2048, .f32⟩ : BufTy).Contents (Elt F)) : (TRef.of (T := ⟨S8x1x2048, .f32⟩) main_v15).toBuf X = X := rfl
theorem toBuf_main_call5_v4 (X : (⟨S8x1x2048, .i32⟩ : BufTy).Contents (Elt F)) : (TRef.of (T := ⟨S8x1x2048, .i32⟩) main_call5_v4).toBuf X = X := rfl
theorem toBuf_main_v28 (X : (⟨S8x1x2048, .f32⟩ : BufTy).Contents (Elt F)) : (TRef.of (T := ⟨S8x1x2048, .f32⟩) main_v28).toBuf X = X := rfl
theorem toBuf_main_call7_v4 (X : (⟨S8x1x2048, .i32⟩ : BufTy).Contents (Elt F)) : (TRef.of (T := ⟨S8x1x2048, .i32⟩) main_call7_v4).toBuf X = X := rfl
theorem toBuf_main_v41 (X : (⟨S8x1x2048, .f32⟩ : BufTy).Contents (Elt F)) : (TRef.of (T := ⟨S8x1x2048, .f32⟩) main_v41).toBuf X = X := rfl

/-! ## The stretches, from any contents -/

theorem evalA (W : Valuation τ sig (Elt F)) :
    after (opsA (F := F)) W (Proc.devRef .tc main_v8) = val_main_v8 (F := F) (W (Proc.devRef .tc main_arg0)) (W (Proc.devRef .tc main_arg4)) := by
  after_results_simp
  simp only [ofBuf_toBuf, ofBuf_main_arg0, ofBuf_main_v3, ofBuf_main_call1_v5, ofBuf_main_arg1, ofBuf_main_v14, ofBuf_main_call3_v5, ofBuf_main_arg2, ofBuf_main_v27, ofBuf_main_call5_v5, ofBuf_main_arg3, ofBuf_main_v40, ofBuf_main_call7_v5, toBuf_main_call1_v4, toBuf_main_v4, toBuf_main_call3_v4, toBuf_main_v15, toBuf_main_call5_v4, toBuf_main_v28, toBuf_main_call7_v4, toBuf_main_v41]
  rfl

theorem keepA (W : Valuation τ sig (Elt F)) :
    after (opsA (F := F)) W (Proc.devRef .tc main_arg0) = W (Proc.devRef .tc main_arg0)
    ∧ after (opsA (F := F)) W (Proc.devRef .tc main_arg1) = W (Proc.devRef .tc main_arg1)
    ∧ after (opsA (F := F)) W (Proc.devRef .tc main_arg2) = W (Proc.devRef .tc main_arg2)
    ∧ after (opsA (F := F)) W (Proc.devRef .tc main_arg3) = W (Proc.devRef .tc main_arg3)
    ∧ after (opsA (F := F)) W (Proc.devRef .tc main_arg4) = W (Proc.devRef .tc main_arg4) := by
  refine ⟨?_, ?_, ?_, ?_, ?_⟩ <;> (after_results_simp <;> rfl)

theorem evalB (W : Valuation τ sig (Elt F)) :
    after (opsB (F := F)) W (Proc.devRef .tc main_v23) = val_main_v23 (F := F) (W (Proc.devRef .tc main_arg1)) (W (Proc.devRef .tc main_arg4)) := by
  after_results_simp
  simp only [ofBuf_toBuf, ofBuf_main_arg0, ofBuf_main_v3, ofBuf_main_call1_v5, ofBuf_main_arg1, ofBuf_main_v14, ofBuf_main_call3_v5, ofBuf_main_arg2, ofBuf_main_v27, ofBuf_main_call5_v5, ofBuf_main_arg3, ofBuf_main_v40, ofBuf_main_call7_v5, toBuf_main_call1_v4, toBuf_main_v4, toBuf_main_call3_v4, toBuf_main_v15, toBuf_main_call5_v4, toBuf_main_v28, toBuf_main_call7_v4, toBuf_main_v41]
  rfl

theorem evalB10 (W : Valuation τ sig (Elt F)) :
    after (opsB (F := F)) W (Proc.devRef .tc main_v10) = val_main_v10 (F := F) (W (Proc.devRef .tc main_arg4)) := by
  after_results_simp
  rfl

theorem keepB (W : Valuation τ sig (Elt F)) :
    after (opsB (F := F)) W (Proc.devRef .tc main_arg0) = W (Proc.devRef .tc main_arg0)
    ∧ after (opsB (F := F)) W (Proc.devRef .tc main_arg1) = W (Proc.devRef .tc main_arg1)
    ∧ after (opsB (F := F)) W (Proc.devRef .tc main_arg2) = W (Proc.devRef .tc main_arg2)
    ∧ after (opsB (F := F)) W (Proc.devRef .tc main_arg3) = W (Proc.devRef .tc main_arg3)
    ∧ after (opsB (F := F)) W (Proc.devRef .tc main_arg4) = W (Proc.devRef .tc main_arg4)
    ∧ after (opsB (F := F)) W (Proc.devRef .tc main_v8) = W (Proc.devRef .tc main_v8) := by
  refine ⟨?_, ?_, ?_, ?_, ?_, ?_⟩ <;> (after_results_simp <;> rfl)

theorem evalC (W : Valuation τ sig (Elt F)) (h10 : W (Proc.devRef .tc main_v10) = val_main_v10 (F := F) (W (Proc.devRef .tc main_arg4))) :
    after (opsC (F := F)) W (Proc.devRef .tc main_v36)
      = addf (W (Proc.devRef .tc main_v23)) (val_main_v35 (F := F) (W (Proc.devRef .tc main_arg2)) (W (Proc.devRef .tc main_arg4))) := by
  after_results_simp
  simp only [ofBuf_toBuf, ofBuf_main_arg0, ofBuf_main_v3, ofBuf_main_call1_v5, ofBuf_main_arg1, ofBuf_main_v14, ofBuf_main_call3_v5, ofBuf_main_arg2, ofBuf_main_v27, ofBuf_main_call5_v5, ofBuf_main_arg3, ofBuf_main_v40, ofBuf_main_call7_v5, toBuf_main_call1_v4, toBuf_main_v4, toBuf_main_call3_v4, toBuf_main_v15, toBuf_main_call5_v4, toBuf_main_v28, toBuf_main_call7_v4, toBuf_main_v41]
  rw [h10]
  rfl

theorem keepC (W : Valuation τ sig (Elt F)) :
    after (opsC (F := F)) W (Proc.devRef .tc main_arg0) = W (Proc.devRef .tc main_arg0)
    ∧ after (opsC (F := F)) W (Proc.devRef .tc main_arg1) = W (Proc.devRef .tc main_arg1)
    ∧ after (opsC (F := F)) W (Proc.devRef .tc main_arg2) = W (Proc.devRef .tc main_arg2)
    ∧ after (opsC (F := F)) W (Proc.devRef .tc main_arg3) = W (Proc.devRef .tc main_arg3)
    ∧ after (opsC (F := F)) W (Proc.devRef .tc main_arg4) = W (Proc.devRef .tc main_arg4)
    ∧ after (opsC (F := F)) W (Proc.devRef .tc main_v8) = W (Proc.devRef .tc main_v8)
    ∧ after (opsC (F := F)) W (Proc.devRef .tc main_v10) = W (Proc.devRef .tc main_v10) := by
  refine ⟨?_, ?_, ?_, ?_, ?_, ?_, ?_⟩ <;> (after_results_simp <;> rfl)

theorem evalD (W : Valuation τ sig (Elt F)) (h10 : W (Proc.devRef .tc main_v10) = val_main_v10 (F := F) (W (Proc.devRef .tc main_arg4))) :
    after (opsD (F := F)) W (Proc.devRef .tc main_v49)
      = addf (W (Proc.devRef .tc main_v36)) (val_main_v48 (F := F) (W (Proc.devRef .tc main_arg3)) (W (Proc.devRef .tc main_arg4))) := by
  after_results_simp
  simp only [ofBuf_toBuf, ofBuf_main_arg0, ofBuf_main_v3, ofBuf_main_call1_v5, ofBuf_main_arg1, ofBuf_main_v14, ofBuf_main_call3_v5, ofBuf_main_arg2, ofBuf_main_v27, ofBuf_main_call5_v5, ofBuf_main_arg3, ofBuf_main_v40, ofBuf_main_call7_v5, toBuf_main_call1_v4, toBuf_main_v4, toBuf_main_call3_v4, toBuf_main_v15, toBuf_main_call5_v4, toBuf_main_v28, toBuf_main_call7_v4, toBuf_main_v41]
  rw [h10]
  rfl

theorem keepD (W : Valuation τ sig (Elt F)) :
    after (opsD (F := F)) W (Proc.devRef .tc main_arg0) = W (Proc.devRef .tc main_arg0)
    ∧ after (opsD (F := F)) W (Proc.devRef .tc main_arg1) = W (Proc.devRef .tc main_arg1)
    ∧ after (opsD (F := F)) W (Proc.devRef .tc main_arg2) = W (Proc.devRef .tc main_arg2)
    ∧ after (opsD (F := F)) W (Proc.devRef .tc main_arg3) = W (Proc.devRef .tc main_arg3)
    ∧ after (opsD (F := F)) W (Proc.devRef .tc main_arg4) = W (Proc.devRef .tc main_arg4)
    ∧ after (opsD (F := F)) W (Proc.devRef .tc main_v8) = W (Proc.devRef .tc main_v8) := by
  refine ⟨?_, ?_, ?_, ?_, ?_, ?_⟩ <;> (after_results_simp <;> rfl)

theorem evalE (W : Valuation τ sig (Elt F)) :
    after (opsE (F := F)) W (Proc.devRef .tc main_v52)
      = addf (W (Proc.devRef .tc main_v8)) (mulf (Host.divf (W (Proc.devRef .tc main_v49)) (val_main_cst_7 (F := F))) (val_main_cst_8 (F := F))) := by
  after_results_simp
  rfl

theorem keepE (W : Valuation τ sig (Elt F)) :
    after (opsE (F := F)) W (Proc.devRef .tc main_arg0) = W (Proc.devRef .tc main_arg0)
    ∧ after (opsE (F := F)) W (Proc.devRef .tc main_arg1) = W (Proc.devRef .tc main_arg1)
    ∧ after (opsE (F := F)) W (Proc.devRef .tc main_arg2) = W (Proc.devRef .tc main_arg2)
    ∧ after (opsE (F := F)) W (Proc.devRef .tc main_arg3) = W (Proc.devRef .tc main_arg3)
    ∧ after (opsE (F := F)) W (Proc.devRef .tc main_arg4) = W (Proc.devRef .tc main_arg4) := by
  refine ⟨?_, ?_, ?_, ?_, ?_⟩ <;> (after_results_simp <;> rfl)

/-! ## The whole program -/

/-- The program's result from any launch contents: the last stage of the five arguments. -/
theorem eval52 (V : Valuation τ sig (Elt F)) :
    after (ops (F := F)) V (Proc.devRef .tc main_v52)
      = val_main_v52 (F := F) (V (Proc.devRef .tc main_arg0)) (V (Proc.devRef .tc main_arg1)) (V (Proc.devRef .tc main_arg2)) (V (Proc.devRef .tc main_arg3)) (V (Proc.devRef .tc main_arg4)) := by
  rw [ops_split, after_append, after_append, after_append, after_append]
  obtain ⟨a0, a1, a2, a3, a4⟩ := keepA V
  obtain ⟨b0, b1, b2, b3, b4, b8⟩ := keepB (after opsA V)
  obtain ⟨c0, c1, c2, c3, c4, c8, c10⟩ := keepC (after opsB (after opsA V))
  obtain ⟨d0, d1, d2, d3, d4, d8⟩ := keepD (after opsC (after opsB (after opsA V)))
  have hB10 : after opsB (after opsA V) (Proc.devRef .tc main_v10) = val_main_v10 (F := F) (after opsB (after opsA V) (Proc.devRef .tc main_arg4)) := by
    rw [evalB10, b4]
  have hC10 : after opsC (after opsB (after opsA V)) (Proc.devRef .tc main_v10) = val_main_v10 (F := F) (after opsC (after opsB (after opsA V)) (Proc.devRef .tc main_arg4)) := by
    rw [c10, hB10, c4]
  rw [evalE, d8, c8, b8, evalA, evalD _ hC10, evalC _ hB10, evalB]
  simp only [c3, c4, b1, b2, b3, b4, a1, a2, a3, a4]
  rfl

/-- Every argument is left alone by the whole program. -/
theorem keep_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4) := by
  rw [ops_split, after_append, after_append, after_append, after_append]
  obtain ⟨a0, a1, a2, a3, a4⟩ := keepA V
  obtain ⟨b0, b1, b2, b3, b4, b8⟩ := keepB (after opsA V)
  obtain ⟨c0, c1, c2, c3, c4, c8, c10⟩ := keepC (after opsB (after opsA V))
  obtain ⟨d0, d1, d2, d3, d4, d8⟩ := keepD (after opsC (after opsB (after opsA V)))
  obtain ⟨e0, e1, e2, e3, e4⟩ := keepE (after opsD (after opsC (after opsB (after opsA V))))
  exact ⟨by rw [e0, d0, c0, b0, a0], by rw [e1, d1, c1, b1, a1], by rw [e2, d2, c2, b2, a2], by rw [e3, d3, c3, b3, a3],
    by rw [e4, d4, c4, b4, a4]⟩

/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = val_main_v52 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v52).trans (eval52 (launchContents m c)),
      (h c main_arg0).trans (keep_args (launchContents m c)).1,
      (h c main_arg1).trans (keep_args (launchContents m c)).2.1,
      (h c main_arg2).trans (keep_args (launchContents m c)).2.2.1,
      (h c main_arg3).trans (keep_args (launchContents m c)).2.2.2.1,
      (h c main_arg4).trans (keep_args (launchContents m c)).2.2.2.2⟩)
    (run_seq scopedRefs_eq scopedSems_eq defs main (fun _ => ops) main_eq (fun _ => ops_sub) m ρ)

end Cert.ReferenceIdeal.RunH

end
-- ==== Proof.RefValue.lean ====
/-
  The reference program's result as the specification's total.
  One head: the log-softmax over the 512 classes is (x - M) - log S with M the row's maximum (the maximum of minus
  infinity and the reduction by maximum is that reduction) and S the sum of exp (x - M) from the zero word; for a label
  below 512 the start index is the label itself (it is not negative, so nothing is added to it), the in-bounds mask
  is 1, the batched gather along the class axis reads the log-softmax at (b, label, t), and its negation is the
  specification's cross-entropy -((row[l] - M) - log S). The gates are the first head's label compared with 0, 1, 2
  and read as numbers; a sum over a [8, 2048] array is the double sum over its coordinates; the last lines are the
  specification's last line.
-/
import proofs.«425393_j29738353557664_2_alg».proof.Proof.RefRead
import proofs.«425393_j29738353557664_2_alg».proof.Proof.Spec
import Idealize.ShloMosaic.Lib.Pipeline.Value
import Idealize.ShloMosaic.Lib.ValueIdx
import Idealize.ShloMosaic.Lib.StableHlo.Predicate
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

/-! ### Words -/

/-- The word the maximum is folded from is minus infinity. -/
theorem neg_inf_word : Ideal.ofBits .f32 0xFF800000#32 = (⊥ : EReal) := by
  simp [Ideal.ofBits, Ideal.ieee]

/-- A 32-bit word below 512 reads the same signed and unsigned. -/
theorem toInt_of_lt {l : BitVec 32} (hl : l.toNat < 512) : l.toInt = l.toNat :=
  StableHlo.Predicate.toInt_eq_toNat_of_lt (by omega)

/-- A label below 512 is not negative as a signed integer … -/
theorem slt_zero_of_lt {l : BitVec 32} (hl : l.toNat < 512) : IntOp.cmpi .slt l 0#32 = 0#1 := by
  have e0 : (0#32).toInt = 0 := by decide
  unfold IntOp.cmpi
  simp only [BitVec.slt, toInt_of_lt hl, e0]
  have : ¬ ((l.toNat : Int) < 0) := by omega
  simp [this]

/-- … it is at least zero … -/
theorem sge_zero_of_lt {l : BitVec 32} (hl : l.toNat < 512) : IntOp.cmpi .sge l 0#32 = 1#1 := by
  have e0 : (0#32).toInt = 0 := by decide
  unfold IntOp.cmpi
  simp only [BitVec.sle, toInt_of_lt hl, e0]
  have : (0 : Int) ≤ (l.toNat : Int) := by omega
  simp [this]

/-- … and at most 511. -/
theorem sle_511_of_lt {l : BitVec 32} (hl : l.toNat < 512) : IntOp.cmpi .sle l 511#32 = 1#1 := by
  have e : (511#32).toInt = 511 := by decide
  unfold IntOp.cmpi
  simp only [BitVec.sle, toInt_of_lt hl, e]
  have : (l.toNat : Int) ≤ 511 := by omega
  simp [this]

/-- The start index a gather clamps a label below 512 to is the label. -/
theorem clamp_of_lt {l : BitVec 32} (hl : l.toNat < 512) : min l.toInt.toNat 511 = l.toNat % 512 := by
  rw [toInt_of_lt hl, Int.toNat_natCast, Nat.mod_eq_of_lt hl]
  omega

theorem andi_one (x : BitVec 1) : IntOp.andi x 1#1 = x := by revert x; decide

/-- A one-bit word read as an unsigned number is 1 or 0 as the comparison it came from holds or not. -/
theorem uitofp_cmpi_eq (l v : BitVec 32) :
    (FloatOps.uitofp (F := Ideal) .f32 (IntOp.cmpi .eq l v) : EReal) = gate v l := by
  unfold gate
  by_cases h : l = v
  · subst h
    have : IntOp.cmpi .eq l l = 1#1 := StableHlo.Predicate.cmpi_eq_iff.mpr rfl
    rw [this, if_pos rfl]
    show (((1#1 : BitVec 1).toNat : ℝ) : EReal) = 1
    simp
  · have : IntOp.cmpi .eq l v = 0#1 := by
      have h1 : IntOp.cmpi .eq l v ≠ 1#1 := fun e => h (StableHlo.Predicate.cmpi_eq_iff.mp e)
      revert h1; generalize IntOp.cmpi .eq l v = w; revert w; decide
    rw [this, if_neg h]
    show (((0#1 : BitVec 1).toNat : ℝ) : EReal) = 0
    simp

/-! ### The library operations read at an index, at this program's shapes -/

section Reads
variable {α : Type}

/-- A scalar broadcast reads the scalar everywhere. -/
theorem bcast0_apply {t : Shape} (h : S_.BroadcastsInDim t ![]) (v : S_.Idx → α) (j : t.Idx) :
    broadcastInDim t ![] h v j = v ix0 :=
  broadcastInDim_apply _ h v j ix0 (fun a => a.elim0)

/-- A [8, 2048] array broadcast along a unit class axis. -/
theorem bcast_mid_apply (v : S8x2048.Idx → α) (b : Fin 8) (t : Fin 2048) :
    broadcastInDim S8x1x2048 ![0, 2] bcast_S8x2048_S8x1x2048_0_2 v (ix3 b (0 : Fin 1) t) = v (ix2 b t) :=
  broadcastInDim_apply _ bcast_S8x2048_S8x1x2048_0_2 v (ix3 b (0 : Fin 1) t) (ix2 b t) (fun a => match a with
    | ⟨0, _⟩ => by show b.val = if (8 : Nat) = 1 then 0 else b.val; rw [if_neg (by decide)]
    | ⟨1, _⟩ => by show t.val = if (2048 : Nat) = 1 then 0 else t.val; rw [if_neg (by decide)])

/-- A [8, 1, 2048] array broadcast along the 512 classes. -/
theorem bcast_full_apply (v : S8x1x2048.Idx → α) (b : Fin 8) (c : Fin 512) (t : Fin 2048) :
    broadcastInDim S8x512x2048 ![0, 1, 2] bcast_S8x1x2048_S8x512x2048_0_1_2 v (ix3 b c t) = v (ix3 b (0 : Fin 1) t) :=
  broadcastInDim_apply _ bcast_S8x1x2048_S8x512x2048_0_1_2 v (ix3 b c t) (ix3 b (0 : Fin 1) t) (fun a => match a with
    | ⟨0, _⟩ => by show b.val = if (8 : Nat) = 1 then 0 else b.val; rw [if_neg (by decide)]
    | ⟨1, _⟩ => by show 0 = if (1 : Nat) = 1 then 0 else c.val; rw [if_pos rfl]
    | ⟨2, _⟩ => by show t.val = if (2048 : Nat) = 1 then 0 else t.val; rw [if_neg (by decide)])

/-- The one-element array of 511 broadcast to [8, 1, 2048, 1] reads its element everywhere. -/
theorem bcast_511_apply (v : S1.Idx → α) (j : S8x1x2048x1.Idx) :
    broadcastInDim S8x1x2048x1 ![0, 1, 2, 3] bcast_S1x1x1x1_S8x1x2048x1_0_1_2_3
      (broadcastInDim S1x1x1x1 ![3] bcast_S1_S1x1x1x1_3 v) j = v (ix1 (0 : Fin 1)) := by
  refine (broadcastInDim_apply _ bcast_S1x1x1x1_S8x1x2048x1_0_1_2_3 _ j
    (ix4 (0 : Fin 1) (0 : Fin 1) (0 : Fin 1) (0 : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl]
    | ⟨2, _⟩ => by show 0 = if (1 : Nat) = 1 then 0 else (j 2).val; rw [if_pos rfl]
    | ⟨3, _⟩ => by show 0 = if (1 : Nat) = 1 then 0 else (j 3).val; rw [if_pos rfl])).trans ?_
  exact broadcastInDim_apply _ bcast_S1_S1x1x1x1_3 v _ (ix1 (0 : Fin 1)) (fun a => match a with
    | ⟨0, _⟩ => by show 0 = if (1 : Nat) = 1 then 0 else 0; rw [if_pos rfl])

/-- The reshape [8, 1, 2048] → [8, 1, 2048, 1] keeps the position. -/
theorem cast_add_apply (v : S8x1x2048.Idx → α) (b : Fin 8) (t : Fin 2048) :
    shapeCast S8x1x2048x1 v shapeCasts_S8x1x2048_S8x1x2048x1 (ix4 b (0 : Fin 1) t (0 : Fin 1)) = v (ix3 b (0 : Fin 1) t) :=
  shapeCast_apply v shapeCasts_S8x1x2048_S8x1x2048x1 (ix4 b (0 : Fin 1) t (0 : Fin 1)) (ix3 b (0 : Fin 1) t) (by
    rewrite [Shape.rowMajor_val_three, Shape.rowMajor_val_four]
    show (b.val * 1 + 0) * 2048 + t.val = ((b.val * 1 + 0) * 2048 + t.val) * 1 + 0
    omega)

/-- The reshape [8, 1, 2048] → [8, 2048] keeps the position. -/
theorem cast_drop_apply (v : S8x1x2048.Idx → α) (b : Fin 8) (t : Fin 2048) :
    shapeCast S8x2048 v shapeCasts_S8x1x2048_S8x2048 (ix2 b t) = v (ix3 b (0 : Fin 1) t) :=
  shapeCast_apply v shapeCasts_S8x1x2048_S8x2048 (ix2 b t) (ix3 b (0 : Fin 1) t) (by
    rewrite [Shape.rowMajor_val_three, Shape.rowMajor_val_two]
    show (b.val * 1 + 0) * 2048 + t.val = b.val * 2048 + t.val
    omega)

end Reads

/-- The class axis is the one the row reductions drop. -/
theorem red1 : S8x512x2048.Reduces [1] S8x2048 := by decide
/-- The trailing unit axis is the one the mask's reduction drops. -/
theorem red3 : S8x1x2048x1.Reduces [3] S8x1x2048 := by decide

/-- The reduction by maximum over the classes, from minus infinity, is the row's maximum. -/
theorem reduce_max_apply (x : FVec Ideal S8x512x2048 .f32) (b : Fin 8) (t : Fin 2048) :
    Host.reduce (FloatOps.maximumf (F := Ideal) (φ := .f32)) x (constant (F := Ideal) S_ .f32 0xFF800000#32)
        reducesTo_S8x512x2048_S8x2048_d1 h_S_ (ix2 b t)
      = rowMax (fun c => x (ix3 b c t)) := by
  rw [Host.reduce_eq_fold_single (FloatOps.maximumf (F := Ideal) (φ := .f32)) x _ reducesTo_S8x512x2048_S8x2048_d1 red1 h_S_
    (ix2 b t)]
  show Finset.fold max (Ideal.ofBits .f32 0xFF800000#32) (x ∘ red1.lift (ix2 b t)) Finset.univ
    = Finset.fold max ⊥ (fun c => x (ix3 b c t)) Finset.univ
  rw [neg_inf_word]
  congr 1
  funext k
  show x (red1.lift (ix2 b t) k) = x (ix3 b k t)
  congr 1
  funext a
  match a with
  | ⟨0, _⟩ => rfl
  | ⟨1, _⟩ => rfl
  | ⟨2, _⟩ => rfl

/-- The sum over the classes from the zero word is the plain sum. -/
theorem reduce_add_apply (e : FVec Ideal S8x512x2048 .f32) (b : Fin 8) (t : Fin 2048) :
    Host.reduceAdd (F := Ideal) e (constant (F := Ideal) S_ .f32 0x00000000#32) reducesTo_S8x512x2048_S8x2048_d1 h_S_ (ix2 b t)
      = ∑ c : Fin 512, e (ix3 b c t) := by
  simp only [Host.reduceAdd, Ideal.hostReduceAdd_def]
  rw [Ideal.hostReduceAdd_single reducesTo_S8x512x2048_S8x2048_d1 red1]
  show Ideal.ofBits .f32 0x00000000#32 + _ = _
  rw [Ideal.ofBits_zero_f32, zero_add]
  refine Finset.sum_congr rfl fun k _ => ?_
  refine congrArg e (funext fun a => ?_)
  match a with
  | ⟨0, _⟩ => rfl
  | ⟨1, _⟩ => rfl
  | ⟨2, _⟩ => rfl

/-- A fold over a one-element index set meets the one element. -/
theorem fold_fin_one {β : Type} (op : β → β → β) [Std.Commutative op] [Std.Associative op] (b0 : β) (f : Fin 1 → β) :
    Finset.fold op b0 f Finset.univ = op (f 0) b0 := by
  rw [Finset.univ_unique, Finset.fold_singleton]
  rfl

/-- The mask's reduction by `and` over its trailing unit axis, from 1, reads the one element. -/
theorem reduce_and_apply (m : IVec S8x1x2048x1 1) (b : Fin 8) (t : Fin 2048) :
    Host.reduce IntOp.andi m (constantI S_ 1 1#1) reducesTo_S8x1x2048x1_S8x1x2048_d3 h_S_ (ix3 b (0 : Fin 1) t)
      = m (ix4 b (0 : Fin 1) t (0 : Fin 1)) := by
  rw [Host.reduce_eq_fold_single IntOp.andi m _ reducesTo_S8x1x2048x1_S8x1x2048_d3 red3 h_S_ (ix3 b (0 : Fin 1) t)]
  refine (fold_fin_one IntOp.andi (1#1) (m ∘ red3.lift (ix3 b (0 : Fin 1) t))).trans ?_
  rw [andi_one]
  show m (red3.lift (ix3 b (0 : Fin 1) t) (0 : Fin 1)) = _
  refine congrArg m (funext fun a => ?_)
  match a with
  | ⟨0, _⟩ => rfl
  | ⟨1, _⟩ => rfl
  | ⟨2, _⟩ => rfl
  | ⟨3, _⟩ => rfl

/-! ### The gather -/

/-- The batched gather's operand coordinate on the batch axis: the result's batch coordinate. -/
theorem gather_coord0 (idx : IVec S8x1x2048x1 32) (b : Fin 8) (t : Fin 2048) :
    gather_S8x512x2048_S8x1x2048x1_S8x1x2048_n_1_02_02_1_3_111.start (ix3 b (0 : Fin 1) t) idx (⟨0, by decide⟩ : Fin S8x512x2048.rank)
      + gather_S8x512x2048_S8x1x2048x1_S8x1x2048_n_1_02_02_1_3_111.batchCoord (ix3 b (0 : Fin 1) t) (⟨0, by decide⟩ : Fin S8x512x2048.rank)
      + gather_S8x512x2048_S8x1x2048x1_S8x1x2048_n_1_02_02_1_3_111.offCoord (ix3 b (0 : Fin 1) t) (⟨0, by decide⟩ : Fin S8x512x2048.rank)
      = b.val := by
  rw [GatherDims.start_batching _ _ _ _ (by decide),
    GatherDims.offCoord_eq_zero _ _ _ (fun h => ((GatherDims.mem_sKept _ _).mp h).2 (by decide)),
    Nat.zero_add, Nat.add_zero]
  rfl

/-- On the time axis: the result's time coordinate. -/
theorem gather_coord2 (idx : IVec S8x1x2048x1 32) (b : Fin 8) (t : Fin 2048) :
    gather_S8x512x2048_S8x1x2048x1_S8x1x2048_n_1_02_02_1_3_111.start (ix3 b (0 : Fin 1) t) idx (⟨2, by decide⟩ : Fin S8x512x2048.rank)
      + gather_S8x512x2048_S8x1x2048x1_S8x1x2048_n_1_02_02_1_3_111.batchCoord (ix3 b (0 : Fin 1) t) (⟨2, by decide⟩ : Fin S8x512x2048.rank)
      + gather_S8x512x2048_S8x1x2048x1_S8x1x2048_n_1_02_02_1_3_111.offCoord (ix3 b (0 : Fin 1) t) (⟨2, by decide⟩ : Fin S8x512x2048.rank)
      = t.val := by
  rw [GatherDims.start_batching _ _ _ _ (by decide),
    GatherDims.offCoord_eq_zero _ _ _ (fun h => ((GatherDims.mem_sKept _ _).mp h).2 (by decide)),
    Nat.zero_add, Nat.add_zero]
  rfl

/-- On the collapsed class axis: the start index at (b, 0, t, 0), read signed and clamped into [0, 511]. -/
theorem gather_coord1 (idx : IVec S8x1x2048x1 32) (b : Fin 8) (t : Fin 2048) :
    gather_S8x512x2048_S8x1x2048x1_S8x1x2048_n_1_02_02_1_3_111.start (ix3 b (0 : Fin 1) t) idx (⟨1, by decide⟩ : Fin S8x512x2048.rank)
      + gather_S8x512x2048_S8x1x2048x1_S8x1x2048_n_1_02_02_1_3_111.batchCoord (ix3 b (0 : Fin 1) t) (⟨1, by decide⟩ : Fin S8x512x2048.rank)
      + gather_S8x512x2048_S8x1x2048x1_S8x1x2048_n_1_02_02_1_3_111.offCoord (ix3 b (0 : Fin 1) t) (⟨1, by decide⟩ : Fin S8x512x2048.rank)
      = min (idx (ix4 b (0 : Fin 1) t (0 : Fin 1))).toInt.toNat 511 := by
  have hmem : (⟨1, by decide⟩ : Fin S8x512x2048.rank) ∈ gather_S8x512x2048_S8x1x2048x1_S8x1x2048_n_1_02_02_1_3_111.startIndexMap := by
    decide
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos hmem]
  have hsi : gather_S8x512x2048_S8x1x2048x1_S8x1x2048_n_1_02_02_1_3_111.siIdx (ix3 b (0 : Fin 1) t)
      ⟨List.idxOf (⟨1, by decide⟩ : Fin S8x512x2048.rank) gather_S8x512x2048_S8x1x2048x1_S8x1x2048_n_1_02_02_1_3_111.startIndexMap,
        List.idxOf_lt_length_iff.2 hmem⟩ = ix4 b (0 : Fin 1) t (0 : Fin 1) := by
    funext c
    refine Fin.ext ?_
    match c with
    | ⟨0, _⟩ => rfl
    | ⟨1, _⟩ => rfl
    | ⟨2, _⟩ => rfl
    | ⟨3, _⟩ => rfl
  rw [hsi]
  rfl

/-- The batched gather along the class axis: result (b, 0, t) reads the operand at (b, the start index at (b, 0, t, 0)
    read signed and clamped into [0, 511], t). -/
theorem gather_apply {α : Type} (lp : S8x512x2048.Idx → α) (idx : IVec S8x1x2048x1 32) (b : Fin 8) (t : Fin 2048)
    (k : Fin 512) (hk : k.val = min (idx (ix4 b (0 : Fin 1) t (0 : Fin 1))).toInt.toNat 511) :
    Host.gather gather_S8x512x2048_S8x1x2048x1_S8x1x2048_n_1_02_02_1_3_111 lp idx (ix3 b (0 : Fin 1) t)
      = lp (ix3 b k t) := by
  unfold Host.gather
  refine congrArg lp (funext fun a => Fin.ext ?_)
  match a with
  | ⟨0, _⟩ => exact gather_coord0 idx b t
  | ⟨1, _⟩ => exact (gather_coord1 idx b t).trans hk.symm
  | ⟨2, _⟩ => exact gather_coord2 idx b t

/-! ### One head: log-softmax over the classes, the entry at the label, negated

The stages below are the reference's operations for one head, composed over plain arrays: `x` the head's scores,
`lab` its [8, 2048] label array. -/

section ElementReads
variable {s : Shape} {w : Nat}

theorem hexp_at (v : FVec Ideal s .f32) (i : s.Idx) : Host.exp v i = Ideal.exp (v i) := rfl
theorem hlog_at (v : FVec Ideal s .f32) (i : s.Idx) : Host.log v i = Ideal.log (v i) := rfl
theorem hnegf_at (v : FVec Ideal s .f32) (i : s.Idx) : Host.negf v i = -(v i) := rfl
theorem cmpi_at (p : CmpIPredicate) (a c : IVec s w) (i : s.Idx) : cmpi p a c i = IntOp.cmpi p (a i) (c i) := rfl
theorem addi_at (a c : IVec s w) (i : s.Idx) : addi a c i = IntOp.addi (a i) (c i) := rfl
theorem andi_at (a c : IVec s w) (i : s.Idx) : andi a c i = IntOp.andi (a i) (c i) := rfl
theorem constantI_at (v : BitVec w) (i : s.Idx) : constantI s w v i = v := rfl
theorem uitofp_at (a : IVec s w) (i : s.Idx) : (uitofp .f32 a : FVec Ideal s .f32) i = FloatOps.uitofp (F := Ideal) .f32 (a i) := rfl
theorem hdivf_at (a c : FVec Ideal s .f32) (i : s.Idx) : Host.divf a c i = Ideal.div (a i) (c i) := rfl

end ElementReads

section Head
variable (x : FVec Ideal S8x512x2048 .f32) (lab : IVec S8x2048 32)

/-- The row maxima: the maximum of minus infinity and the reduction by maximum over the classes. -/
def mx : FVec Ideal S8x2048 .f32 :=
  maximumf (broadcastInDim S8x2048 ![] bcast_S_S8x2048 (constant (F := Ideal) S_ .f32 0xFF800000#32))
    (Host.reduce FloatOps.maximumf x (constant (F := Ideal) S_ .f32 0xFF800000#32) reducesTo_S8x512x2048_S8x2048_d1 h_S_)

/-- The scores shifted by their row's maximum. -/
def sh : FVec Ideal S8x512x2048 .f32 :=
  subf x (broadcastInDim S8x512x2048 ![0, 1, 2] bcast_S8x1x2048_S8x512x2048_0_1_2
    (broadcastInDim S8x1x2048 ![0, 2] bcast_S8x2048_S8x1x2048_0_2 (mx x)))

/-- The row sums of the exponentials of the shifted scores. -/
def se : FVec Ideal S8x2048 .f32 :=
  Host.reduceAdd (Host.exp (sh x)) (constant (F := Ideal) S_ .f32 0x00000000#32) reducesTo_S8x512x2048_S8x2048_d1 h_S_

/-- The log-softmax over the classes. -/
def lsm : FVec Ideal S8x512x2048 .f32 :=
  subf (sh x) (broadcastInDim S8x512x2048 ![0, 1, 2] bcast_S8x1x2048_S8x512x2048_0_1_2
    (Host.log (broadcastInDim S8x1x2048 ![0, 2] bcast_S8x2048_S8x1x2048_0_2 (se x))))

/-- The labels with a unit class axis. -/
def lab3 : IVec S8x1x2048 32 := broadcastInDim S8x1x2048 ![0, 2] bcast_S8x2048_S8x1x2048_0_2 lab

/-- The start indices: a negative label moved up by 512, with a trailing unit axis. -/
def idx4 : IVec S8x1x2048x1 32 :=
  shapeCast S8x1x2048x1
    (select (cmpi .slt (lab3 lab) (broadcastInDim S8x1x2048 ![] bcast_S_S8x1x2048 (constantI S_ 32 0#32)))
      (addi (lab3 lab) (broadcastInDim S8x1x2048 ![] bcast_S_S8x1x2048 (constantI S_ 32 512#32))) (lab3 lab))
    shapeCasts_S8x1x2048_S8x1x2048x1

/-- The in-bounds mask: the start index is at least 0 and at most 511. -/
def msk : IVec S8x1x2048 1 :=
  Host.reduce IntOp.andi
    (andi (cmpi .sge (idx4 lab) (broadcastInDim S8x1x2048x1 ![] bcast_S_S8x1x2048x1 (constantI S_ 32 0#32)))
      (cmpi .sle (idx4 lab) (broadcastInDim S8x1x2048x1 ![0, 1, 2, 3] bcast_S1x1x1x1_S8x1x2048x1_0_1_2_3
        (broadcastInDim S1x1x1x1 ![3] bcast_S1_S1x1x1x1_3 (constantI S1 32 511#32)))))
    (constantI S_ 1 1#1) reducesTo_S8x1x2048x1_S8x1x2048_d3 h_S_

/-- The head's per-position loss: minus the log-softmax entry gathered at the label (a fill value out of bounds). -/
def nllv : FVec Ideal S8x2048 .f32 :=
  Host.negf (shapeCast S8x2048
    (select (msk lab) (Host.gather gather_S8x512x2048_S8x1x2048x1_S8x1x2048_n_1_02_02_1_3_111 (lsm x) (idx4 lab))
      (broadcastInDim S8x1x2048 ![] bcast_S_S8x1x2048 (constant (F := Ideal) S_ .f32 0x7FC00000#32)))
    shapeCasts_S8x1x2048_S8x2048)

theorem mx_apply (b : Fin 8) (t : Fin 2048) : mx x (ix2 b t) = rowMax (fun c => x (ix3 b c t)) := by
  unfold mx
  rw [maximumf_apply, bcast0_apply, reduce_max_apply, constant_apply, neg_inf_word]
  exact max_bot_left _

theorem sh_apply (b : Fin 8) (c : Fin 512) (t : Fin 2048) :
    sh x (ix3 b c t) = x (ix3 b c t) - rowMax (fun c => x (ix3 b c t)) := by
  unfold sh
  rw [subf_apply, bcast_full_apply, bcast_mid_apply, mx_apply]

theorem se_apply (b : Fin 8) (t : Fin 2048) : se x (ix2 b t) = rowSum (fun c => x (ix3 b c t)) := by
  unfold se
  rw [reduce_add_apply]
  unfold rowSum
  refine Finset.sum_congr rfl fun c _ => ?_
  rw [hexp_at, sh_apply]

theorem lsm_apply (b : Fin 8) (c : Fin 512) (t : Fin 2048) :
    lsm x (ix3 b c t) = (x (ix3 b c t) - rowMax (fun c => x (ix3 b c t))) - Ideal.log (rowSum (fun c => x (ix3 b c t))) := by
  unfold lsm
  rw [subf_apply, bcast_full_apply, hlog_at, bcast_mid_apply, se_apply, sh_apply]

variable (hl : ∀ j, (lab j).toNat < 512)
include hl

theorem idx4_apply (b : Fin 8) (t : Fin 2048) : idx4 lab (ix4 b (0 : Fin 1) t (0 : Fin 1)) = lab (ix2 b t) := by
  have e : lab3 lab (ix3 b (0 : Fin 1) t) = lab (ix2 b t) := by
    unfold lab3
    exact bcast_mid_apply lab b t
  unfold idx4
  rw [cast_add_apply, select_apply, cmpi_at, e, bcast0_apply, constantI_at, slt_zero_of_lt (hl _), select_zero]

theorem msk_apply (b : Fin 8) (t : Fin 2048) : msk lab (ix3 b (0 : Fin 1) t) = 1#1 := by
  unfold msk
  rw [reduce_and_apply, andi_at, cmpi_at, cmpi_at, idx4_apply lab hl, bcast0_apply, bcast_511_apply, constantI_at,
    constantI_at, sge_zero_of_lt (hl _), sle_511_of_lt (hl _)]
  rfl

/-- One head's per-position loss is the reference's cross-entropy of the row against the label. -/
theorem nllv_apply (b : Fin 8) (t : Fin 2048) :
    nllv x lab (ix2 b t) = nllR (fun c => x (ix3 b c t)) (lab (ix2 b t)) := by
  have hk : (⟨(lab (ix2 b t)).toNat % 512, Nat.mod_lt _ (by norm_num)⟩ : Fin 512).val
      = min (idx4 lab (ix4 b (0 : Fin 1) t (0 : Fin 1))).toInt.toNat 511 := by
    rw [idx4_apply lab hl]
    exact (clamp_of_lt (hl _)).symm
  unfold nllv
  rw [hnegf_at, cast_drop_apply, select_apply, msk_apply lab hl, select_one,
    gather_apply (lsm x) (idx4 lab) b t _ hk, lsm_apply]
  rfl

end Head

/-! ### The labels -/

/-- A [8, 2048] index is (b, t) for some batch and time coordinates. -/
theorem idx2_cases (j : S8x2048.Idx) : ∃ (b : Fin 8) (t : Fin 2048), j = ix2 b t :=
  ⟨⟨(j 0).val, idx2_lt0 j⟩, ⟨(j 1).val, idx2_lt1 j⟩, funext fun a => match a with | ⟨0, _⟩ => rfl | ⟨1, _⟩ => rfl⟩

/-- The labels' slice at 0, reshaped to [8, 2048], reads the labels at (b, t, 0). -/
theorem lab_apply_0 (y : IVec S8x2048x4 32) (b : Fin 8) (t : Fin 2048) :
    shapeCast S8x2048 (extractStridedSlice S8x2048x1 ![0, 0, 0] y slices_S8x2048x4_S8x2048x1_0_0_0) shapeCasts_S8x2048x1_S8x2048
        (ix2 b t)
      = y (ix3 b t (0 : Fin 4)) := by
  refine (shapeCast_apply _ shapeCasts_S8x2048x1_S8x2048 (ix2 b t) (ix3 b t (0 : Fin 1)) ?_).trans ?_
  · rewrite [Shape.rowMajor_val_three, Shape.rowMajor_val_two]
    show (b.val * 2048 + t.val) * 1 + 0 = b.val * 2048 + t.val
    omega
  · exact extractStridedSlice_apply ![0, 0, 0] y slices_S8x2048x4_S8x2048x1_0_0_0
      (ix3 b t (0 : Fin 1)) (ix3 b t (0 : Fin 4)) (fun a => match a with
      | ⟨0, _⟩ => by show b.val = 0 + b.val; omega
      | ⟨1, _⟩ => by show t.val = 0 + t.val; omega
      | ⟨2, _⟩ => by show ((0 : Fin 4) : ℕ) = 0 + ((0 : Fin 1) : ℕ); rfl)

/-- The labels' slice at 1, reshaped to [8, 2048], reads the labels at (b, t, 1). -/
theorem lab_apply_1 (y : IVec S8x2048x4 32) (b : Fin 8) (t : Fin 2048) :
    shapeCast S8x2048 (extractStridedSlice S8x2048x1 ![0, 0, 1] y slices_S8x2048x4_S8x2048x1_0_0_1) shapeCasts_S8x2048x1_S8x2048
        (ix2 b t)
      = y (ix3 b t (1 : Fin 4)) := by
  refine (shapeCast_apply _ shapeCasts_S8x2048x1_S8x2048 (ix2 b t) (ix3 b t (0 : Fin 1)) ?_).trans ?_
  · rewrite [Shape.rowMajor_val_three, Shape.rowMajor_val_two]
    show (b.val * 2048 + t.val) * 1 + 0 = b.val * 2048 + t.val
    omega
  · exact extractStridedSlice_apply ![0, 0, 1] y slices_S8x2048x4_S8x2048x1_0_0_1
      (ix3 b t (0 : Fin 1)) (ix3 b t (1 : Fin 4)) (fun a => match a with
      | ⟨0, _⟩ => by show b.val = 0 + b.val; omega
      | ⟨1, _⟩ => by show t.val = 0 + t.val; omega
      | ⟨2, _⟩ => by show ((1 : Fin 4) : ℕ) = 1 + ((0 : Fin 1) : ℕ); rfl)

/-- The labels' slice at 2, reshaped to [8, 2048], reads the labels at (b, t, 2). -/
theorem lab_apply_2 (y : IVec S8x2048x4 32) (b : Fin 8) (t : Fin 2048) :
    shapeCast S8x2048 (extractStridedSlice S8x2048x1 ![0, 0, 2] y slices_S8x2048x4_S8x2048x1_0_0_2) shapeCasts_S8x2048x1_S8x2048
        (ix2 b t)
      = y (ix3 b t (2 : Fin 4)) := by
  refine (shapeCast_apply _ shapeCasts_S8x2048x1_S8x2048 (ix2 b t) (ix3 b t (0 : Fin 1)) ?_).trans ?_
  · rewrite [Shape.rowMajor_val_three, Shape.rowMajor_val_two]
    show (b.val * 2048 + t.val) * 1 + 0 = b.val * 2048 + t.val
    omega
  · exact extractStridedSlice_apply ![0, 0, 2] y slices_S8x2048x4_S8x2048x1_0_0_2
      (ix3 b t (0 : Fin 1)) (ix3 b t (2 : Fin 4)) (fun a => match a with
      | ⟨0, _⟩ => by show b.val = 0 + b.val; omega
      | ⟨1, _⟩ => by show t.val = 0 + t.val; omega
      | ⟨2, _⟩ => by show ((2 : Fin 4) : ℕ) = 2 + ((0 : Fin 1) : ℕ); rfl)

/-- The labels' slice at 3, reshaped to [8, 2048], reads the labels at (b, t, 3). -/
theorem lab_apply_3 (y : IVec S8x2048x4 32) (b : Fin 8) (t : Fin 2048) :
    shapeCast S8x2048 (extractStridedSlice S8x2048x1 ![0, 0, 3] y slices_S8x2048x4_S8x2048x1_0_0_3) shapeCasts_S8x2048x1_S8x2048
        (ix2 b t)
      = y (ix3 b t (3 : Fin 4)) := by
  refine (shapeCast_apply _ shapeCasts_S8x2048x1_S8x2048 (ix2 b t) (ix3 b t (0 : Fin 1)) ?_).trans ?_
  · rewrite [Shape.rowMajor_val_three, Shape.rowMajor_val_two]
    show (b.val * 2048 + t.val) * 1 + 0 = b.val * 2048 + t.val
    omega
  · exact extractStridedSlice_apply ![0, 0, 3] y slices_S8x2048x4_S8x2048x1_0_0_3
      (ix3 b t (0 : Fin 1)) (ix3 b t (3 : Fin 4)) (fun a => match a with
      | ⟨0, _⟩ => by show b.val = 0 + b.val; omega
      | ⟨1, _⟩ => by show t.val = 0 + t.val; omega
      | ⟨2, _⟩ => by show ((3 : Fin 4) : ℕ) = 3 + ((0 : Fin 1) : ℕ); rfl)

/-! ### The program's four heads -/

/-- Head 0's label array is the labels' slice at 0, reshaped. -/
theorem lab0_eq (y : IVec S8x2048x4 32) :
    val_main_v1 (F := Ideal) y
      = shapeCast S8x2048 (extractStridedSlice S8x2048x1 ![0, 0, 0] y slices_S8x2048x4_S8x2048x1_0_0_0) shapeCasts_S8x2048x1_S8x2048 := by
  unfold val_main_v1 val_main_v0
  with_reducible rfl

/-- Head 0's per-position loss is the generic head's, at its scores and its label array. -/
theorem nll0_eq (x : FVec Ideal S8x512x2048 .f32) (y : IVec S8x2048x4 32) :
    val_main_v6 (F := Ideal) x y = nllv x (val_main_v1 (F := Ideal) y) := by
  unfold val_main_v6 val_main_v5 val_main_v4 val_main_call1_v12 val_main_call1_v13 val_main_call1_v14 val_main_call1_cst val_main_call1_v11 val_main_call1_v7 val_main_call1_v10 val_main_call1_v6 val_main_call1_v9 val_main_call1_v8
    val_main_call1_c_1 val_main_call1_c_2 val_main_call1_c_3 val_main_call1_v5 val_main_call1_v4 val_main_call1_v1 val_main_call1_v3 val_main_call1_v0 val_main_call1_v2 val_main_call1_c val_main_call1_c_0 val_main_v3 val_main_v2
    val_main_call0_v10 val_main_call0_v9 val_main_call0_v8 val_main_call0_v7 val_main_call0_cst_1 val_main_call0_v6 val_main_call0_v5 val_main_call0_v4 val_main_call0_v3 val_main_call0_v2 val_main_call0_v1 val_main_call0_v0 val_main_call0_cst val_main_call0_cst_0
    nllv msk idx4 lab3 lsm se sh mx
  with_reducible rfl

/-- Head 0's per-position loss at (b, t) is the reference's cross-entropy of the row against the label. -/
theorem nll0_apply (x : FVec Ideal S8x512x2048 .f32) (y : IVec S8x2048x4 32) (hy : ∀ i, (y i).toNat < 512)
    (b : Fin 8) (t : Fin 2048) :
    val_main_v6 (F := Ideal) x y (ix2 b t) = nllR (rowOf x b t) (labOf y 0 b t) := by
  have hl : ∀ j, (val_main_v1 (F := Ideal) y j).toNat < 512 := by
    intro j
    obtain ⟨b', t', rfl⟩ := idx2_cases j
    rw [lab0_eq, lab_apply_0]
    exact hy _
  rw [nll0_eq, nllv_apply x _ hl b t, lab0_eq, lab_apply_0]

/-- Head 1's label array is the labels' slice at 1, reshaped. -/
theorem lab1_eq (y : IVec S8x2048x4 32) :
    val_main_v12 (F := Ideal) y
      = shapeCast S8x2048 (extractStridedSlice S8x2048x1 ![0, 0, 1] y slices_S8x2048x4_S8x2048x1_0_0_1) shapeCasts_S8x2048x1_S8x2048 := by
  unfold val_main_v12 val_main_v11
  with_reducible rfl

/-- Head 1's per-position loss is the generic head's, at its scores and its label array. -/
theorem nll1_eq (x : FVec Ideal S8x512x2048 .f32) (y : IVec S8x2048x4 32) :
    val_main_v17 (F := Ideal) x y = nllv x (val_main_v12 (F := Ideal) y) := by
  unfold val_main_v17 val_main_v16 val_main_v15 val_main_call3_v12 val_main_call3_v13 val_main_call3_v14 val_main_call3_cst val_main_call3_v11 val_main_call3_v7 val_main_call3_v10 val_main_call3_v6 val_main_call3_v9 val_main_call3_v8
    val_main_call3_c_1 val_main_call3_c_2 val_main_call3_c_3 val_main_call3_v5 val_main_call3_v4 val_main_call3_v1 val_main_call3_v3 val_main_call3_v0 val_main_call3_v2 val_main_call3_c val_main_call3_c_0 val_main_v14 val_main_v13
    val_main_call2_v10 val_main_call2_v9 val_main_call2_v8 val_main_call2_v7 val_main_call2_cst_1 val_main_call2_v6 val_main_call2_v5 val_main_call2_v4 val_main_call2_v3 val_main_call2_v2 val_main_call2_v1 val_main_call2_v0 val_main_call2_cst val_main_call2_cst_0
    nllv msk idx4 lab3 lsm se sh mx
  with_reducible rfl

/-- Head 1's per-position loss at (b, t) is the reference's cross-entropy of the row against the label. -/
theorem nll1_apply (x : FVec Ideal S8x512x2048 .f32) (y : IVec S8x2048x4 32) (hy : ∀ i, (y i).toNat < 512)
    (b : Fin 8) (t : Fin 2048) :
    val_main_v17 (F := Ideal) x y (ix2 b t) = nllR (rowOf x b t) (labOf y 1 b t) := by
  have hl : ∀ j, (val_main_v12 (F := Ideal) y j).toNat < 512 := by
    intro j
    obtain ⟨b', t', rfl⟩ := idx2_cases j
    rw [lab1_eq, lab_apply_1]
    exact hy _
  rw [nll1_eq, nllv_apply x _ hl b t, lab1_eq, lab_apply_1]

/-- Head 2's label array is the labels' slice at 2, reshaped. -/
theorem lab2_eq (y : IVec S8x2048x4 32) :
    val_main_v25 (F := Ideal) y
      = shapeCast S8x2048 (extractStridedSlice S8x2048x1 ![0, 0, 2] y slices_S8x2048x4_S8x2048x1_0_0_2) shapeCasts_S8x2048x1_S8x2048 := by
  unfold val_main_v25 val_main_v24
  with_reducible rfl

/-- Head 2's per-position loss is the generic head's, at its scores and its label array. -/
theorem nll2_eq (x : FVec Ideal S8x512x2048 .f32) (y : IVec S8x2048x4 32) :
    val_main_v30 (F := Ideal) x y = nllv x (val_main_v25 (F := Ideal) y) := by
  unfold val_main_v30 val_main_v29 val_main_v28 val_main_call5_v12 val_main_call5_v13 val_main_call5_v14 val_main_call5_cst val_main_call5_v11 val_main_call5_v7 val_main_call5_v10 val_main_call5_v6 val_main_call5_v9 val_main_call5_v8
    val_main_call5_c_1 val_main_call5_c_2 val_main_call5_c_3 val_main_call5_v5 val_main_call5_v4 val_main_call5_v1 val_main_call5_v3 val_main_call5_v0 val_main_call5_v2 val_main_call5_c val_main_call5_c_0 val_main_v27 val_main_v26
    val_main_call4_v10 val_main_call4_v9 val_main_call4_v8 val_main_call4_v7 val_main_call4_cst_1 val_main_call4_v6 val_main_call4_v5 val_main_call4_v4 val_main_call4_v3 val_main_call4_v2 val_main_call4_v1 val_main_call4_v0 val_main_call4_cst val_main_call4_cst_0
    nllv msk idx4 lab3 lsm se sh mx
  with_reducible rfl

/-- Head 2's per-position loss at (b, t) is the reference's cross-entropy of the row against the label. -/
theorem nll2_apply (x : FVec Ideal S8x512x2048 .f32) (y : IVec S8x2048x4 32) (hy : ∀ i, (y i).toNat < 512)
    (b : Fin 8) (t : Fin 2048) :
    val_main_v30 (F := Ideal) x y (ix2 b t) = nllR (rowOf x b t) (labOf y 2 b t) := by
  have hl : ∀ j, (val_main_v25 (F := Ideal) y j).toNat < 512 := by
    intro j
    obtain ⟨b', t', rfl⟩ := idx2_cases j
    rw [lab2_eq, lab_apply_2]
    exact hy _
  rw [nll2_eq, nllv_apply x _ hl b t, lab2_eq, lab_apply_2]

/-- Head 3's label array is the labels' slice at 3, reshaped. -/
theorem lab3_eq (y : IVec S8x2048x4 32) :
    val_main_v38 (F := Ideal) y
      = shapeCast S8x2048 (extractStridedSlice S8x2048x1 ![0, 0, 3] y slices_S8x2048x4_S8x2048x1_0_0_3) shapeCasts_S8x2048x1_S8x2048 := by
  unfold val_main_v38 val_main_v37
  with_reducible rfl

/-- Head 3's per-position loss is the generic head's, at its scores and its label array. -/
theorem nll3_eq (x : FVec Ideal S8x512x2048 .f32) (y : IVec S8x2048x4 32) :
    val_main_v43 (F := Ideal) x y = nllv x (val_main_v38 (F := Ideal) y) := by
  unfold val_main_v43 val_main_v42 val_main_v41 val_main_call7_v12 val_main_call7_v13 val_main_call7_v14 val_main_call7_cst val_main_call7_v11 val_main_call7_v7 val_main_call7_v10 val_main_call7_v6 val_main_call7_v9 val_main_call7_v8
    val_main_call7_c_1 val_main_call7_c_2 val_main_call7_c_3 val_main_call7_v5 val_main_call7_v4 val_main_call7_v1 val_main_call7_v3 val_main_call7_v0 val_main_call7_v2 val_main_call7_c val_main_call7_c_0 val_main_v40 val_main_v39
    val_main_call6_v10 val_main_call6_v9 val_main_call6_v8 val_main_call6_v7 val_main_call6_cst_1 val_main_call6_v6 val_main_call6_v5 val_main_call6_v4 val_main_call6_v3 val_main_call6_v2 val_main_call6_v1 val_main_call6_v0 val_main_call6_cst val_main_call6_cst_0
    nllv msk idx4 lab3 lsm se sh mx
  with_reducible rfl

/-- Head 3's per-position loss at (b, t) is the reference's cross-entropy of the row against the label. -/
theorem nll3_apply (x : FVec Ideal S8x512x2048 .f32) (y : IVec S8x2048x4 32) (hy : ∀ i, (y i).toNat < 512)
    (b : Fin 8) (t : Fin 2048) :
    val_main_v43 (F := Ideal) x y (ix2 b t) = nllR (rowOf x b t) (labOf y 3 b t) := by
  have hl : ∀ j, (val_main_v38 (F := Ideal) y j).toNat < 512 := by
    intro j
    obtain ⟨b', t', rfl⟩ := idx2_cases j
    rw [lab3_eq, lab_apply_3]
    exact hy _
  rw [nll3_eq, nllv_apply x _ hl b t, lab3_eq, lab_apply_3]

/-! ### The gates and the sums -/

/-- The first head's label array, as the gates read it. -/
theorem lab0b_apply (y : IVec S8x2048x4 32) (b : Fin 8) (t : Fin 2048) :
    val_main_v10 (F := Ideal) y (ix2 b t) = y (ix3 b t (0 : Fin 4)) := by
  unfold val_main_v10 val_main_v9
  exact lab_apply_0 y b t

/-- Head 1's gate at (b, t): 1 where the first head's label is 0, else 0. -/
theorem gate1_apply (y : IVec S8x2048x4 32) (b : Fin 8) (t : Fin 2048) :
    val_main_v20 (F := Ideal) y (ix2 b t) = gate 0#32 (labOf y 0 b t) := by
  rw [val_main_v20_apply, val_main_v19_apply, val_main_v18_apply, val_main_c_apply, lab0b_apply]
  exact uitofp_cmpi_eq _ _

/-- Head 1's gated loss summed over all positions. -/
theorem sum1_eq (x : FVec Ideal S8x512x2048 .f32) (y : IVec S8x2048x4 32) (hy : ∀ i, (y i).toNat < 512) :
    ∑ j : S8x2048.Idx, val_main_v21 (F := Ideal) x y j
      = ∑ b : Fin 8, ∑ t : Fin 2048, nllR (rowOf x b t) (labOf y 1 b t) * gate 0#32 (labOf y 0 b t) := by
  rw [sum_idx2]
  refine Finset.sum_congr rfl fun b _ => Finset.sum_congr rfl fun t _ => ?_
  rw [val_main_v21_apply, nll1_apply x y hy b t, gate1_apply y b t]
  rfl

/-- Head 2's gate at (b, t): 1 where the first head's label is 1, else 0. -/
theorem gate2_apply (y : IVec S8x2048x4 32) (b : Fin 8) (t : Fin 2048) :
    val_main_v33 (F := Ideal) y (ix2 b t) = gate 1#32 (labOf y 0 b t) := by
  rw [val_main_v33_apply, val_main_v32_apply, val_main_v31_apply, val_main_c_3_apply, lab0b_apply]
  exact uitofp_cmpi_eq _ _

/-- Head 2's gated loss summed over all positions. -/
theorem sum2_eq (x : FVec Ideal S8x512x2048 .f32) (y : IVec S8x2048x4 32) (hy : ∀ i, (y i).toNat < 512) :
    ∑ j : S8x2048.Idx, val_main_v34 (F := Ideal) x y j
      = ∑ b : Fin 8, ∑ t : Fin 2048, nllR (rowOf x b t) (labOf y 2 b t) * gate 1#32 (labOf y 0 b t) := by
  rw [sum_idx2]
  refine Finset.sum_congr rfl fun b _ => Finset.sum_congr rfl fun t _ => ?_
  rw [val_main_v34_apply, nll2_apply x y hy b t, gate2_apply y b t]
  rfl

/-- Head 3's gate at (b, t): 1 where the first head's label is 2, else 0. -/
theorem gate3_apply (y : IVec S8x2048x4 32) (b : Fin 8) (t : Fin 2048) :
    val_main_v46 (F := Ideal) y (ix2 b t) = gate 2#32 (labOf y 0 b t) := by
  rw [val_main_v46_apply, val_main_v45_apply, val_main_v44_apply, val_main_c_5_apply, lab0b_apply]
  exact uitofp_cmpi_eq _ _

/-- Head 3's gated loss summed over all positions. -/
theorem sum3_eq (x : FVec Ideal S8x512x2048 .f32) (y : IVec S8x2048x4 32) (hy : ∀ i, (y i).toNat < 512) :
    ∑ j : S8x2048.Idx, val_main_v47 (F := Ideal) x y j
      = ∑ b : Fin 8, ∑ t : Fin 2048, nllR (rowOf x b t) (labOf y 3 b t) * gate 2#32 (labOf y 0 b t) := by
  rw [sum_idx2]
  refine Finset.sum_congr rfl fun b _ => Finset.sum_congr rfl fun t _ => ?_
  rw [val_main_v47_apply, nll3_apply x y hy b t, gate3_apply y b t]
  rfl

/-- The first head's loss summed over all positions. -/
theorem sum0_eq (x : FVec Ideal S8x512x2048 .f32) (y : IVec S8x2048x4 32) (hy : ∀ i, (y i).toNat < 512) :
    ∑ j : S8x2048.Idx, val_main_v6 (F := Ideal) x y j
      = ∑ b : Fin 8, ∑ t : Fin 2048, nllR (rowOf x b t) (labOf y 0 b t) := by
  rw [sum_idx2]
  exact Finset.sum_congr rfl fun b _ => Finset.sum_congr rfl fun t _ => nll0_apply x y hy b t

/-! ### The result -/

/-- The reference's result is the specification's total of the per-position cross-entropies: the first head's mean
    over all positions, plus an eighth of the three gated heads' sums. -/
theorem result_eq (x0 x1 x2 x3 : FVec Ideal S8x512x2048 .f32) (y : IVec S8x2048x4 32) (hy : ∀ i, (y i).toNat < 512) :
    val_main_v52 (F := Ideal) x0 x1 x2 x3 y
      = fun _ => RTotal (fun b t => nllR (rowOf x0 b t) (labOf y 0 b t))
          (fun b t => nllR (rowOf x1 b t) (labOf y 1 b t) * gate 0#32 (labOf y 0 b t))
          (fun b t => nllR (rowOf x2 b t) (labOf y 2 b t) * gate 1#32 (labOf y 0 b t))
          (fun b t => nllR (rowOf x3 b t) (labOf y 3 b t) * gate 2#32 (labOf y 0 b t)) := by
  funext i
  rw [val_main_v52_apply, val_main_v8_apply, val_main_v7_apply, sum0_eq x0 y hy, val_main_v51_apply, val_main_v50_apply,
    val_main_v49_apply, val_main_v36_apply, val_main_v23_apply, val_main_v22_apply, sum1_eq x1 y hy, val_main_v35_apply,
    sum2_eq x2 y hy, val_main_v48_apply, sum3_eq x3 y hy]
  rfl

end Cert.ReferenceIdeal.RefValue

end
-- ==== Proof.lean ====
/-
  The five claims for the four-head gated cross-entropy loss kernel against its jnp reference, at the extended reals.

  Both programs compute, for scores x_h of shape [8, 512, 2048] (h = 0..3) and labels y of shape [8, 2048, 4]:
  the mean over the 8 * 2048 positions of head 0's cross-entropy, plus one eighth of the sum over heads 1..3 of the
  cross-entropy at the positions where head 0's label equals h - 1. The kernel forms a row's cross-entropy as
  (M + log S) - sum_c x_c [c = l] and accumulates tile by tile, lane by lane; the reference forms it as
  -((x_l - M) - log S) through log_softmax and take_along_axis and sums over all positions. For finite scores and labels
  in [0, 512) — the precondition — the two rows' values are one real number, and the two arrangements of the sums
  agree in any commutative monoid. Labels outside [0, 512) are excluded by the precondition: there the reference
  wraps a negative label around or answers NaN, while the kernel's one-hot selects nothing.

  The kernel's two frames are the generated ones; the reference's frame is its run with the result dropped;
  the idealization rewrote nothing.
-/
import proofs.«425393_j29738353557664_2_alg».proof.Defs
import proofs.«425393_j29738353557664_2_alg».proof.Proof.Gen.Kernel
import proofs.«425393_j29738353557664_2_alg».proof.Proof.Gen.Kernel.Frame
import proofs.«425393_j29738353557664_2_alg».proof.Proof.Gen.KernelIdeal
import proofs.«425393_j29738353557664_2_alg».proof.Proof.Gen.KernelIdeal.Frame
import proofs.«425393_j29738353557664_2_alg».proof.Proof.Gen.ReferenceIdeal
import proofs.«425393_j29738353557664_2_alg».proof.Proof.Gen.Pre_finite_inputs
import proofs.«425393_j29738353557664_2_alg».proof.Proof.KernelValue
import proofs.«425393_j29738353557664_2_alg».proof.Proof.Algebra
import proofs.«425393_j29738353557664_2_alg».proof.Proof.PreRead
import proofs.«425393_j29738353557664_2_alg».proof.Proof.RefRunH
import proofs.«425393_j29738353557664_2_alg».proof.Proof.RefRead
import proofs.«425393_j29738353557664_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- The kernel's total of the kernel-form cross-entropies is the reference's total of the reference-form ones:
    row by row the two forms agree on finite scores and in-range labels, and the two totals are one sum. -/
theorem algebraic : Cert.algebraic_KernelIdeal_ReferenceIdeal := by
  intro m ρ m' ρ' hpre hagree
  refine ⟨fun c => Cert.KernelIdeal.ValueK.result m c, Cert.KernelIdeal.ValueK.run m ρ, ?_⟩
  refine (θ_run Cert.ReferenceIdeal.defs _ _).mono (fun _ h c => ⟨(h c).1.trans ?_, (h c).2⟩)
    (Cert.ReferenceIdeal.RunH.run (F := Ideal) m' ρ')
  obtain ⟨f0, f1, f2, f3, hy⟩ := Cert.PreRead.of_pre _ _ _ _ _ (hpre c)
  rw [(hagree c).1, (hagree c).2.1, (hagree c).2.2.1, (hagree c).2.2.2.1,
    (hagree c).2.2.2.2, Cert.ReferenceIdeal.RefValue.result_eq _ _ _ _ _ hy]
  funext _
  show Cert.Spec.RTotal _ _ _ _ = Cert.Spec.KTotal _ _ _ _
  rw [Cert.Spec.KTotal_eq_RTotal]
  have e : ∀ (x : FVec Ideal Cert.KernelIdeal.S8x512x2048 .f32) (hx : ∀ i, x i ≠ ⊥ ∧ x i ≠ ⊤) (h : Fin 4) (b : Fin 8) (t : Fin 2048),
      Cert.Spec.nllR (Cert.Spec.rowOf x b t) (Cert.Spec.labOf (Cert.KernelIdeal.Blocks.ay m c) h b t)
        = Cert.Spec.nllK (Cert.Spec.rowOf x b t) (Cert.Spec.labOf (Cert.KernelIdeal.Blocks.ay m c) h b t) :=
    fun x hx h b t => (Cert.Spec.nllK_eq_nllR _ _ (fun k => hx _) (hy _)).symm
  unfold Cert.KernelIdeal.Acc.A0 Cert.KernelIdeal.Acc.B1 Cert.KernelIdeal.Acc.B2 Cert.KernelIdeal.Acc.B3
  congr 1 <;> funext b t
  · exact e _ f0 0 b t
  · rw [e _ f1 1 b t]
  · rw [e _ f2 2 b t]
  · rw [e _ f3 3 b t]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
